-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_v32 : IVec S_ 1) (main_c_12 : IVec S_ 32) : IVec S_ 1 :=
  let main_v33 : IVec S2x1600000 32 := broadcastInDim S2x1600000 ![] bcast_S_S2x1600000 main_c_12
  let main_v34 : IVec S2x1600000 1 := cmpi .slt main_arg1 main_v33
  let main_c_13 : IVec S_ 1 := constantI S_ 1 1#1
  let main_v35 : IVec S_ 1 := (fun x v => Host.reduce IntOp.andi x v reducesTo_S2x1600000_S_d0_1 h_S_) main_v34 main_c_13
  let main_v36 : IVec S_ 1 := andi main_v32 main_v35
  main_v36

def fn_part1 {F : FTy → Type} [FloatOps F] (main_arg1 : IVec S2x1600000 32) (main_arg5 : FVec F S64 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x1600000 32 := broadcastInDim S2x1600000 ![] bcast_S_S2x1600000 main_c_10
  let main_v30 : IVec S2x1600000 1 := cmpi .sge main_arg1 main_v29
  let main_c_11 : IVec S_ 1 := constantI S_ 1 1#1
  let main_v31 : IVec S_ 1 := (fun x v => Host.reduce IntOp.andi x v reducesTo_S2x1600000_S_d0_1 h_S_) main_v30 main_c_11
  let main_v32 : IVec S_ 1 := andi main_v28 main_v31
  let main_c_12 : IVec S_ 32 := constantI S_ 32 100000#32
  fn_part2 (F := F) main_arg1 main_v32 main_c_12

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1 : Shape := ⟨1, ![1]⟩
abbrev S1x1600000 : Shape := ⟨2, ![1, 1600000]⟩
abbrev S1600000 : Shape := ⟨1, ![1600000]⟩
abbrev S512 : Shape := ⟨1, ![512]⟩
abbrev S5000x64 : Shape := ⟨2, ![5000, 64]⟩
abbrev S_ : Shape := ⟨0, ![]⟩
abbrev S1x64 : Shape := ⟨2, ![1, 64]⟩

abbrev nBuf : Space → Nat
  | .hbm => 13
  | .vmem => 9
  | .smem => 4
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S1, .f32⟩
  | .local _ .vmem, ⟨0, _⟩ => ⟨S64x64, .f32⟩
  | .local _ .vmem, ⟨1, _⟩ => ⟨S64, .f32⟩
  | .local _ .vmem, ⟨2, _⟩ => ⟨S64x64, .f32⟩
  | .local _ .vmem, ⟨3, _⟩ => ⟨S64, .f32⟩
  | .local _ .vmem, ⟨4, _⟩ => ⟨S1, .f32⟩
  | .local _ .vmem, ⟨5, _⟩ => ⟨S1, .f32⟩
  | .local _ .vmem, ⟨6, _⟩ => ⟨S100000x64, .f32⟩
  | .local _ .vmem, ⟨7, _⟩ => ⟨S100000x64, .f32⟩
  | .local _ .vmem, ⟨8, _⟩ => ⟨S5000x64, .f32⟩
  | .local _ .smem, ⟨0, _⟩ => ⟨S512, .i32⟩
  | .local _ .smem, ⟨1, _⟩ => ⟨S512, .i32⟩
  | .local _ .smem, ⟨2, _⟩ => ⟨S512, .i32⟩
  | .local _ .smem, ⟨3, _⟩ => ⟨S512, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![3125], ![false]⟩

@[reducible] def k0_t1_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_off1 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c8_i32 : BitVec 32 := 8#32
  let v7 : BitVec 32 := Scalar.muli arg16 c8_i32
  let c0_i32_4 : BitVec 32 := 0#32
  let v8 : BitVec 32 := Scalar.addi v7 c0_i32_4
  let v9 : Index := Scalar.indexCast v8
  ![v9.toNat]
def k0_off2 (v12 : BitVec 32) : Fin 2 → Nat :=
  let v13 : Index := Scalar.indexCast v12
  let c0 : Index := 0#32
  ![v13.toNat, 0]

def k0_off3 (v10 : BitVec 32) : Fin 2 → Nat :=
  let v16 : Index := Scalar.indexCast v10
  let c0_5 : Index := 0#32
  ![v16.toNat, 0]

def k0_chk2 (v10 : BitVec 32) : Prop :=
  (∀ a, (k0_off3 v10) a + S1x64.size a ≤ S100000x64.size a)
instance k0_chk2.dec : ∀ (v10 : BitVec 32), Decidable (k0_chk2 v10) := fun v10 => decidable_of_iff' _ (Iff.of_eq (k0_chk2.eq_1 v10))
theorem k0_off3_inb : ∀ (v10 : BitVec 32) (k0_hw2 : k0_chk2 v10), ∀ a, (k0_off3 v10) a + S1x64.size a ≤ S100000x64.size a := fun v10 k0_hw2 => k0_hw2

def k0_off4 (v12 : BitVec 32) : Fin 2 → Nat :=
  let v20 : Index := Scalar.indexCast v12
  let c0_6 : Index := 0#32
  ![v20.toNat, 0]

def k0_chk1 (v12 : BitVec 32) : Prop :=
  (∀ a, (k0_off2 v12) a + S1x64.size a ≤ S100000x64.size a) ∧
  (∀ a, (k0_off4 v12) a + S1x64.size a ≤ S100000x64.size a)
instance k0_chk1.dec : ∀ (v12 : BitVec 32), Decidable (k0_chk1 v12) := fun v12 => decidable_of_iff' _ (Iff.of_eq (k0_chk1.eq_1 v12))
theorem k0_off2_inb : ∀ (v12 : BitVec 32) (k0_hw1 : k0_chk1 v12), ∀ a, (k0_off2 v12) a + S1x64.size a ≤ S100000x64.size a := fun v12 k0_hw1 => k0_hw1.1
theorem k0_off4_inb : ∀ (v12 : BitVec 32) (k0_hw1 : k0_chk1 v12), ∀ a, (k0_off4 v12) a + S1x64.size a ≤ S100000x64.size a := fun v12 k0_hw1 => k0_hw1.2

def k0_off5 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c8_i32 : BitVec 32 := 8#32
  let v7 : BitVec 32 := Scalar.muli arg16 c8_i32
  let c1_i32_7 : BitVec 32 := 1#32
  let v24 : BitVec 32 := Scalar.addi v7 c1_i32_7
  let v25 : Index := Scalar.indexCast v24
  ![v25.toNat]
def k0_off6 (v28 : BitVec 32) : Fin 2 → Nat :=
  let v29 : Index := Scalar.indexCast v28
  let c0_8 : Index := 0#32
  ![v29.toNat, 0]

def k0_off7 (v26 : BitVec 32) : Fin 2 → Nat :=
  let v32 : Index := Scalar.indexCast v26
  let c0_9 : Index := 0#32
  ![v32.toNat, 0]

def k0_chk4 (v26 : BitVec 32) : Prop :=
  (∀ a, (k0_off7 v26) a + S1x64.size a ≤ S100000x64.size a)
instance k0_chk4.dec : ∀ (v26 : BitVec 32), Decidable (k0_chk4 v26) := fun v26 => decidable_of_iff' _ (Iff.of_eq (k0_chk4.eq_1 v26))
theorem k0_off7_inb : ∀ (v26 : BitVec 32) (k0_hw4 : k0_chk4 v26), ∀ a, (k0_off7 v26) a + S1x64.size a ≤ S100000x64.size a := fun v26 k0_hw4 => k0_hw4

def k0_off8 (v28 : BitVec 32) : Fin 2 → Nat :=
  let v36 : Index := Scalar.indexCast v28
  let c0_10 : Index := 0#32
  ![v36.toNat, 0]

def k0_chk3 (v28 : BitVec 32) : Prop :=
  (∀ a, (k0_off6 v28) a + S1x64.size a ≤ S100000x64.size a) ∧
  (∀ a, (k0_off8 v28) a + S1x64.size a ≤ S100000x64.size a)
instance k0_chk3.dec : ∀ (v28 : BitVec 32), Decidable (k0_chk3 v28) := fun v28 => decidable_of_iff' _ (Iff.of_eq (k0_chk3.eq_1 v28))
theorem k0_off6_inb : ∀ (v28 : BitVec 32) (k0_hw3 : k0_chk3 v28), ∀ a, (k0_off6 v28) a + S1x64.size a ≤ S100000x64.size a := fun v28 k0_hw3 => k0_hw3.1
theorem k0_off8_inb : ∀ (v28 : BitVec 32) (k0_hw3 : k0_chk3 v28), ∀ a, (k0_off8 v28) a + S1x64.size a ≤ S100000x64.size a := fun v28 k0_hw3 => k0_hw3.2

def k0_off9 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c8_i32 : BitVec 32 := 8#32
  let v7 : BitVec 32 := Scalar.muli arg16 c8_i32
  let c2_i32 : BitVec 32 := 2#32
  let v40 : BitVec 32 := Scalar.addi v7 c2_i32
  let v41 : Index := Scalar.indexCast v40
  ![v41.toNat]
def k0_off10 (v44 : BitVec 32) : Fin 2 → Nat :=
  let v45 : Index := Scalar.indexCast v44
  let c0_11 : Index := 0#32
  ![v45.toNat, 0]

def k0_off11 (v42 : BitVec 32) : Fin 2 → Nat :=
  let v48 : Index := Scalar.indexCast v42
  let c0_12 : Index := 0#32
  ![v48.toNat, 0]

def k0_chk6 (v42 : BitVec 32) : Prop :=
  (∀ a, (k0_off11 v42) a + S1x64.size a ≤ S100000x64.size a)
instance k0_chk6.dec : ∀ (v42 : BitVec 32), Decidable (k0_chk6 v42) := fun v42 => decidable_of_iff' _ (Iff.of_eq (k0_chk6.eq_1 v42))
theorem k0_off11_inb : ∀ (v42 : BitVec 32) (k0_hw6 : k0_chk6 v42), ∀ a, (k0_off11 v42) a + S1x64.size a ≤ S100000x64.size a := fun v42 k0_hw6 => k0_hw6

def k0_off12 (v44 : BitVec 32) : Fin 2 → Nat :=
  let v52 : Index := Scalar.indexCast v44
  let c0_13 : Index := 0#32
  ![v52.toNat, 0]

def k0_chk5 (v44 : BitVec 32) : Prop :=
  (∀ a, (k0_off10 v44) a + S1x64.size a ≤ S100000x64.size a) ∧
  (∀ a, (k0_off12 v44) a + S1x64.size a ≤ S100000x64.size a)
instance k0_chk5.dec : ∀ (v44 : BitVec 32), Decidable (k0_chk5 v44) := fun v44 => decidable_of_iff' _ (Iff.of_eq (k0_chk5.eq_1 v44))
theorem k0_off10_inb : ∀ (v44 : BitVec 32) (k0_hw5 : k0_chk5 v44), ∀ a, (k0_off10 v44) a + S1x64.size a ≤ S100000x64.size a := fun v44 k0_hw5 => k0_hw5.1
theorem k0_off12_inb : ∀ (v44 : BitVec 32) (k0_hw5 : k0_chk5 v44), ∀ a, (k0_off12 v44) a + S1x64.size a ≤ S100000x64.size a := fun v44 k0_hw5 => k0_hw5.2

def k0_off13 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c8_i32 : BitVec 32 := 8#32
  let v7 : BitVec 32 := Scalar.muli arg16 c8_i32
  let c3_i32 : BitVec 32 := 3#32
  let v56 : BitVec 32 := Scalar.addi v7 c3_i32
  let v57 : Index := Scalar.indexCast v56
  ![v57.toNat]
def k0_off14 (v60 : BitVec 32) : Fin 2 → Nat :=
  let v61 : Index := Scalar.indexCast v60
  let c0_14 : Index := 0#32
  ![v61.toNat, 0]

def k0_off15 (v58 : BitVec 32) : Fin 2 → Nat :=
  let v64 : Index := Scalar.indexCast v58
  let c0_15 : Index := 0#32
  ![v64.toNat, 0]

def k0_chk8 (v58 : BitVec 32) : Prop :=
  (∀ a, (k0_off15 v58) a + S1x64.size a ≤ S100000x64.size a)
instance k0_chk8.dec : ∀ (v58 : BitVec 32), Decidable (k0_chk8 v58) := fun v58 => decidable_of_iff' _ (Iff.of_eq (k0_chk8.eq_1 v58))
theorem k0_off15_inb : ∀ (v58 : BitVec 32) (k0_hw8 : k0_chk8 v58), ∀ a, (k0_off15 v58) a + S1x64.size a ≤ S100000x64.size a := fun v58 k0_hw8 => k0_hw8

def k0_off16 (v60 : BitVec 32) : Fin 2 → Nat :=
  let v68 : Index := Scalar.indexCast v60
  let c0_16 : Index := 0#32
  ![v68.toNat, 0]

def k0_chk7 (v60 : BitVec 32) : Prop :=
  (∀ a, (k0_off14 v60) a + S1x64.size a ≤ S100000x64.size a) ∧
  (∀ a, (k0_off16 v60) a + S1x64.size a ≤ S100000x64.size a)
instance k0_chk7.dec : ∀ (v60 : BitVec 32), Decidable (k0_chk7 v60) := fun v60 => decidable_of_iff' _ (Iff.of_eq (k0_chk7.eq_1 v60))
theorem k0_off14_inb : ∀ (v60 : BitVec 32) (k0_hw7 : k0_chk7 v60), ∀ a, (k0_off14 v60) a + S1x64.size a ≤ S100000x64.size a := fun v60 k0_hw7 => k0_hw7.1
theorem k0_off16_inb : ∀ (v60 : BitVec 32) (k0_hw7 : k0_chk7 v60), ∀ a, (k0_off16 v60) a + S1x64.size a ≤ S100000x64.size a := fun v60 k0_hw7 => k0_hw7.2

def k0_off17 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c8_i32 : BitVec 32 := 8#32
  let v7 : BitVec 32 := Scalar.muli arg16 c8_i32
  let c4_i32 : BitVec 32 := 4#32
  let v72 : BitVec 32 := Scalar.addi v7 c4_i32
  let v73 : Index := Scalar.indexCast v72
  ![v73.toNat]
def k0_off18 (v76 : BitVec 32) : Fin 2 → Nat :=
  let v77 : Index := Scalar.indexCast v76
  let c0_17 : Index := 0#32
  ![v77.toNat, 0]

def k0_off19 (v74 : BitVec 32) : Fin 2 → Nat :=
  let v80 : Index := Scalar.indexCast v74
  let c0_18 : Index := 0#32
  ![v80.toNat, 0]

def k0_chk10 (v74 : BitVec 32) : Prop :=
  (∀ a, (k0_off19 v74) a + S1x64.size a ≤ S100000x64.size a)
instance k0_chk10.dec : ∀ (v74 : BitVec 32), Decidable (k0_chk10 v74) := fun v74 => decidable_of_iff' _ (Iff.of_eq (k0_chk10.eq_1 v74))
theorem k0_off19_inb : ∀ (v74 : BitVec 32) (k0_hw10 : k0_chk10 v74), ∀ a, (k0_off19 v74) a + S1x64.size a ≤ S100000x64.size a := fun v74 k0_hw10 => k0_hw10

def k0_off20 (v76 : BitVec 32) : Fin 2 → Nat :=
  let v84 : Index := Scalar.indexCast v76
  let c0_19 : Index := 0#32
  ![v84.toNat, 0]

def k0_chk9 (v76 : BitVec 32) : Prop :=
  (∀ a, (k0_off18 v76) a + S1x64.size a ≤ S100000x64.size a) ∧
  (∀ a, (k0_off20 v76) a + S1x64.size a ≤ S100000x64.size a)
instance k0_chk9.dec : ∀ (v76 : BitVec 32), Decidable (k0_chk9 v76) := fun v76 => decidable_of_iff' _ (Iff.of_eq (k0_chk9.eq_1 v76))
theorem k0_off18_inb : ∀ (v76 : BitVec 32) (k0_hw9 : k0_chk9 v76), ∀ a, (k0_off18 v76) a + S1x64.size a ≤ S100000x64.size a := fun v76 k0_hw9 => k0_hw9.1
theorem k0_off20_inb : ∀ (v76 : BitVec 32) (k0_hw9 : k0_chk9 v76), ∀ a, (k0_off20 v76) a + S1x64.size a ≤ S100000x64.size a := fun v76 k0_hw9 => k0_hw9.2

def k0_off21 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c8_i32 : BitVec 32 := 8#32
  let v7 : BitVec 32 := Scalar.muli arg16 c8_i32
  let c5_i32 : BitVec 32 := 5#32
  let v88 : BitVec 32 := Scalar.addi v7 c5_i32
  let v89 : Index := Scalar.indexCast v88
  ![v89.toNat]
def k0_off22 (v92 : BitVec 32) : Fin 2 → Nat :=
  let v93 : Index := Scalar.indexCast v92
  let c0_20 : Index := 0#32
  ![v93.toNat, 0]

def k0_off23 (v90 : BitVec 32) : Fin 2 → Nat :=
  let v96 : Index := Scalar.indexCast v90
  let c0_21 : Index := 0#32
  ![v96.toNat, 0]

def k0_chk12 (v90 : BitVec 32) : Prop :=
  (∀ a, (k0_off23 v90) a + S1x64.size a ≤ S100000x64.size a)
instance k0_chk12.dec : ∀ (v90 : BitVec 32), Decidable (k0_chk12 v90) := fun v90 => decidable_of_iff' _ (Iff.of_eq (k0_chk12.eq_1 v90))
theorem k0_off23_inb : ∀ (v90 : BitVec 32) (k0_hw12 : k0_chk12 v90), ∀ a, (k0_off23 v90) a + S1x64.size a ≤ S100000x64.size a := fun v90 k0_hw12 => k0_hw12

def k0_off24 (v92 : BitVec 32) : Fin 2 → Nat :=
  let v100 : Index := Scalar.indexCast v92
  let c0_22 : Index := 0#32
  ![v100.toNat, 0]

def k0_chk11 (v92 : BitVec 32) : Prop :=
  (∀ a, (k0_off22 v92) a + S1x64.size a ≤ S100000x64.size a) ∧
  (∀ a, (k0_off24 v92) a + S1x64.size a ≤ S100000x64.size a)
instance k0_chk11.dec : ∀ (v92 : BitVec 32), Decidable (k0_chk11 v92) := fun v92 => decidable_of_iff' _ (Iff.of_eq (k0_chk11.eq_1 v92))
theorem k0_off22_inb : ∀ (v92 : BitVec 32) (k0_hw11 : k0_chk11 v92), ∀ a, (k0_off22 v92) a + S1x64.size a ≤ S100000x64.size a := fun v92 k0_hw11 => k0_hw11.1
theorem k0_off24_inb : ∀ (v92 : BitVec 32) (k0_hw11 : k0_chk11 v92), ∀ a, (k0_off24 v92) a + S1x64.size a ≤ S100000x64.size a := fun v92 k0_hw11 => k0_hw11.2

def k0_off25 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c8_i32 : BitVec 32 := 8#32
  let v7 : BitVec 32 := Scalar.muli arg16 c8_i32
  let c6_i32 : BitVec 32 := 6#32
  let v104 : BitVec 32 := Scalar.addi v7 c6_i32
  let v105 : Index := Scalar.indexCast v104
  ![v105.toNat]
def k0_off26 (v108 : BitVec 32) : Fin 2 → Nat :=
  let v109 : Index := Scalar.indexCast v108
  let c0_23 : Index := 0#32
  ![v109.toNat, 0]

def k0_off27 (v106 : BitVec 32) : Fin 2 → Nat :=
  let v112 : Index := Scalar.indexCast v106
  let c0_24 : Index := 0#32
  ![v112.toNat, 0]

def k0_chk14 (v106 : BitVec 32) : Prop :=
  (∀ a, (k0_off27 v106) a + S1x64.size a ≤ S100000x64.size a)
instance k0_chk14.dec : ∀ (v106 : BitVec 32), Decidable (k0_chk14 v106) := fun v106 => decidable_of_iff' _ (Iff.of_eq (k0_chk14.eq_1 v106))
theorem k0_off27_inb : ∀ (v106 : BitVec 32) (k0_hw14 : k0_chk14 v106), ∀ a, (k0_off27 v106) a + S1x64.size a ≤ S100000x64.size a := fun v106 k0_hw14 => k0_hw14

def k0_off28 (v108 : BitVec 32) : Fin 2 → Nat :=
  let v116 : Index := Scalar.indexCast v108
  let c0_25 : Index := 0#32
  ![v116.toNat, 0]

def k0_chk13 (v108 : BitVec 32) : Prop :=
  (∀ a, (k0_off26 v108) a + S1x64.size a ≤ S100000x64.size a) ∧
  (∀ a, (k0_off28 v108) a + S1x64.size a ≤ S100000x64.size a)
instance k0_chk13.dec : ∀ (v108 : BitVec 32), Decidable (k0_chk13 v108) := fun v108 => decidable_of_iff' _ (Iff.of_eq (k0_chk13.eq_1 v108))
theorem k0_off26_inb : ∀ (v108 : BitVec 32) (k0_hw13 : k0_chk13 v108), ∀ a, (k0_off26 v108) a + S1x64.size a ≤ S100000x64.size a := fun v108 k0_hw13 => k0_hw13.1
theorem k0_off28_inb : ∀ (v108 : BitVec 32) (k0_hw13 : k0_chk13 v108), ∀ a, (k0_off28 v108) a + S1x64.size a ≤ S100000x64.size a := fun v108 k0_hw13 => k0_hw13.2

def k0_off29 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c8_i32 : BitVec 32 := 8#32
  let v7 : BitVec 32 := Scalar.muli arg16 c8_i32
  let c7_i32 : BitVec 32 := 7#32
  let v120 : BitVec 32 := Scalar.addi v7 c7_i32
  let v121 : Index := Scalar.indexCast v120
  ![v121.toNat]
def k0_off30 (v124 : BitVec 32) : Fin 2 → Nat :=
  let v125 : Index := Scalar.indexCast v124
  let c0_26 : Index := 0#32
  ![v125.toNat, 0]

def k0_off31 (v122 : BitVec 32) : Fin 2 → Nat :=
  let v128 : Index := Scalar.indexCast v122
  let c0_27 : Index := 0#32
  ![v128.toNat, 0]

def k0_chk16 (v122 : BitVec 32) : Prop :=
  (∀ a, (k0_off31 v122) a + S1x64.size a ≤ S100000x64.size a)
instance k0_chk16.dec : ∀ (v122 : BitVec 32), Decidable (k0_chk16 v122) := fun v122 => decidable_of_iff' _ (Iff.of_eq (k0_chk16.eq_1 v122))
theorem k0_off31_inb : ∀ (v122 : BitVec 32) (k0_hw16 : k0_chk16 v122), ∀ a, (k0_off31 v122) a + S1x64.size a ≤ S100000x64.size a := fun v122 k0_hw16 => k0_hw16

def k0_off32 (v124 : BitVec 32) : Fin 2 → Nat :=
  let v132 : Index := Scalar.indexCast v124
  let c0_28 : Index := 0#32
  ![v132.toNat, 0]

def k0_chk15 (v124 : BitVec 32) : Prop :=
  (∀ a, (k0_off30 v124) a + S1x64.size a ≤ S100000x64.size a) ∧
  (∀ a, (k0_off32 v124) a + S1x64.size a ≤ S100000x64.size a)
instance k0_chk15.dec : ∀ (v124 : BitVec 32), Decidable (k0_chk15 v124) := fun v124 => decidable_of_iff' _ (Iff.of_eq (k0_chk15.eq_1 v124))
theorem k0_off30_inb : ∀ (v124 : BitVec 32) (k0_hw15 : k0_chk15 v124), ∀ a, (k0_off30 v124) a + S1x64.size a ≤ S100000x64.size a := fun v124 k0_hw15 => k0_hw15.1
theorem k0_off32_inb : ∀ (v124 : BitVec 32) (k0_hw15 : k0_chk15 v124), ∀ a, (k0_off32 v124) a + S1x64.size a ≤ S100000x64.size a := fun v124 k0_hw15 => k0_hw15.2

def k0_cond2 (i : grid0.Coords) : BitVec 1 :=
  let arg0 : BitVec 32 := BitVec.ofNat 32 (i 0).val
  let c3124_i32 : BitVec 32 := 3124#32
  let v4 : BitVec 1 := Scalar.cmpi .eq arg0 c3124_i32
  let v5 : BitVec 32 := Scalar.extui v4
  let c0_i32_3 : BitVec 32 := 0#32
  let v6 : BitVec 1 := Scalar.cmpi .ne v5 c0_i32_3
  v6

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .smem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S100000x64_S100000x64_0_0 : ∀ a, (![0, 0] : Fin 2 → Nat) a + S100000x64.size a ≤ S100000x64.size a
  h_S100000x64 : 0 < S100000x64.numel
  shapeCasts_S100000x64_S100000x64 : S100000x64.ShapeCasts S100000x64
  numel1_S1 : S1.numel = 1
  h_S1x64 : 0 < S1x64.numel
  shapeCasts_S1x64_S64 : S1x64.ShapeCasts S64
  shapeCasts_S64_S1x64 : S64.ShapeCasts S1x64
  inb_S1_S1_0 : ∀ a, (![0] : Fin 1 → Nat) a + S1.size a ≤ S1.size a
  h_S1 : 0 < S1.numel
  inpos_S1_p0 : ∀ a, (![0] : Fin 1 → Nat) a < S1.size a
  inb_S100000x64_S5000x64_0_0 : ∀ a, (![0, 0] : Fin 2 → Nat) a + S5000x64.size a ≤ S100000x64.size a
  h_S5000x64 : 0 < S5000x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  broadcasts_S1x64_S5000x64 : S1x64.Broadcasts S5000x64
  inb_S5000x64_S5000x64_0_0 : ∀ a, (![0, 0] : Fin 2 → Nat) a + S5000x64.size a ≤ S5000x64.size a
  shapeCasts_S5000x64_S5000x64 : S5000x64.ShapeCasts S5000x64
  inb_S100000x64_S5000x64_5000_0 : ∀ a, (![5000, 0] : Fin 2 → Nat) a + S5000x64.size a ≤ S100000x64.size a
  inb_S100000x64_S5000x64_10000_0 : ∀ a, (![10000, 0] : Fin 2 → Nat) a + S5000x64.size a ≤ S100000x64.size a
  inb_S100000x64_S5000x64_15000_0 : ∀ a, (![15000, 0] : Fin 2 → Nat) a + S5000x64.size a ≤ S100000x64.size a
  inb_S100000x64_S5000x64_20000_0 : ∀ a, (![20000, 0] : Fin 2 → Nat) a + S5000x64.size a ≤ S100000x64.size a
  inb_S100000x64_S5000x64_25000_0 : ∀ a, (![25000, 0] : Fin 2 → Nat) a + S5000x64.size a ≤ S100000x64.size a
  inb_S100000x64_S5000x64_30000_0 : ∀ a, (![30000, 0] : Fin 2 → Nat) a + S5000x64.size a ≤ S100000x64.size a
  inb_S100000x64_S5000x64_35000_0 : ∀ a, (![35000, 0] : Fin 2 → Nat) a + S5000x64.size a ≤ S100000x64.size a
  inb_S100000x64_S5000x64_40000_0 : ∀ a, (![40000, 0] : Fin 2 → Nat) a + S5000x64.size a ≤ S100000x64.size a
  inb_S100000x64_S5000x64_45000_0 : ∀ a, (![45000, 0] : Fin 2 → Nat) a + S5000x64.size a ≤ S100000x64.size a
  inb_S100000x64_S5000x64_50000_0 : ∀ a, (![50000, 0] : Fin 2 → Nat) a + S5000x64.size a ≤ S100000x64.size a
  inb_S100000x64_S5000x64_55000_0 : ∀ a, (![55000, 0] : Fin 2 → Nat) a + S5000x64.size a ≤ S100000x64.size a
  inb_S100000x64_S5000x64_60000_0 : ∀ a, (![60000, 0] : Fin 2 → Nat) a + S5000x64.size a ≤ S100000x64.size a
  inb_S100000x64_S5000x64_65000_0 : ∀ a, (![65000, 0] : Fin 2 → Nat) a + S5000x64.size a ≤ S100000x64.size a
  inb_S100000x64_S5000x64_70000_0 : ∀ a, (![70000, 0] : Fin 2 → Nat) a + S5000x64.size a ≤ S100000x64.size a
  inb_S100000x64_S5000x64_75000_0 : ∀ a, (![75000, 0] : Fin 2 → Nat) a + S5000x64.size a ≤ S100000x64.size a
  inb_S100000x64_S5000x64_80000_0 : ∀ a, (![80000, 0] : Fin 2 → Nat) a + S5000x64.size a ≤ S100000x64.size a
  inb_S100000x64_S5000x64_85000_0 : ∀ a, (![85000, 0] : Fin 2 → Nat) a + S5000x64.size a ≤ S100000x64.size a
  inb_S100000x64_S5000x64_90000_0 : ∀ a, (![90000, 0] : Fin 2 → Nat) a + S5000x64.size a ≤ S100000x64.size a
  inb_S100000x64_S5000x64_95000_0 : ∀ a, (![95000, 0] : Fin 2 → Nat) a + S5000x64.size a ≤ S100000x64.size a
  dot_S5000x64_S64x64_S5000x64_1_0_0_1_n_n_wf : DotDims.WF S5000x64 S64x64 S5000x64 [1] [0] [0] [1] [] []
  hcc0_scratch3 : 10 + S_.numel ≤ 12
  hcc0_scratch4 : 11 + S_.numel ≤ 12
  hrank0 : 0 < grid0.rank
  k0_t1_ok : k0_t1_loop.OK
  k0_off1_inb : ∀ k0_t1 : Fin k0_t1_loop.trips, ∀ a, (k0_off1 k0_t1) a + S1.size a ≤ S512.size a
  k0_off5_inb : ∀ k0_t1 : Fin k0_t1_loop.trips, ∀ a, (k0_off5 k0_t1) a + S1.size a ≤ S512.size a
  k0_off9_inb : ∀ k0_t1 : Fin k0_t1_loop.trips, ∀ a, (k0_off9 k0_t1) a + S1.size a ≤ S512.size a
  k0_off13_inb : ∀ k0_t1 : Fin k0_t1_loop.trips, ∀ a, (k0_off13 k0_t1) a + S1.size a ≤ S512.size a
  k0_off17_inb : ∀ k0_t1 : Fin k0_t1_loop.trips, ∀ a, (k0_off17 k0_t1) a + S1.size a ≤ S512.size a
  k0_off21_inb : ∀ k0_t1 : Fin k0_t1_loop.trips, ∀ a, (k0_off21 k0_t1) a + S1.size a ≤ S512.size a
  k0_off25_inb : ∀ k0_t1 : Fin k0_t1_loop.trips, ∀ a, (k0_off25 k0_t1) a + S1.size a ≤ S512.size a
  k0_off29_inb : ∀ k0_t1 : Fin k0_t1_loop.trips, ∀ a, (k0_off29 k0_t1) a + S1.size a ≤ S512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S1600000.size a
  hwx0_0 : ∀ i : grid0.Coords, EltTy.bits .i32 = 32 ∨ (Rect.block (s := S1600000) S512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S1600000.size a
  hwx0_1 : ∀ i : grid0.Coords, EltTy.bits .i32 = 32 ∨ (Rect.block (s := S1600000) S512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S64x64.size a ≤ S64x64.size a
  hwx0_2 : ∀ i : grid0.Coords, EltTy.bits .f32 = 32 ∨ (Rect.block (s := S64x64) S64x64.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S64.size a ≤ S64.size a
  hwx0_3 : ∀ i : grid0.Coords, EltTy.bits .f32 = 32 ∨ (Rect.block (s := S64) S64.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S64x64.size a ≤ S64x64.size a
  hwx0_4 : ∀ i : grid0.Coords, EltTy.bits .f32 = 32 ∨ (Rect.block (s := S64x64) S64x64.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S64.size a ≤ S64.size a
  hwx0_5 : ∀ i : grid0.Coords, EltTy.bits .f32 = 32 ∨ (Rect.block (s := S64) S64.size (cc0_transform_6 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_7 i = cc0_transform_7 i'
  hinb0_6 : ∀ (i : grid0.Coords) a, (cc0_transform_7 i a + 1) * S1.size a ≤ S1.size a
  hwx0_6 : ∀ i : grid0.Coords, EltTy.bits .f32 = 32 ∨ (Rect.block (s := S1) S1.size (cc0_transform_7 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_9 i = cc0_transform_9 i'
  hinb0_7 : ∀ (i : grid0.Coords) a, (cc0_transform_9 i a + 1) * S1.size a ≤ S1.size a
  hwx0_7 : ∀ i : grid0.Coords, EltTy.bits .f32 = 32 ∨ (Rect.block (s := S1) S1.size (cc0_transform_9 i) (hinb0_7 i)).WholeWords (EltTy.packing .f32)

variable [Facts₀]

abbrev cc0_scratch3 : DmaSems sig S_ := SemArray.consecutive 10 S_ hcc0_scratch3
abbrev cc0_scratch4 : DmaSems sig S_ := SemArray.consecutive 11 S_ hcc0_scratch4
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v1) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_5 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_6 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_7 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1.size cc0_transform_9 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S1, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1x1, .f32⟩
  | .hbm, ⟨45, _⟩ => ⟨S100000x64, .f32⟩
  | .hbm, ⟨46, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1 : S_.BroadcastsInDim S1 (![] : Fin 0 → Fin S1.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelLoop.lean ====
/-
  The edge loop of the fused kernel, one trip at a symbolic trip number, and its invariant.

  At every grid point the body runs 64 trips; trip k handles the eight edges 8k … 8k+7 of the point's block of 512:
  it reads the edge's source word and destination word from the two staged index blocks, checks that each names
  a row of the arrays, and adds the source's feature row (from the resident copy of x) to the destination's row
  of the aggregate, in place. A trip therefore leaves the aggregate's buffer at its previous contents overwritten
  by eight one-row pieces, each piece's payload read off the contents the earlier pieces left. The trip is run once,
  at a symbolic k, under the one fact the checks need: every word of the two index blocks is below 100000. The
  pieces of the trips before k, newest first, are `pieces k`; the invariant before trip k holds the two index blocks
  and the copy of x at their contents and the aggregate at its loop-entry contents overwritten by `pieces k`.
-/
import proofs.«407827_j64682207478383_2_alg».proof.Proof.Gen.Kernel.Loops
import Idealize.ShloMosaic.Lib.Pipeline.Routed

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UC : Type := UR sig nD τ × Counters
local notation "𝕄" => MT nD τ sig Unit (Elt F) ℕ UC ℕ

/-- A word below the number of rows names a row inside the arrays: the row's one-row rectangle fits. -/
theorem row_ok {v : BitVec 32} (h : v.toNat < 100000) :
    ∀ a, (![(Scalar.indexCast v).toNat, 0] : Fin 2 → ℕ) a + S1x64.size a ≤ S100000x64.size a := by
  intro a
  match a with
  | ⟨0, _⟩ => show (Scalar.indexCast v).toNat + 1 ≤ 100000; simp only [Scalar.indexCast]; omega
  | ⟨1, _⟩ => show 0 + 64 ≤ 64; omega

/-- Every word an index block holds is a row number. -/
abbrev WordsOK (M : Memref sig .tc .smem S512 .i32) (X : BufTy.Contents (Elt F) M.view.ty) : Prop :=
  ∀ (r : LoadRect S512) (y : r.shape.Idx), (View.readAt (Elt F) M.view r X y).toNat < 100000

/-- What a trip touches: the two index blocks and the copy of x, read; the aggregate, read and written. -/
abbrev Trip (c : Dev nD) (arg1 arg2 : Memref sig .tc .smem S512 .i32) (arg11 arg12 : Memref sig .tc .vmem S100000x64 .f32)
    (X1 : BufTy.Contents (Elt F) arg1.view.ty) (X2 : BufTy.Contents (Elt F) arg2.view.ty)
    (X11 : BufTy.Contents (Elt F) arg11.view.ty) (f12 : BufTy.Contents (Elt F) arg12.view.ty) : sProp 𝕄 :=
  iprop((arg1.view.loc (c : Thread nD τ) ↦[arg1.view.set]{fullShare} X1) ∗ (arg2.view.loc (c : Thread nD τ) ↦[arg2.view.set]{fullShare} X2)
    ∗ (arg11.view.loc (c : Thread nD τ) ↦[arg11.view.set]{fullShare} X11) ∗ (arg12.view.loc (c : Thread nD τ) ↦[arg12.view.set]{fullShare} f12))

/-- ONE TRIP at a symbolic trip number: the eight row pieces it writes into the aggregate, as a function of the
    contents it finds there, and the trip's run from those contents to them overwritten by the pieces. -/
@[irreducible] def trip (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (k : Fin k0_t1_loop.trips) :
    { L : BufTy.Contents (Elt F) arg12.view.ty → List (View.Piece (Elt F) S100000x64 .f32) // ∀ (f12 : BufTy.Contents (Elt F) arg12.view.ty),
      Trip (F := F) c arg1 arg2 arg11 arg12 X1 X2 X11 f12
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 arg15 k PUnit.unit)
          (fun _ => Trip (F := F) c arg1 arg2 arg11 arg12 X1 X2 X11 (arg12.view.writes (Elt F) f12 (L f12))) } := by
  refine ⟨?_, fun f12 => ?run⟩
  case run =>
    unfold k0_t1_body
    iintro ⟨H1, H2, H11, H12⟩
    sl_exec (disch := (sl_unfold_run_names; first | exact row_ok (hX1 _ _) | exact ⟨row_ok (hX2 _ _), row_ok (hX2 _ _)⟩))
    sl_step
    sl_close

/-- The trip's pieces at the contents it finds (a plain projection, for the recursion below to cite). -/
abbrev tripL (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (k : Fin k0_t1_loop.trips) (f12 : BufTy.Contents (Elt F) arg12.view.ty) :
    List (View.Piece (Elt F) S100000x64 .f32) :=
  (trip (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 k).1 f12

/-- Trip k's pieces in front of the pieces before it, taken at the contents those left; past the last trip, nothing more. -/
@[irreducible] def piecesStep (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty)
    (k : ℕ) (prev : List (View.Piece (Elt F) S100000x64 .f32)) : List (View.Piece (Elt F) S100000x64 .f32) :=
  if h : k < k0_t1_loop.trips then
    (tripL (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 ⟨k, h⟩ (arg12.view.writes (Elt F) G12 prev)) ++ prev
  else prev

/-- The pieces of the trips before k, newest first, from the aggregate's contents `G12` at loop entry. -/
def pieces (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty) :
    ℕ → List (View.Piece (Elt F) S100000x64 .f32)
  | 0 => []
  | k + 1 => piecesStep (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k (pieces c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k)

theorem pieces_succ (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty) (k : Fin k0_t1_loop.trips) :
    pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 (k.val + 1)
      = (tripL (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 k (arg12.view.writes (Elt F) G12 (pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k.val)))
          ++ (pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k.val) := by
  rw [pieces.eq_2]; unfold piecesStep; exact dif_pos k.isLt

/-- THE INVARIANT before trip k: the index blocks and the copy of x at their contents, the aggregate at its
    loop-entry contents overwritten by the pieces of the trips before k. -/
abbrev inv (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty) (k : ℕ) (_u : Unit) : sProp 𝕄 :=
  iprop((arg1.view.loc (c : Thread nD τ) ↦[arg1.view.set]{fullShare} X1) ∗ (arg2.view.loc (c : Thread nD τ) ↦[arg2.view.set]{fullShare} X2)
    ∗ (arg11.view.loc (c : Thread nD τ) ↦[arg11.view.set]{fullShare} X11)
    ∗ (∃ f, (arg12.view.loc (c : Thread nD τ) ↦[arg12.view.set]{fullShare} f)
        ∗ ⌜f = arg12.view.writes (Elt F) G12 (pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k)⌝))

/-- One trip takes the invariant before it to the invariant after it. -/
theorem inv_step (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty)
    (k : Fin k0_t1_loop.trips) (acc : Unit) :
    inv (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k.val acc
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 arg15 k acc)
          (inv (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 (k.val + 1)) := by
  iintro ⟨H1, H2, H11, ⟨%f12, H12, %h12⟩⟩
  iapply (wp_wand_r Idealize.ShloMosaic.frame (wpE (defs₀ (F := F)) Variants.none (c : Thread nD τ) none) Set.univ)
  isplitl [H1 H2 H11 H12]
  · iapply ((trip (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 k).2 f12)
    isplitl [H1]; · iexact H1
    isplitl [H2]; · iexact H2
    isplitl [H11]; · iexact H11
    iexact H12
  · iintro %_ ⟨H1, H2, H11, H12⟩
    isplitl [H1]; · iexact H1
    isplitl [H2]; · iexact H2
    isplitl [H11]; · iexact H11
    rw [pieces_succ]
    iexists _; isplitl [H12]; · iexact H12
    ipureintro; rw [h12, ← View.writes_append]

end Cert.Proof.Kernel

end
-- ==== Proof.KernelKinds.lean ====
/-
  The fused kernel's body at a symbolic grid point, by the point's kind.

  The grid has one axis of 3125 points, one per block of 512 edges. At the FIRST point the body copies x from the
  array left in place into a resident scratch copy (its own transfer, issued and waited for at once) and fills the
  aggregate with zeros; at EVERY point it runs the 64 trips of the edge loop over the point's two index blocks; at
  the LAST point it computes the gate and, tile by tile (twenty tiles of 5000 rows), the perceptron of x plus the
  aggregate, storing each tile and copying it out into the result's rows by a transfer issued and waited for at
  once. Three runs, one per kind, each at any point of its kind — the kind given as the body's own two branch
  conditions — from the buffers the body touches at their contents to those buffers at what the body leaves:
  the aggregate at its entry contents overwritten by the loop's pieces (`aggAfter`), at the first point from the
  zero fill (`aggZero`) with the copy of x at x's contents (`xCopy`).
-/
import proofs.«407827_j64682207478383_2_alg».proof.Proof.KernelLoop

set_option maxRecDepth 65536
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

/-- The grid point is the first: the body's own test, as it computes it. -/
abbrev IsFirst (t : Fin cfg0.N) : Prop :=
  Scalar.cmpi .ne (Scalar.extui (Scalar.cmpi .eq (BitVec.ofNat 32 ((grid0.coords t) 0).val) 0#32)) 0#32 = 1#1
/-- The grid point is the last. -/
abbrev IsLast (t : Fin cfg0.N) : Prop := k0_cond2 (grid0.coords t) = 1#1

/-- A memref's buffer contents on core `c`; the buffer held whole at contents `f`; held by the memref's own elements. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev ptS (c : Dev nD) {sp : Space} {S : Shape} {e : EltTy} (M : Memref sig .tc sp S e) (f : BufTy.Contents (Elt F) M.view.ty) : sProp 𝕄 :=
  M.view.loc (c : Thread nD τ) ↦[M.view.set]{fullShare} f

/-- The loop's trip count (64). -/
abbrev nTrips : ℕ := Scf.trips k0_t1_loop.lb k0_t1_loop.ub k0_t1_loop.st

/-- The resident copy of x after the first point's transfer: the buffer written whole with x's contents. -/
abbrev xCopy (c : Dev nD) (Xh : Bf (F := F) c (Memref.whole main_arg0 : Memref sig .tc .hbm S100000x64 .f32)) :
    BufTy.Contents (Elt F) (Memref.whole cc0_scratch0 : Memref sig .tc .vmem S100000x64 .f32).view.ty :=
  (Memref.whole cc0_scratch0 : Memref sig .tc .vmem S100000x64 .f32).view.writes (Elt F) (Memref.whole cc0_scratch0 : Memref sig .tc .vmem S100000x64 .f32).view.junk
    [⟨Rect.whole _, ReadAs.same.apply ((Memref.whole main_arg0 : Memref sig .tc .hbm S100000x64 .f32).view.read (Elt F) Xh)⟩]

/-- The aggregate after the first point's zero fill. -/
abbrev aggZero : BufTy.Contents (Elt F) (Memref.whole cc0_scratch1 : Memref sig .tc .vmem S100000x64 .f32).view.ty :=
  (Memref.whole cc0_scratch1 : Memref sig .tc .vmem S100000x64 .f32).view.writes (Elt F) (Memref.whole cc0_scratch1 : Memref sig .tc .vmem S100000x64 .f32).view.junk
    [⟨Rect.unit (s := S100000x64) ![0, 0] S100000x64.size inb_S100000x64_S100000x64_0_0, k0_pay1 (F := F)⟩]

section Runs

variable (c : Dev nD) (t : Fin cfg0.N) (arg1 : Memref sig .tc .smem S512 .i32) (harg1 : arg1.IsWhole) (arg2 : Memref sig .tc .smem S512 .i32) (harg2 : arg2.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg10 : Memref sig .tc .vmem S1 .f32) (harg10 : arg10.IsWhole)

/-- The aggregate after a point's loop, from contents `G12`, the copy of x at `X11`, the point's index blocks at `X1`, `X2`. -/
abbrev aggAfter (X1 : BufTy.Contents (Elt F) arg1.view.ty) (X2 : BufTy.Contents (Elt F) arg2.view.ty)
    (X11 : BufTy.Contents (Elt F) (Memref.whole cc0_scratch0 : Memref sig .tc .vmem S100000x64 .f32).view.ty)
    (hX1 : WordsOK (F := F) arg1 X1) (hX2 : WordsOK (F := F) arg2 X2)
    (G12 : BufTy.Contents (Elt F) (Memref.whole cc0_scratch1 : Memref sig .tc .vmem S100000x64 .f32).view.ty) :
    BufTy.Contents (Elt F) (Memref.whole cc0_scratch1 : Memref sig .tc .vmem S100000x64 .f32).view.ty :=
  (Memref.whole cc0_scratch1 : Memref sig .tc .vmem S100000x64 .f32).view.writes (Elt F) G12
    (pieces (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12 nTrips)

set_option sl_exec.dmaWindow true in
/-- The first point: x copied in, the aggregate zeroed, the loop run from the zero fill. -/
theorem run_first (hF : IsFirst t) (hL : ¬ IsLast t)
    (X1 : BufTy.Contents (Elt F) arg1.view.ty) (X2 : BufTy.Contents (Elt F) arg2.view.ty)
    (Xh : Bf (F := F) c (Memref.whole main_arg0 : Memref sig .tc .hbm S100000x64 .f32))
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (hX1 : WordsOK (F := F) arg1 X1) (hX2 : WordsOK (F := F) arg2 X2) (W : Waits sig Unit) (Q : PUnit → sProp 𝕄) :
    iprop(ptS c arg1 X1 ∗ ptS c arg2 X2 ∗ pt c (Memref.whole main_arg0) Xh
      ∗ ptS c (Memref.whole cc0_scratch0) X11 ∗ ptS c (Memref.whole cc0_scratch1) G12
      ∗ semVal ((c : Thread nD τ), SemLoc.dma (10 : DmaSem sig)) 0 ∗ owes (c : Thread nD τ) 0 W
      ∗ (iprop(ptS c arg1 X1 ∗ ptS c arg2 X2 ∗ pt c (Memref.whole main_arg0) Xh
          ∗ ptS c (Memref.whole cc0_scratch0) (xCopy (F := F) c Xh)
          ∗ ptS c (Memref.whole cc0_scratch1) (aggAfter (F := F) c t arg1 harg1 arg2 harg2 arg4 harg4 arg5 harg5 arg6 harg6 arg7 harg7 arg8 harg8 arg10 harg10 X1 X2 (xCopy (F := F) c Xh) hX1 hX2 (aggZero (F := F)))
          ∗ semVal ((c : Thread nD τ), SemLoc.dma (10 : DmaSem sig)) 0 ∗ (∃ W', owes (c : Thread nD τ) 0 W')) -∗ Q ⟨⟩))
      ⊢ wp frame (wpE (defs₀ (F := F)) Variants.none (c : Thread nD τ) none) Set.univ
          (cc0__fused_kernel (F := F) (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4) Q := by
  iintro ⟨H1, H2, Hx, H11, H12, Hs, HO, Hk⟩
  simp only [cc0__fused_kernel_eq_skeleton]; unfold cc0__fused_kernel_skel
  sl_exec (disch := assumption)
  sl_for (inv (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 (xCopy (F := F) c Xh) hX1 hX2 (aggZero (F := F))) $$ [H1 H2 H11 H12]
  · exact inv_step (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 (xCopy (F := F) c Xh) hX1 hX2 (aggZero (F := F))
  · isplitl [H1]; · iexact H1
    isplitl [H2]; · iexact H2
    isplitl [H11]; · iexact H11
    iexists _; isplitl [H12]; · iexact H12
    ipureintro
    rw [pieces.eq_1, View.writes_nil]
    exact congrArg (fun L => (Memref.whole cc0_scratch1 : Memref sig .tc .vmem S100000x64 .f32).view.writes (Elt F) (Memref.whole cc0_scratch1 : Memref sig .tc .vmem S100000x64 .f32).view.junk L)
      (show _ = ([⟨Rect.unit (s := S100000x64) ![0, 0] S100000x64.size inb_S100000x64_S100000x64_0_0, k0_pay1 (F := F)⟩] : List (View.Piece (Elt F) S100000x64 .f32)) by sl_unfold_run_names; rfl)
  · iintro %acc ⟨H1, H2, H11, ⟨%f12, H12, %h12⟩⟩
    subst h12
    sl_exec (disch := assumption)
    sl_step
    iapply Hk
    isplitl [H1]; · iexact H1
    isplitl [H2]; · iexact H2
    isplitl [Hx]; · iexact Hx
    isplitl [H11]; · iexact H11
    isplitl [H12]; · iexact H12
    isplitl [Hs]; · iexact Hs
    iexists _; iexact HO

/-- A middle point: the loop alone. -/
theorem run_mid (hF : ¬ IsFirst t) (hL : ¬ IsLast t)
    (X1 : BufTy.Contents (Elt F) arg1.view.ty) (X2 : BufTy.Contents (Elt F) arg2.view.ty)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (hX1 : WordsOK (F := F) arg1 X1) (hX2 : WordsOK (F := F) arg2 X2) (Q : PUnit → sProp 𝕄) :
    iprop(ptS c arg1 X1 ∗ ptS c arg2 X2 ∗ ptS c (Memref.whole cc0_scratch0) X11 ∗ ptS c (Memref.whole cc0_scratch1) G12
      ∗ (iprop(ptS c arg1 X1 ∗ ptS c arg2 X2 ∗ ptS c (Memref.whole cc0_scratch0) X11
          ∗ ptS c (Memref.whole cc0_scratch1) (aggAfter (F := F) c t arg1 harg1 arg2 harg2 arg4 harg4 arg5 harg5 arg6 harg6 arg7 harg7 arg8 harg8 arg10 harg10 X1 X2 X11 hX1 hX2 G12)) -∗ Q ⟨⟩))
      ⊢ wp frame (wpE (defs₀ (F := F)) Variants.none (c : Thread nD τ) none) Set.univ
          (cc0__fused_kernel (F := F) (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4) Q := by
  iintro ⟨H1, H2, H11, H12, Hk⟩
  simp only [cc0__fused_kernel_eq_skeleton]; unfold cc0__fused_kernel_skel
  sl_exec (disch := assumption)
  sl_for (inv (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12) $$ [H1 H2 H11 H12]
  · exact inv_step (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12
  · isplitl [H1]; · iexact H1
    isplitl [H2]; · iexact H2
    isplitl [H11]; · iexact H11
    iexists _; isplitl [H12]; · iexact H12
    ipureintro; rfl
  · iintro %acc ⟨H1, H2, H11, ⟨%f12, H12, %h12⟩⟩
    subst h12
    sl_exec (disch := assumption)
    sl_step
    iapply Hk
    isplitl [H1]; · iexact H1
    isplitl [H2]; · iexact H2
    isplitl [H11]; · iexact H11
    iexact H12

/-- The gate's staging buffer after the last point: its one cell stored with the logistic of the staged parameter. -/
abbrev gateAfter (X8 : BufTy.Contents (Elt F) arg8.view.ty) (D10 : BufTy.Contents (Elt F) arg10.view.ty) : BufTy.Contents (Elt F) arg10.view.ty :=
  arg10.view.writes (Elt F) D10
    [⟨Rect.unit (s := S1) ![0] S1.size inb_S1_S1_0,
      k0_pay13 (View.readAt (Elt F) arg8.view (Rect.unit (s := S1) ![0] S1.size inb_S1_S1_0).toLoadRect X8)⟩]

set_option sl_exec.dmaWindow true in
/-- The last point: the loop, then the gate and the twenty tiles, each stored to the tile buffer and copied out into
    its rows of the result. The pieces the result and the tile buffer end overwritten by are the run's own finds
    (the result's: one 5000-row block per tile, its payload what the transfer read off the tile buffer). -/
@[irreducible] def runLast (hF : ¬ IsFirst t) (hL : IsLast t)
    (X1 : BufTy.Contents (Elt F) arg1.view.ty) (X2 : BufTy.Contents (Elt F) arg2.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (D10 : BufTy.Contents (Elt F) arg10.view.ty)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (T13 : BufTy.Contents (Elt F) (Memref.whole cc0_scratch2 : Memref sig .tc .vmem S5000x64 .f32).view.ty)
    (hX1 : WordsOK (F := F) arg1 X1) (hX2 : WordsOK (F := F) arg2 X2) :
    Σ' (Pout : List (View.Piece (Elt F) S100000x64 .f32)), { Ptile : List (View.Piece (Elt F) S5000x64 .f32) //
      ∀ (Yo : Bf (F := F) c (Memref.whole main_v4_0 : Memref sig .tc .hbm S100000x64 .f32)) (W : Waits sig Unit),
      iprop(ptS c arg1 X1 ∗ ptS c arg2 X2 ∗ ptS c arg4 X4 ∗ ptS c arg5 X5 ∗ ptS c arg6 X6 ∗ ptS c arg7 X7 ∗ ptS c arg8 X8 ∗ ptS c arg10 D10
        ∗ ptS c (Memref.whole cc0_scratch0) X11 ∗ ptS c (Memref.whole cc0_scratch1) G12 ∗ ptS c (Memref.whole cc0_scratch2) T13
        ∗ pt c (Memref.whole main_v4_0) Yo
        ∗ semVal ((c : Thread nD τ), SemLoc.dma (11 : DmaSem sig)) 0 ∗ owes (c : Thread nD τ) 0 W)
      ⊢ wp frame (wpE (defs₀ (F := F)) Variants.none (c : Thread nD τ) none) Set.univ
          (cc0__fused_kernel (F := F) (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4)
          (fun _ => iprop(ptS c arg1 X1 ∗ ptS c arg2 X2 ∗ ptS c arg4 X4 ∗ ptS c arg5 X5 ∗ ptS c arg6 X6 ∗ ptS c arg7 X7 ∗ ptS c arg8 X8
            ∗ ptS c arg10 (gateAfter (F := F) arg8 arg10 X8 D10)
            ∗ ptS c (Memref.whole cc0_scratch0) X11
            ∗ ptS c (Memref.whole cc0_scratch1) (aggAfter (F := F) c t arg1 harg1 arg2 harg2 arg4 harg4 arg5 harg5 arg6 harg6 arg7 harg7 arg8 harg8 arg10 harg10 X1 X2 X11 hX1 hX2 G12)
            ∗ ptS c (Memref.whole cc0_scratch2) ((Memref.whole cc0_scratch2 : Memref sig .tc .vmem S5000x64 .f32).view.writes (Elt F) T13 Ptile)
            ∗ pt c (Memref.whole main_v4_0) ((Memref.whole main_v4_0 : Memref sig .tc .hbm S100000x64 .f32).view.writes (Elt F) Yo Pout)
            ∗ semVal ((c : Thread nD τ), SemLoc.dma (11 : DmaSem sig)) 0 ∗ (∃ W', owes (c : Thread nD τ) 0 W'))) } := by
  refine ⟨?_, ?_, fun Yo W => ?run⟩
  case run =>
    iintro ⟨H1, H2, H4, H5, H6, H7, H8, H10, H11, H12, H13, Hy, Hs, HO⟩
    simp only [cc0__fused_kernel_eq_skeleton]; unfold cc0__fused_kernel_skel
    sl_exec (disch := assumption)
    sl_for (inv (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12) $$ [H1 H2 H11 H12]
    · exact inv_step (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12
    · isplitl [H1]; · iexact H1
      isplitl [H2]; · iexact H2
      isplitl [H11]; · iexact H11
      iexists _; isplitl [H12]; · iexact H12
      ipureintro; rfl
    · iintro %acc ⟨H1, H2, H11, ⟨%f12, H12, %h12⟩⟩
      subst h12
      sl_exec (disch := assumption)
      sl_step
      sl_close

end Runs

end Cert.Proof.Kernel

end
-- ==== Proof.Spec.lean ====
/-
  The layer's value as one function of the argument arrays, over the extended reals.

  A graph of 100000 nodes with 64 features each (`x`), 1600000 directed edges given as two rows of node numbers
  (`ei`: row 0 the sources, row 1 the destinations), a two-layer perceptron (`W1`, `b1`, `W2`, `b2`) and one gate
  parameter (`alpha`). Node `r`'s aggregate is the sum, over the edges whose destination is `r`, of the source node's
  feature row; the hidden row is the node's own row plus its aggregate; the result is
  `sigmoid(alpha) * (max(h · W1 + b1, 0) · W2 + b2)`, and the second result is `sigmoid(alpha)` itself.
  Everything is stated coordinate by coordinate over `Fin 100000`, `Fin 64`, `Fin 1600000`, then packed into the
  array functions `outArr` and `gateArr` the two programs' results are compared with.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![100000, 64]⟩
abbrev SE : Shape := ⟨2, ![2, 1600000]⟩
abbrev SW : Shape := ⟨2, ![64, 64]⟩
abbrev SB : Shape := ⟨1, ![64]⟩
abbrev SA : Shape := ⟨1, ![1]⟩

/-- The node a 32-bit word names. A word below 100000 names itself; the remainder makes the function total, and is
    never met on an edge array whose words are all node numbers (`InRange`). -/
def node (w : BitVec 32) : Fin 100000 := ⟨w.toNat % 100000, Nat.mod_lt _ (by norm_num)⟩

theorem node_val_of_lt {w : BitVec 32} (h : w.toNat < 100000) : (node w).val = w.toNat := Nat.mod_eq_of_lt h

/-- Edge `e`'s source word and destination word. -/
def src (ei : SE.Idx → BitVec 32) (e : Fin 1600000) : BitVec 32 := ei (ix2 (0 : Fin 2) e)
def dst (ei : SE.Idx → BitVec 32) (e : Fin 1600000) : BitVec 32 := ei (ix2 (1 : Fin 2) e)

/-- Every word of the edge array is a node number. -/
def InRange (ei : SE.Idx → BitVec 32) : Prop := ∀ i, (ei i).toNat < 100000

/-- Node `r`'s aggregate at feature `c`: the sum of the sources' feature `c` over the edges into `r`. -/
def aggAt (x : SX.Idx → EReal) (ei : SE.Idx → BitVec 32) (r : Fin 100000) (c : Fin 64) : EReal :=
  ∑ e ∈ Finset.univ.filter (fun e : Fin 1600000 => (dst ei e).toNat = r.val), x (ix2 (node (src ei e)) c)

/-- The hidden row: the node's own features plus its aggregate. -/
def hid (x : SX.Idx → EReal) (ei : SE.Idx → BitVec 32) (r : Fin 100000) (c : Fin 64) : EReal :=
  x (ix2 r c) + aggAt x ei r c

/-- One affine layer at (row, column): the row of `a` against the column of `W`, plus the bias. -/
def lin (a : Fin 64 → EReal) (W : SW.Idx → EReal) (b : SB.Idx → EReal) (c : Fin 64) : EReal :=
  (∑ j : Fin 64, a j * W (ix2 j c)) + b (ix1 c)

/-- The first layer with its rectifier. -/
def act (x : SX.Idx → EReal) (ei : SE.Idx → BitVec 32) (W1 : SW.Idx → EReal) (b1 : SB.Idx → EReal) (r : Fin 100000) (k : Fin 64) : EReal :=
  max (lin (hid x ei r) W1 b1 k) 0

/-- The gate: the logistic function of the one parameter. -/
def gate (alpha : SA.Idx → EReal) : EReal := Ideal.logistic (alpha (ix1 (0 : Fin 1)))

/-- The layer's result at (node, feature). -/
def outAt (x : SX.Idx → EReal) (ei : SE.Idx → BitVec 32) (W1 : SW.Idx → EReal) (b1 : SB.Idx → EReal) (W2 : SW.Idx → EReal)
    (b2 : SB.Idx → EReal) (alpha : SA.Idx → EReal) (r : Fin 100000) (c : Fin 64) : EReal :=
  gate alpha * lin (act x ei W1 b1 r) W2 b2 c

/-- The result array: `outAt` at an index's two coordinates. -/
def outArr (x : SX.Idx → EReal) (ei : SE.Idx → BitVec 32) (W1 : SW.Idx → EReal) (b1 : SB.Idx → EReal) (W2 : SW.Idx → EReal)
    (b2 : SB.Idx → EReal) (alpha : SA.Idx → EReal) : SX.Idx → EReal :=
  fun i => outAt x ei W1 b1 W2 b2 alpha ⟨(i 0).val, idx2_lt0 i⟩ ⟨(i 1).val, idx2_lt1 i⟩

theorem outArr_ix2 (x : SX.Idx → EReal) (ei : SE.Idx → BitVec 32) (W1 : SW.Idx → EReal) (b1 : SB.Idx → EReal) (W2 : SW.Idx → EReal)
    (b2 : SB.Idx → EReal) (alpha : SA.Idx → EReal) (r : Fin 100000) (c : Fin 64) :
    outArr x ei W1 b1 W2 b2 alpha (ix2 r c) = outAt x ei W1 b1 W2 b2 alpha r c := rfl

/-- The gate array: the gate at its one index. -/
def gateArr (alpha : SA.Idx → EReal) : SA.Idx → EReal := fun _ => gate alpha

end Cert.Spec

end
-- ==== Proof.KernelData.lean ====
/-
  The proof data of the fused kernel's pipeline: what each staging buffer holds at each point, the aggregate's
  contents after each point, the result's contents at the end, and the invariant the body keeps between points.

  The two index windows and the five parameter windows are inputs the body only reads: each staging buffer holds its
  window's block. The gate's window is an output the body stores at the last point only. Between points the body's
  three scratch buffers carry the copy of x (from the first point on), the aggregate (the zero fill overwritten by
  every point's loop pieces so far) and the output tile (anything); x itself and the result array, left in place,
  are routed through the invariant: x unchanged, the result at its entry contents until the last point, at `outC`
  after it; the kernel's two transfer cells are at zero between points.
-/
import proofs.«407827_j64682207478383_2_alg».proof.Proof.KernelKinds
import proofs.«407827_j64682207478383_2_alg».proof.Proof.Gen.Kernel.Frame
import proofs.«407827_j64682207478383_2_alg».proof.Proof.Gen.Kernel.Points
import proofs.«407827_j64682207478383_2_alg».proof.Proof.Spec
import Idealize.ShloMosaic.Lib.Pipeline.Routed

set_option maxRecDepth 65536
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]

local notation "𝕄" => MT nD τ sig Unit (Elt F) ℕ UC ℕ

variable (m : (ℓ : Loc nD τ sig) → Buf (Elt F) ℓ) (ρ : Dev nD → PrngReg)

/-- The kernel's own cells: the two scratch DMA semaphores (the copy-in's and the copy-out's). -/
abbrev osem : Fin 2 → SemLoc sig := fun | 0 => .dma 10 | 1 => .dma 11
/-- The two arrays left in place that the body moves itself: x (read) and the result (written). -/
abbrev RR : Finset (Ref sig .tc) := {main_arg0, main_v4_0}

/-! ## What the staging buffers hold, as raw contents -/

/-- Window w's current staging buffer at point t holds the window's block; as raw contents of the (whole) buffer. -/
abbrev X0at (c : Dev nD) (t : Fin cfg0.N) : BufTy.Contents (Elt F) (st0_0 t).view.ty := (hstage0_0 ((cfg0.slots t 0).cast nbuf0_0)).unread (iblk m c 0 t)
abbrev X1at (c : Dev nD) (t : Fin cfg0.N) : BufTy.Contents (Elt F) (st0_1 t).view.ty := (hstage0_1 ((cfg0.slots t 1).cast nbuf0_1)).unread (iblk m c 1 t)
abbrev X2at (c : Dev nD) (t : Fin cfg0.N) : BufTy.Contents (Elt F) (st0_2 t).view.ty := (hstage0_2 ((cfg0.slots t 2).cast nbuf0_2)).unread (iblk m c 2 t)
abbrev X3at (c : Dev nD) (t : Fin cfg0.N) : BufTy.Contents (Elt F) (st0_3 t).view.ty := (hstage0_3 ((cfg0.slots t 3).cast nbuf0_3)).unread (iblk m c 3 t)
abbrev X4at (c : Dev nD) (t : Fin cfg0.N) : BufTy.Contents (Elt F) (st0_4 t).view.ty := (hstage0_4 ((cfg0.slots t 4).cast nbuf0_4)).unread (iblk m c 4 t)
abbrev X5at (c : Dev nD) (t : Fin cfg0.N) : BufTy.Contents (Elt F) (st0_5 t).view.ty := (hstage0_5 ((cfg0.slots t 5).cast nbuf0_5)).unread (iblk m c 5 t)
abbrev X6at (c : Dev nD) (t : Fin cfg0.N) : BufTy.Contents (Elt F) (st0_6 t).view.ty := (hstage0_6 ((cfg0.slots t 6).cast nbuf0_6)).unread (iblk m c 6 t)

variable (hW0 : ∀ (c : Dev nD) (t : Fin cfg0.N), WordsOK (F := F) (st0_0 t) (X0at m c t))
  (hW1 : ∀ (c : Dev nD) (t : Fin cfg0.N), WordsOK (F := F) (st0_1 t) (X1at m c t))

/-! ## The aggregate after each point -/

/-- The aggregate's buffer after point k: after point 0 the zero fill overwritten by point 0's loop pieces, after a
    later point what the point before left overwritten by this point's. -/
def aggC (c : Dev nD) : (k : ℕ) → k < cfg0.N → BufTy.Contents (Elt F) (Memref.whole cc0_scratch1 : Memref sig .tc .vmem S100000x64 .f32).view.ty
  | 0, hk => aggAfter (F := F) c ⟨0, hk⟩ (st0_0 ⟨0, hk⟩) (hstage0_0 ((cfg0.slots ⟨0, hk⟩ 0).cast nbuf0_0)) (st0_1 ⟨0, hk⟩) (hstage0_1 ((cfg0.slots ⟨0, hk⟩ 1).cast nbuf0_1)) (st0_2 ⟨0, hk⟩) (hstage0_2 ((cfg0.slots ⟨0, hk⟩ 2).cast nbuf0_2)) (st0_3 ⟨0, hk⟩) (hstage0_3 ((cfg0.slots ⟨0, hk⟩ 3).cast nbuf0_3)) (st0_4 ⟨0, hk⟩) (hstage0_4 ((cfg0.slots ⟨0, hk⟩ 4).cast nbuf0_4)) (st0_5 ⟨0, hk⟩) (hstage0_5 ((cfg0.slots ⟨0, hk⟩ 5).cast nbuf0_5)) (st0_6 ⟨0, hk⟩) (hstage0_6 ((cfg0.slots ⟨0, hk⟩ 6).cast nbuf0_6)) (st0_7 ⟨0, hk⟩) (hstage0_7 ((cfg0.slots ⟨0, hk⟩ 7).cast nbuf0_7)) (X0at m c ⟨0, hk⟩) (X1at m c ⟨0, hk⟩)
      (xCopy (F := F) c (V m c main_arg0)) (hW0 c ⟨0, hk⟩) (hW1 c ⟨0, hk⟩) (aggZero (F := F))
  | k + 1, hk => aggAfter (F := F) c ⟨k + 1, hk⟩ (st0_0 ⟨k + 1, hk⟩) (hstage0_0 ((cfg0.slots ⟨k + 1, hk⟩ 0).cast nbuf0_0)) (st0_1 ⟨k + 1, hk⟩) (hstage0_1 ((cfg0.slots ⟨k + 1, hk⟩ 1).cast nbuf0_1)) (st0_2 ⟨k + 1, hk⟩) (hstage0_2 ((cfg0.slots ⟨k + 1, hk⟩ 2).cast nbuf0_2)) (st0_3 ⟨k + 1, hk⟩) (hstage0_3 ((cfg0.slots ⟨k + 1, hk⟩ 3).cast nbuf0_3)) (st0_4 ⟨k + 1, hk⟩) (hstage0_4 ((cfg0.slots ⟨k + 1, hk⟩ 4).cast nbuf0_4)) (st0_5 ⟨k + 1, hk⟩) (hstage0_5 ((cfg0.slots ⟨k + 1, hk⟩ 5).cast nbuf0_5)) (st0_6 ⟨k + 1, hk⟩) (hstage0_6 ((cfg0.slots ⟨k + 1, hk⟩ 6).cast nbuf0_6)) (st0_7 ⟨k + 1, hk⟩) (hstage0_7 ((cfg0.slots ⟨k + 1, hk⟩ 7).cast nbuf0_7)) (X0at m c ⟨k + 1, hk⟩) (X1at m c ⟨k + 1, hk⟩)
      (xCopy (F := F) c (V m c main_arg0)) (hW0 c ⟨k + 1, hk⟩) (hW1 c ⟨k + 1, hk⟩) (aggC c k (Nat.lt_of_succ_lt hk))

/-- The last point. -/
theorem N_eq : cfg0.N = 3125 := N_0

/-- The body's two branch conditions over the grid: the first point is point 0, the last is point 3124. -/
theorem isFirst_iff : ∀ t : Fin cfg0.N, IsFirst t ↔ t.val = 0 :=
  (by decide +kernel : ∀ t : Fin grid0.N, IsFirst t ↔ t.val = 0)
theorem isLast_iff : ∀ t : Fin cfg0.N, IsLast t ↔ t.val = 3124 :=
  (by decide +kernel : ∀ t : Fin grid0.N, IsLast t ↔ t.val = 3124)

theorem tlast_ex : ∃ t : Fin cfg0.N, t.val = 3124 := ⟨⟨3124, by rw [N_eq]; omega⟩, rfl⟩

/-- The last point, named by its number alone (`tlast_val`): nothing computes with it. -/
def tlast : Fin cfg0.N := Classical.choose tlast_ex

theorem tlast_val : tlast.val = 3124 := Classical.choose_spec tlast_ex

theorem tlast_not_first : ¬ IsFirst tlast := fun h => by have := (isFirst_iff tlast).mp h; rw [tlast_val] at this; omega
theorem tlast_last : IsLast tlast := (isLast_iff tlast).mpr tlast_val

/-- The result array at the end: its entry contents overwritten by the last point's twenty row blocks (taken at the
    junk contents of the gate's and the tile's buffers, of which they do not depend). -/
def outC (c : Dev nD) : Bf (F := F) c (Memref.whole main_v4_0 : Memref sig .tc .hbm S100000x64 .f32) :=
  (Memref.whole main_v4_0 : Memref sig .tc .hbm S100000x64 .f32).view.writes (Elt F) (V m c main_v4_0)
    (runLast (F := F) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) tlast_not_first tlast_last
      (X0at m c tlast) (X1at m c tlast) (X2at m c tlast) (X3at m c tlast) (X4at m c tlast) (X5at m c tlast) (X6at m c tlast)
      (st0_7 tlast).view.junk (xCopy (F := F) c (V m c main_arg0)) (aggC m hW0 hW1 c (tlast.val - 1) (by have := tlast.isLt; omega))
      (Memref.whole cc0_scratch2 : Memref sig .tc .vmem S5000x64 .f32).view.junk (hW0 c tlast) (hW1 c tlast)).1

/-- The routed buffers' exit contents as a valuation: x as launched, the result at `outC`. -/
def Yv (c : Dev nD) : (b : Ref sig .tc) → Buf (Elt F) ((c : Thread nD τ).loc b) := Function.update (V m c) main_v4_0 (outC m hW0 hW1 c)

theorem Yv_out (c : Dev nD) : Yv m hW0 hW1 c main_v4_0 = outC m hW0 hW1 c := Function.update_self ..
theorem Yv_x (c : Dev nD) : Yv m hW0 hW1 c main_arg0 = V m c main_arg0 := Function.update_of_ne (by decide) ..

/-! ## The proof data -/

/-- The gate's block: the one cell stored with the logistic of the staged parameter. -/
abbrev gateV (a : Vec F S1 .f32) : Vec F S1 .f32 :=
  View.canon [⟨Rect.unit (s := S1) ![0] S1.size inb_S1_S1_0, k0_pay13 (View.ld a (Rect.unit (s := S1) ![0] S1.size inb_S1_S1_0))⟩]

/-- Between points (after point k, before point k + 1): x and the result as launched, the copy of x, the aggregate
    at what the points so far left, the tile buffer at anything, both cells at zero, the generator register. -/
def Φmid (c : Dev nD) (k : ℕ) (hk : k < cfg0.N) : sProp 𝕄 :=
  iprop(pt c (Memref.whole main_arg0) (V m c main_arg0) ∗ pt c (Memref.whole main_v4_0) (V m c main_v4_0)
    ∗ ptS c (Memref.whole cc0_scratch0) (xCopy (F := F) c (V m c main_arg0))
    ∗ ptS c (Memref.whole cc0_scratch1) (aggC m hW0 hW1 c k hk)
    ∗ (∃ f, ptS c (Memref.whole cc0_scratch2 : Memref sig .tc .vmem S5000x64 .f32) f)
    ∗ semVal ((c : Thread nD τ), SemLoc.dma (10 : DmaSem sig)) 0 ∗ semVal ((c : Thread nD τ), SemLoc.dma (11 : DmaSem sig)) 0
    ∗ ∃ r, prngReg c r)

/-- The invariant before point k (k = 0 … 3125). -/
def Φv (c : Dev nD) (k : Fin (cfg0.N + 1)) : sProp 𝕄 :=
  if h0 : k.val = 0 then Ends spec0 osem RR c (V m c)
  else if hN : k.val = cfg0.N then Ends spec0 osem RR c (Yv m hW0 hW1 c)
  else Φmid m hW0 hW1 c (k.val - 1) (by have := k.isLt; omega)

def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => gateV (F := F) (iblk m c 6 t)
  Φ k := Φv m hW0 hW1 c k
  q _ := fullShare
  owed _ := 0

end Cert.Proof.Kernel

end
-- ==== Proof.KernelOutIndep.lean ====
/-
  The last grid point's result pieces do not depend on what the tile buffer held before the point.

  At the last point each of the twenty tiles is stored WHOLE into the tile buffer and then copied out into its rows of
  the result by a transfer of its own. What a transfer reads off the tile buffer is therefore the payload of the
  store just before it, whatever the buffer held at entry and whatever the earlier tiles left there: a list of writes
  whose last one covers the whole buffer reads back as that write's payload.
-/
import proofs.«407827_j64682207478383_2_alg».proof.Proof.KernelKinds

set_option maxRecDepth 65536
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Every index of the tile lies in the tile's whole rectangle. -/
theorem mem_tile_whole (y : S5000x64.Idx) :
    y ∈ (Rect.unit (s := S5000x64) ![0, 0] S5000x64.size inb_S5000x64_S5000x64_0_0).set := by
  refine Rect.mem_set_unit.mpr fun a => ?_
  match a with
  | ⟨0, _⟩ => exact ⟨Nat.zero_le _, by show (y 0).val < 0 + 5000; have h0 : (y 0).val < 5000 := (y 0).isLt; omega⟩
  | ⟨1, _⟩ => exact ⟨Nat.zero_le _, by show (y 1).val < 0 + 64; have h1 : (y 1).val < 64 := (y 1).isLt; omega⟩

/-- What is read off the tile buffer after a list of stores whose last one stores the whole tile does not depend on
    what the buffer held before. -/
theorem tile_read_indep (T T' : BufTy.Contents (Elt F) (Memref.whole cc0_scratch2 : Memref sig .tc .vmem S5000x64 .f32).view.ty)
    (L : List (View.Piece (Elt F) S5000x64 .f32))
    (w : (Rect.unit (s := S5000x64) ![0, 0] S5000x64.size inb_S5000x64_S5000x64_0_0).shape.Idx → Elt F .f32)
    (L' : List (View.Piece (Elt F) S5000x64 .f32))
    (hL : L = ⟨Rect.unit (s := S5000x64) ![0, 0] S5000x64.size inb_S5000x64_S5000x64_0_0, w⟩ :: L') :
    (Memref.whole cc0_scratch2 : Memref sig .tc .vmem S5000x64 .f32).view.read (Elt F)
        ((Memref.whole cc0_scratch2 : Memref sig .tc .vmem S5000x64 .f32).view.writes (Elt F) T L)
      = (Memref.whole cc0_scratch2 : Memref sig .tc .vmem S5000x64 .f32).view.read (Elt F)
        ((Memref.whole cc0_scratch2 : Memref sig .tc .vmem S5000x64 .f32).view.writes (Elt F) T' L) := by
  subst hL
  exact View.read_writes_of_cover_last _ T _ T' _ L' L' mem_tile_whole

section
variable (c : Dev nD) (t : Fin cfg0.N) (arg1 : Memref sig .tc .smem S512 .i32) (harg1 : arg1.IsWhole) (arg2 : Memref sig .tc .smem S512 .i32) (harg2 : arg2.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg10 : Memref sig .tc .vmem S1 .f32) (harg10 : arg10.IsWhole)

set_option hygiene false in
/-- One piece: the transfer's payload, opened, is a read of the tile buffer after a store of the whole tile. -/
local macro "indep_step " n:ident : tactic =>
  `(tactic| rw [show $n c t arg1 harg1 arg2 harg2 arg4 harg4 arg5 harg5 arg6 harg6 arg7 harg7 arg8 harg8 arg10 harg10 X1 X2 X4 X5 X6 X7 X8 X11 G12 T13 hX1 hX2 = $n c t arg1 harg1 arg2 harg2 arg4 harg4 arg5 harg5 arg6 harg6 arg7 harg7 arg8 harg8 arg10 harg10 X1 X2 X4 X5 X6 X7 X8 X11 G12 T13' hX1 hX2 from by
      delta $n; exact congrArg _ (tile_read_indep T13 T13' _ _ _ rfl)])

/-- THE RESULT'S PIECES DO NOT DEPEND ON THE TILE BUFFER'S ENTRY CONTENTS: each piece's payload is what the transfer
    read off the tile buffer right after a store of the whole tile. -/
theorem runLast_out_indep (hF : ¬ IsFirst t) (hL : IsLast t)
    (X1 : BufTy.Contents (Elt F) arg1.view.ty) (X2 : BufTy.Contents (Elt F) arg2.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (D10 : BufTy.Contents (Elt F) arg10.view.ty)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (T13 T13' : BufTy.Contents (Elt F) (Memref.whole cc0_scratch2 : Memref sig .tc .vmem S5000x64 .f32).view.ty)
    (hX1 : WordsOK (F := F) arg1 X1) (hX2 : WordsOK (F := F) arg2 X2) :
    (runLast (F := F) c t arg1 harg1 arg2 harg2 arg4 harg4 arg5 harg5 arg6 harg6 arg7 harg7 arg8 harg8 arg10 harg10 hF hL X1 X2 X4 X5 X6 X7 X8 D10 X11 G12 T13 hX1 hX2).1
      = (runLast (F := F) c t arg1 harg1 arg2 harg2 arg4 harg4 arg5 harg5 arg6 harg6 arg7 harg7 arg8 harg8 arg10 harg10 hF hL X1 X2 X4 X5 X6 X7 X8 D10 X11 G12 T13' hX1 hX2).1 := by
  unfold runLast
  dsimp only
  indep_step runLast.sl.dma163
  indep_step runLast.sl.dma155
  indep_step runLast.sl.dma147
  indep_step runLast.sl.dma139
  indep_step runLast.sl.dma131
  indep_step runLast.sl.dma123
  indep_step runLast.sl.dma115
  indep_step runLast.sl.dma107
  indep_step runLast.sl.dma99
  indep_step runLast.sl.dma91
  indep_step runLast.sl.dma83
  indep_step runLast.sl.dma75
  indep_step runLast.sl.dma67
  indep_step runLast.sl.dma59
  indep_step runLast.sl.dma51
  indep_step runLast.sl.dma43
  indep_step runLast.sl.dma35
  indep_step runLast.sl.dma27
  indep_step runLast.sl.dma19
  indep_step runLast.sl.dma11

/-- Nor do they depend on what the gate's staging buffer held at entry: those contents occur in no payload. -/
theorem runLast_out_indep2 (hF : ¬ IsFirst t) (hL : IsLast t)
    (X1 : BufTy.Contents (Elt F) arg1.view.ty) (X2 : BufTy.Contents (Elt F) arg2.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (D10 D10' : BufTy.Contents (Elt F) arg10.view.ty)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (T13 T13' : BufTy.Contents (Elt F) (Memref.whole cc0_scratch2 : Memref sig .tc .vmem S5000x64 .f32).view.ty)
    (hX1 : WordsOK (F := F) arg1 X1) (hX2 : WordsOK (F := F) arg2 X2) :
    (runLast (F := F) c t arg1 harg1 arg2 harg2 arg4 harg4 arg5 harg5 arg6 harg6 arg7 harg7 arg8 harg8 arg10 harg10 hF hL X1 X2 X4 X5 X6 X7 X8 D10 X11 G12 T13 hX1 hX2).1
      = (runLast (F := F) c t arg1 harg1 arg2 harg2 arg4 harg4 arg5 harg5 arg6 harg6 arg7 harg7 arg8 harg8 arg10 harg10 hF hL X1 X2 X4 X5 X6 X7 X8 D10' X11 G12 T13' hX1 hX2).1 := by
  unfold runLast
  dsimp only
  indep_step runLast.sl.dma163
  indep_step runLast.sl.dma155
  indep_step runLast.sl.dma147
  indep_step runLast.sl.dma139
  indep_step runLast.sl.dma131
  indep_step runLast.sl.dma123
  indep_step runLast.sl.dma115
  indep_step runLast.sl.dma107
  indep_step runLast.sl.dma99
  indep_step runLast.sl.dma91
  indep_step runLast.sl.dma83
  indep_step runLast.sl.dma75
  indep_step runLast.sl.dma67
  indep_step runLast.sl.dma59
  indep_step runLast.sl.dma51
  indep_step runLast.sl.dma43
  indep_step runLast.sl.dma35
  indep_step runLast.sl.dma27
  indep_step runLast.sl.dma19
  indep_step runLast.sl.dma11
end

end Cert.Proof.Kernel

end
-- ==== Proof.KernelObligation.lean ====
/-
  The body obligation of the fused kernel's pipeline: at every grid point the body, from the invariant before the
  point and every window's staging buffer at what it then holds, runs to the invariant after the point and every
  staging buffer at what the body leaves. By the point's kind: at the first point the invariant's entry form (x and
  the result as launched, the scratch buffers at anything, both cells at zero) becomes the between-points form with
  the copy of x and the aggregate after the first block of edges; at a middle point the aggregate moves on by the
  point's block; at the last point the between-points form becomes the exit form with the result at its final
  contents, and the gate's staging buffer holds the gate's block.
-/
import proofs.«407827_j64682207478383_2_alg».proof.Proof.KernelData
import proofs.«407827_j64682207478383_2_alg».proof.Proof.KernelOutIndep
import Idealize.ShloMosaic.Lib.Pipeline.FrameBody

set_option maxRecDepth 65536
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]

local notation "𝕄" => MT nD τ sig Unit (Elt F) ℕ UC ℕ

variable (m : (ℓ : Loc nD τ sig) → Buf (Elt F) ℓ) (ρ : Dev nD → PrngReg)
variable (hW0 : ∀ (c : Dev nD) (t : Fin cfg0.N), WordsOK (F := F) (st0_0 t) (X0at m c t))
  (hW1 : ∀ (c : Dev nD) (t : Fin cfg0.N), WordsOK (F := F) (st0_1 t) (X1at m c t))

/-! ## Holding a buffer: the forms the pieces are stated in -/

/-- A whole memref owned at what it reads is held, by its own elements, at the contents that read so. -/
theorem owns_eq_ptS (c : Dev nD) {sp : Space} {S : Shape} {e : EltTy} (M : Memref sig .tc sp S e) (h : M.IsWhole) (X : S.Idx → Elt F e) :
    (owns (c : Thread nD τ) M fullShare X : sProp 𝕄) = ptS c M (h.unread X) := by
  have h₁ : (owns (c : Thread nD τ) M fullShare X : sProp 𝕄) ⊢ ptS c M (h.unread X) := by
    unfold owns; iintro ⟨%f, %hf, H⟩; obtain rfl := h.eq_unread hf; iexact H
  have h₂ : (ptS c M (h.unread X) : sProp 𝕄) ⊢ owns (c : Thread nD τ) M fullShare X := by
    iintro H; unfold owns; iexists _; isplitr
    · ipureintro; exact h.read_unread X
    · iexact H
  exact BI.equiv_iff.mp ⟨h₁, h₂⟩

/-- A whole buffer held by its memref's own elements is held whole. -/
theorem ptS_whole (c : Dev nD) (b : Ref sig .tc) (f : Buf (Elt F) ((c : Thread nD τ).loc b)) :
    (ptS c (Memref.whole b) f : sProp 𝕄) = (((c : Thread nD τ).loc b) ↦{fullShare} f) := by
  unfold ptS; rw [(Memref.isWhole_whole b).set_eq_univ]

omit [FloatOps F] in
theorem ownSems0_eq (c : Dev nD) :
    (Pipeline.ownSems0 (Ix := Unit) (Name := ℕ) (U := UC) (Lvl := ℕ) (Val := Elt F) (τ := τ) osem c : sProp 𝕄)
      = iprop(semVal ((c : Thread nD τ), SemLoc.dma (10 : DmaSem sig)) 0 ∗ semVal ((c : Thread nD τ), SemLoc.dma (11 : DmaSem sig)) 0) :=
  Pipeline.ownSems0_eq_of_list c osem [0, 1] (by decide) (by decide)

omit [FloatOps F] in
theorem routed_eq (c : Dev nD) (W : (b : Ref sig .tc) → Buf (Elt F) ((c : Thread nD τ).loc b)) :
    (Pipeline.routed RR c W : sProp 𝕄)
      = iprop((((c : Thread nD τ).loc main_arg0) ↦{fullShare} W main_arg0) ∗ (((c : Thread nD τ).loc main_v4_0) ↦{fullShare} W main_v4_0)) := by
  unfold Pipeline.routed RR
  rw [bigSep_insert (by decide), bigSep_singleton]
  rfl

/-- The invariant's two ends at this program's lists: x and the result, the two cells, the three scratch buffers, the register. -/
theorem ends_eq (c : Dev nD) (W : (b : Ref sig .tc) → Buf (Elt F) ((c : Thread nD τ).loc b)) :
    (Ends spec0 osem RR c W : sProp 𝕄)
      = iprop(((((c : Thread nD τ).loc main_arg0) ↦{fullShare} W main_arg0) ∗ (((c : Thread nD τ).loc main_v4_0) ↦{fullShare} W main_v4_0))
          ∗ (semVal ((c : Thread nD τ), SemLoc.dma (10 : DmaSem sig)) 0 ∗ semVal ((c : Thread nD τ), SemLoc.dma (11 : DmaSem sig)) 0)
          ∗ ((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f))
          ∗ ∃ r, prngReg c r) := by
  unfold Ends; rw [routed_eq, ownSems0_eq, scopedRest0_eq]

/-! ## What the body finds in each staging buffer, and leaves -/

theorem after_0 (c : Dev nD) (t : Fin cfg0.N) : (dats m hW0 hW1 0 c).after 0 t = iblk m c 0 t := by dsimp only [dats]
theorem after_1 (c : Dev nD) (t : Fin cfg0.N) : (dats m hW0 hW1 0 c).after 1 t = iblk m c 1 t := by dsimp only [dats]
theorem after_2 (c : Dev nD) (t : Fin cfg0.N) : (dats m hW0 hW1 0 c).after 2 t = iblk m c 2 t := by dsimp only [dats]
theorem after_3 (c : Dev nD) (t : Fin cfg0.N) : (dats m hW0 hW1 0 c).after 3 t = iblk m c 3 t := by dsimp only [dats]
theorem after_4 (c : Dev nD) (t : Fin cfg0.N) : (dats m hW0 hW1 0 c).after 4 t = iblk m c 4 t := by dsimp only [dats]
theorem after_5 (c : Dev nD) (t : Fin cfg0.N) : (dats m hW0 hW1 0 c).after 5 t = iblk m c 5 t := by dsimp only [dats]
theorem after_6 (c : Dev nD) (t : Fin cfg0.N) : (dats m hW0 hW1 0 c).after 6 t = iblk m c 6 t := by dsimp only [dats]
theorem after_7 (c : Dev nD) (t : Fin cfg0.N) : (dats m hW0 hW1 0 c).after 7 t = gateV (F := F) (iblk m c 6 t) := by dsimp only [dats]

/-- The two index windows are fetched at every point; the five parameter windows at the first only, and the body leaves
    their blocks in place: every input's staging buffer holds its block when the body runs. -/
theorem before_0 (c : Dev nD) (t : Fin cfg0.N) (d) : (dats m hW0 hW1 0 c).before 0 t d = iblk m c 0 t := by
  rw [(dats m hW0 hW1 0 c).before_fetched 0 t (fetch0_0 t)]; unfold Dat.fetched Dat.blockOf; dsimp only [dats]; rfl
theorem before_1 (c : Dev nD) (t : Fin cfg0.N) (d) : (dats m hW0 hW1 0 c).before 1 t d = iblk m c 1 t := by
  rw [(dats m hW0 hW1 0 c).before_fetched 1 t (fetch0_1 t)]; unfold Dat.fetched Dat.blockOf; dsimp only [dats]; rfl
theorem before_2 (c : Dev nD) (t : Fin cfg0.N) (d) : (dats m hW0 hW1 0 c).before 2 t d = iblk m c 2 t :=
  ((dats m hW0 hW1 0 c).before_in_eq_fetched 2 rfl (fun _ => rfl) (fun _ _ _ => rfl)
    (fun t => by rw [after_2]; unfold Dat.blockOf iblk; dsimp only [dats]; try rfl) t d).trans
    (by unfold Dat.fetched Dat.blockOf iblk; dsimp only [dats]; try rfl)
theorem before_3 (c : Dev nD) (t : Fin cfg0.N) (d) : (dats m hW0 hW1 0 c).before 3 t d = iblk m c 3 t :=
  ((dats m hW0 hW1 0 c).before_in_eq_fetched 3 rfl (fun _ => rfl) (fun _ _ _ => rfl)
    (fun t => by rw [after_3]; unfold Dat.blockOf iblk; dsimp only [dats]; try rfl) t d).trans
    (by unfold Dat.fetched Dat.blockOf iblk; dsimp only [dats]; try rfl)
theorem before_4 (c : Dev nD) (t : Fin cfg0.N) (d) : (dats m hW0 hW1 0 c).before 4 t d = iblk m c 4 t :=
  ((dats m hW0 hW1 0 c).before_in_eq_fetched 4 rfl (fun _ => rfl) (fun _ _ _ => rfl)
    (fun t => by rw [after_4]; unfold Dat.blockOf iblk; dsimp only [dats]; try rfl) t d).trans
    (by unfold Dat.fetched Dat.blockOf iblk; dsimp only [dats]; try rfl)
theorem before_5 (c : Dev nD) (t : Fin cfg0.N) (d) : (dats m hW0 hW1 0 c).before 5 t d = iblk m c 5 t :=
  ((dats m hW0 hW1 0 c).before_in_eq_fetched 5 rfl (fun _ => rfl) (fun _ _ _ => rfl)
    (fun t => by rw [after_5]; unfold Dat.blockOf iblk; dsimp only [dats]; try rfl) t d).trans
    (by unfold Dat.fetched Dat.blockOf iblk; dsimp only [dats]; try rfl)
theorem before_6 (c : Dev nD) (t : Fin cfg0.N) (d) : (dats m hW0 hW1 0 c).before 6 t d = iblk m c 6 t :=
  ((dats m hW0 hW1 0 c).before_in_eq_fetched 6 rfl (fun _ => rfl) (fun _ _ _ => rfl)
    (fun t => by rw [after_6]; unfold Dat.blockOf iblk; dsimp only [dats]; try rfl) t d).trans
    (by unfold Dat.fetched Dat.blockOf iblk; dsimp only [dats]; try rfl)

/-! ## The gate's window: idle until the last point, written back there -/

theorem idle7_of_last (t : Fin cfg0.N) (h : IsLast t) : idle0 7 (grid0.coords t) = false := by
  show (!(k0_cond2 (grid0.coords t) == 1#1)) = false; rw [show (k0_cond2 (grid0.coords t) == 1#1) = true from beq_iff_eq.mpr h]; rfl
theorem idle7_of_not_last (t : Fin cfg0.N) (h : ¬ IsLast t) : idle0 7 (grid0.coords t) = true := by
  show (!(k0_cond2 (grid0.coords t) == 1#1)) = true; rw [show (k0_cond2 (grid0.coords t) == 1#1) = false from beq_eq_false_iff_ne.mpr h]; rfl
theorem idle_0 (t : Fin cfg0.N) : idle0 0 (grid0.coords t) = false := rfl
theorem idle_1 (t : Fin cfg0.N) : idle0 1 (grid0.coords t) = false := rfl
theorem idle_2 (t : Fin cfg0.N) : idle0 2 (grid0.coords t) = false := rfl
theorem idle_3 (t : Fin cfg0.N) : idle0 3 (grid0.coords t) = false := rfl
theorem idle_4 (t : Fin cfg0.N) : idle0 4 (grid0.coords t) = false := rfl
theorem idle_5 (t : Fin cfg0.N) : idle0 5 (grid0.coords t) = false := rfl
theorem idle_6 (t : Fin cfg0.N) : idle0 6 (grid0.coords t) = false := rfl
theorem flush7_of_not_last (t : Fin cfg0.N) (h : ¬ IsLast t) : (cfg0.win 7).flush t = false :=
  Bool.eq_false_iff.mpr fun hf => h ((isLast_iff t).mpr (by
    have h1 := (flush0_7 t).mp hf; have h2 : t.val < 3125 := Nat.lt_of_lt_of_eq t.isLt N_eq; omega))

/-! ## The invariant at each kind of point -/

theorem Φ_pre_first (c : Dev nD) (hk : 0 < cfg0.N) : (dats m hW0 hW1 0 c).Φ (⟨0, hk⟩ : Fin cfg0.N).castSucc = Ends spec0 osem RR c (V m c) := by
  dsimp only [dats]; unfold Φv; exact dif_pos rfl
theorem Φ_pre_later (c : Dev nD) (k : ℕ) (hk : k + 1 < cfg0.N) :
    (dats m hW0 hW1 0 c).Φ (⟨k + 1, hk⟩ : Fin cfg0.N).castSucc = Φmid m hW0 hW1 c k (Nat.lt_of_succ_lt hk) := by
  dsimp only [dats]; unfold Φv; exact (dif_neg (Nat.succ_ne_zero k)).trans (dif_neg (Nat.ne_of_lt hk))
theorem Φ_post_later (c : Dev nD) (k : ℕ) (hk : k < cfg0.N) (hne : k + 1 ≠ cfg0.N) :
    (dats m hW0 hW1 0 c).Φ (⟨k, hk⟩ : Fin cfg0.N).succ = Φmid m hW0 hW1 c k hk := by
  dsimp only [dats]; unfold Φv; exact (dif_neg (Nat.succ_ne_zero k)).trans (dif_neg hne)
theorem Φ_post_last (c : Dev nD) (k : ℕ) (hk : k < cfg0.N) (he : k + 1 = cfg0.N) :
    (dats m hW0 hW1 0 c).Φ (⟨k, hk⟩ : Fin cfg0.N).succ = Ends spec0 osem RR c (Yv m hW0 hW1 c) := by
  dsimp only [dats]; unfold Φv; exact (dif_neg (Nat.succ_ne_zero k)).trans (dif_pos he)

/-- The core's `owes` as the post wants it, from what a run hands back. -/
theorem owesAt_intro (c : Dev nD) (t : Fin (cfg0.N + 1)) (W' : Waits sig Unit) :
    owes (c : Thread nD τ) 0 W' ⊢ ((dats m hW0 hW1 0 c).owesAt () t : sProp 𝕄) := by
  unfold Dat.owesAt Pipeline.owesWithin
  rw [show (dats m hW0 hW1 0 c).owed t = 0 from rfl]
  iintro HO; iexists W'; isplitr; · ipureintro; exact fun _ _ => Or.inl trivial
  iexact HO

abbrev 𝒱₀ : Variants := Variants.none

/-- The invariant around the last point. -/
theorem Φ_pre_tlast (c : Dev nD) :
    (dats m hW0 hW1 0 c).Φ tlast.castSucc = Φmid m hW0 hW1 c (tlast.val - 1) (by have := tlast.isLt; omega) := by
  dsimp only [dats]; unfold Φv
  exact (dif_neg (show ¬ tlast.val = 0 by rw [tlast_val]; omega)).trans (dif_neg (show ¬ tlast.val = cfg0.N by rw [tlast_val, N_eq]; omega))
theorem Φ_post_tlast (c : Dev nD) : (dats m hW0 hW1 0 c).Φ tlast.succ = Ends spec0 osem RR c (Yv m hW0 hW1 c) := by
  dsimp only [dats]; unfold Φv
  exact (dif_neg (Nat.succ_ne_zero _)).trans (dif_pos (show tlast.val + 1 = cfg0.N by rw [tlast_val, N_eq]))

/-- A whole memref's owned contents as raw contents, and back. -/
theorem owns_ptS (c : Dev nD) {sp : Space} {S : Shape} {e : EltTy} (M : Memref sig .tc sp S e) (h : M.IsWhole) (X : S.Idx → Elt F e) :
    (owns (c : Thread nD τ) M fullShare X : sProp 𝕄) ⊢ ptS c M (h.unread X) := by rw [owns_eq_ptS c M h X]

omit [FloatOps F] in
theorem coverS1 (p : (Rect.unit (s := S1) ![0] S1.size inb_S1_S1_0).shape.Idx → Elt F .f32) (y : S1.Idx) :
    ∃ pc ∈ ([⟨Rect.unit (s := S1) ![0] S1.size inb_S1_S1_0, p⟩] : List (View.Piece (Elt F) S1 .f32)), y ∈ pc.1.set :=
  View.cover_of_tiled [⟨Rect.unit (s := S1) ![0] S1.size inb_S1_S1_0, p⟩] S1.size (by rfl) y

/-- The gate's staging buffer after the last point reads as the gate's block. -/
theorem gate_block (c : Dev nD) (t : Fin cfg0.N) (D : BufTy.Contents (Elt F) (st0_7 t).view.ty) :
    (st0_7 t).view.read (Elt F) (gateAfter (F := F) (st0_6 t) (st0_7 t) (X6at m c t) D) = gateV (F := F) (iblk m c 6 t) := by
  have e6 := (hstage0_6 ((cfg0.slots t 6).cast nbuf0_6)).read_unread (iblk m c 6 t)
  conv_rhs => rw [← e6]
  exact View.read_writes_eq_canon _ _ _ (coverS1 _)

set_option maxHeartbeats 16000000 in
/-- THE BODY OBLIGATION: at every point, by the point's kind, the run of that kind between the invariant's two forms. -/
theorem body_obligation (c : Dev nD) : BodyObligation (dats (F := F) m hW0 hW1 0 c) (defs₀ (F := F)) 𝒱₀ () Set.univ := fun t => by
  rw [bigSep_W0, bigSep_W0]
  unfold Dat.owesAt Pipeline.owesWithin
  rw [show (dats m hW0 hW1 0 c).owed t.castSucc = 0 from rfl]
  by_cases hL : IsLast t
  · -- the last point
    have ht : t = tlast := Fin.ext (((isLast_iff t).mp hL).trans tlast_val.symm)
    subst ht
    simp only [idle_0, idle_1, idle_2, idle_3, idle_4, idle_5, idle_6, idle7_of_last tlast hL,
      before_0, before_1, before_2, before_3, before_4, before_5, before_6, after_0, after_1, after_2, after_3, after_4, after_5, after_6, after_7]
    rw [Φ_pre_tlast, Φ_post_tlast, ends_eq, Yv_x, Yv_out,
      owns_eq_ptS (F := F) c (st0_0 tlast) (hstage0_0 ((cfg0.slots tlast 0).cast nbuf0_0)),
      owns_eq_ptS (F := F) c (st0_1 tlast) (hstage0_1 ((cfg0.slots tlast 1).cast nbuf0_1)),
      owns_eq_ptS (F := F) c (st0_2 tlast) (hstage0_2 ((cfg0.slots tlast 2).cast nbuf0_2)),
      owns_eq_ptS (F := F) c (st0_3 tlast) (hstage0_3 ((cfg0.slots tlast 3).cast nbuf0_3)),
      owns_eq_ptS (F := F) c (st0_4 tlast) (hstage0_4 ((cfg0.slots tlast 4).cast nbuf0_4)),
      owns_eq_ptS (F := F) c (st0_5 tlast) (hstage0_5 ((cfg0.slots tlast 5).cast nbuf0_5)),
      owns_eq_ptS (F := F) c (st0_6 tlast) (hstage0_6 ((cfg0.slots tlast 6).cast nbuf0_6))]
    unfold Φmid
    iintro ⟨⟨Hx, Hy, H11, H12, ⟨%T13, H13⟩, Hs10, Hs11, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    ihave H7 := (owns_ptS (F := F) c (st0_7 tlast) (hstage0_7 ((cfg0.slots tlast 7).cast nbuf0_7)) _) $$ H7
    iapply (wp_wand_r Idealize.ShloMosaic.frame (wpE (defs₀ (F := F)) Variants.none (c : Thread nD τ) none) Set.univ)
    isplitl [H0 H1 H2 H3 H4 H5 H6 H7 H11 H12 H13 Hy Hs11 HO]
    · iapply ((runLast (F := F) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) tlast_not_first tlast_last
          (X0at m c tlast) (X1at m c tlast) (X2at m c tlast) (X3at m c tlast) (X4at m c tlast) (X5at m c tlast) (X6at m c tlast)
          _ (xCopy (F := F) c (V m c main_arg0)) (aggC m hW0 hW1 c (tlast.val - 1) (by have := tlast.isLt; omega)) T13
          (hW0 c tlast) (hW1 c tlast)).2.2 (V m c main_v4_0) Wt)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H11]; · iexact H11
      isplitl [H12]; · iexact H12
      isplitl [H13]; · iexact H13
      isplitl [Hy]; · iexact Hy
      isplitl [Hs11]; · iexact Hs11
      iexact HO
    · iintro %_ ⟨H0, H1, H2, H3, H4, H5, H6, H7, H11, H12, H13, Hy, Hs11, ⟨%W', HO⟩⟩
      isplitl [Hx Hy Hs10 Hs11 H11 H12 H13 Hp]
      · isplitl [Hx Hy]
        · isplitl [Hx]; · iexact Hx
          unfold outC
          rw [runLast_out_indep2 (F := F) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) tlast_not_first tlast_last
            (X0at m c tlast) (X1at m c tlast) (X2at m c tlast) (X3at m c tlast) (X4at m c tlast) (X5at m c tlast) (X6at m c tlast)
            (st0_7 tlast).view.junk ((hstage0_7 ((cfg0.slots tlast 7).cast nbuf0_7)).unread ((dats m hW0 hW1 0 c).before 7 tlast d7))
            (xCopy (F := F) c (V m c main_arg0)) (aggC m hW0 hW1 c (tlast.val - 1) (by have := tlast.isLt; omega))
            (Memref.whole cc0_scratch2 : Memref sig .tc .vmem S5000x64 .f32).view.junk T13 (hW0 c tlast) (hW1 c tlast)]
          iexact Hy
        isplitl [Hs10 Hs11]
        · isplitl [Hs10]; · iexact Hs10
          iexact Hs11
        isplitl [H11 H12 H13]
        · isplitl [H11]; · iexists _; rw [← ptS_whole (F := F) c cc0_scratch0]; iexact H11
          isplitl [H12]; · iexists _; rw [← ptS_whole (F := F) c cc0_scratch1]; iexact H12
          iexists _; rw [← ptS_whole (F := F) c cc0_scratch2]; iexact H13
        iexact Hp
      isplitl [HO]; · iapply (owesAt_intro m hW0 hW1 c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr; swap; (· iexact H7)
      ipureintro; exact gate_block (F := F) m c tlast _
  · simp only [idle_0, idle_1, idle_2, idle_3, idle_4, idle_5, idle_6, idle7_of_not_last t hL, flush7_of_not_last t hL,
      before_0, before_1, before_2, before_3, before_4, before_5, before_6, after_0, after_1, after_2, after_3, after_4, after_5, after_6]
    by_cases hF : IsFirst t
    · -- the first point
      obtain ⟨k, hk⟩ := t
      have hk0 : k = 0 := (isFirst_iff ⟨k, hk⟩).mp hF
      subst hk0
      rw [Φ_pre_first m hW0 hW1 c hk, Φ_post_later m hW0 hW1 c 0 hk (by rw [N_eq]; omega), ends_eq,
        owns_eq_ptS (F := F) c (st0_0 ⟨0, hk⟩) (hstage0_0 ((cfg0.slots ⟨0, hk⟩ 0).cast nbuf0_0)),
        owns_eq_ptS (F := F) c (st0_1 ⟨0, hk⟩) (hstage0_1 ((cfg0.slots ⟨0, hk⟩ 1).cast nbuf0_1))]
      unfold Φmid
      iintro ⟨⟨⟨Hx, Hy⟩, ⟨Hs10, Hs11⟩, ⟨⟨%f0, H11⟩, ⟨%f1, H12⟩, Htile⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      iapply (run_first (F := F) c ⟨0, hk⟩ (st0_0 ⟨0, hk⟩) (hstage0_0 ((cfg0.slots ⟨0, hk⟩ 0).cast nbuf0_0)) (st0_1 ⟨0, hk⟩) (hstage0_1 ((cfg0.slots ⟨0, hk⟩ 1).cast nbuf0_1)) (st0_2 ⟨0, hk⟩) (hstage0_2 ((cfg0.slots ⟨0, hk⟩ 2).cast nbuf0_2)) (st0_3 ⟨0, hk⟩) (hstage0_3 ((cfg0.slots ⟨0, hk⟩ 3).cast nbuf0_3)) (st0_4 ⟨0, hk⟩) (hstage0_4 ((cfg0.slots ⟨0, hk⟩ 4).cast nbuf0_4)) (st0_5 ⟨0, hk⟩) (hstage0_5 ((cfg0.slots ⟨0, hk⟩ 5).cast nbuf0_5)) (st0_6 ⟨0, hk⟩) (hstage0_6 ((cfg0.slots ⟨0, hk⟩ 6).cast nbuf0_6)) (st0_7 ⟨0, hk⟩) (hstage0_7 ((cfg0.slots ⟨0, hk⟩ 7).cast nbuf0_7)) hF hL (X0at m c ⟨0, hk⟩) (X1at m c ⟨0, hk⟩) (V m c main_arg0) f0 f1 (hW0 c ⟨0, hk⟩) (hW1 c ⟨0, hk⟩) Wt _)
      isplitl [H0]; · iexact H0
      isplitl [H1]; · iexact H1
      isplitl [Hx]; · iexact Hx
      isplitl [H11]; · rw [ptS_whole]; iexact H11
      isplitl [H12]; · rw [ptS_whole]; iexact H12
      isplitl [Hs10]; · iexact Hs10
      isplitl [HO]; · iexact HO
      iintro ⟨H0, H1, Hx, H11, H12, Hs10, ⟨%W', HO⟩⟩
      isplitl [Hx Hy H11 H12 Htile Hs10 Hs11 Hp]
      · isplitl [Hx]; · iexact Hx
        isplitl [Hy]; · iexact Hy
        isplitl [H11]; · iexact H11
        isplitl [H12]; · iexact H12
        isplitl [Htile]; · icases Htile with ⟨%f2, Htile⟩; iexists f2; rw [ptS_whole]; iexact Htile
        isplitl [Hs10]; · iexact Hs10
        isplitl [Hs11]; · iexact Hs11
        iexact Hp
      isplitl [HO]; · iapply (owesAt_intro m hW0 hW1 c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point
      obtain ⟨k, hk⟩ := t
      cases k with
      | zero => exact absurd ((isFirst_iff ⟨0, hk⟩).mpr rfl) hF
      | succ k =>
        have hne : k + 1 + 1 ≠ cfg0.N := fun h => hL ((isLast_iff ⟨k + 1, hk⟩).mpr (by show k + 1 = 3124; rw [N_eq] at h; omega))
        rw [Φ_pre_later m hW0 hW1 c k hk, Φ_post_later m hW0 hW1 c (k + 1) hk hne,
          owns_eq_ptS (F := F) c (st0_0 ⟨k + 1, hk⟩) (hstage0_0 ((cfg0.slots ⟨k + 1, hk⟩ 0).cast nbuf0_0)),
          owns_eq_ptS (F := F) c (st0_1 ⟨k + 1, hk⟩) (hstage0_1 ((cfg0.slots ⟨k + 1, hk⟩ 1).cast nbuf0_1))]
        unfold Φmid
        iintro ⟨⟨Hx, Hy, H11, H12, Htile, Hs10, Hs11, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, H7⟩
        iapply (run_mid (F := F) c ⟨k + 1, hk⟩ (st0_0 ⟨k + 1, hk⟩) (hstage0_0 ((cfg0.slots ⟨k + 1, hk⟩ 0).cast nbuf0_0)) (st0_1 ⟨k + 1, hk⟩) (hstage0_1 ((cfg0.slots ⟨k + 1, hk⟩ 1).cast nbuf0_1)) (st0_2 ⟨k + 1, hk⟩) (hstage0_2 ((cfg0.slots ⟨k + 1, hk⟩ 2).cast nbuf0_2)) (st0_3 ⟨k + 1, hk⟩) (hstage0_3 ((cfg0.slots ⟨k + 1, hk⟩ 3).cast nbuf0_3)) (st0_4 ⟨k + 1, hk⟩) (hstage0_4 ((cfg0.slots ⟨k + 1, hk⟩ 4).cast nbuf0_4)) (st0_5 ⟨k + 1, hk⟩) (hstage0_5 ((cfg0.slots ⟨k + 1, hk⟩ 5).cast nbuf0_5)) (st0_6 ⟨k + 1, hk⟩) (hstage0_6 ((cfg0.slots ⟨k + 1, hk⟩ 6).cast nbuf0_6)) (st0_7 ⟨k + 1, hk⟩) (hstage0_7 ((cfg0.slots ⟨k + 1, hk⟩ 7).cast nbuf0_7)) hF hL (X0at m c ⟨k + 1, hk⟩) (X1at m c ⟨k + 1, hk⟩)
          (xCopy (F := F) c (V m c main_arg0)) (aggC m hW0 hW1 c k (Nat.lt_of_succ_lt hk)) (hW0 c ⟨k + 1, hk⟩) (hW1 c ⟨k + 1, hk⟩) _)
        isplitl [H0]; · iexact H0
        isplitl [H1]; · iexact H1
        isplitl [H11]; · iexact H11
        isplitl [H12]; · iexact H12
        iintro ⟨H0, H1, H11, H12⟩
        isplitl [Hx Hy H11 H12 Htile Hs10 Hs11 Hp]
        · isplitl [Hx]; · iexact Hx
          isplitl [Hy]; · iexact Hy
          isplitl [H11]; · iexact H11
          isplitl [H12]; · iexact H12
          isplitl [Htile]; · iexact Htile
          isplitl [Hs10]; · iexact Hs10
          isplitl [Hs11]; · iexact Hs11
          iexact Hp
        isplitl [HO]; · iapply (owesAt_intro m hW0 hW1 c); iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

end Cert.Proof.Kernel

end
-- ==== Proof.KernelWords.lean ====
/-
  The two index windows, read. Before the region the host writes the edge array's two rows, each flattened to a vector
  of 1600000 words: the source row (row 0) and the destination row (row 1). The pipeline stages each vector in blocks
  of 512 words, block t at grid point t. So word j of the source window's block at point t is the edge array's word
  (0, 512 t + j), and likewise the destination window's with row 1. When every word of the edge array is a node number
  (below 100000), every word of every block is one, and so is every word a load reads through a staging buffer held
  at the contents that read its block.
-/
import proofs.«407827_j64682207478383_2_alg».proof.Proof.KernelLoop
import proofs.«407827_j64682207478383_2_alg».proof.Proof.Gen.Kernel.Frame
import proofs.«407827_j64682207478383_2_alg».proof.Proof.Gen.Kernel.Points
import proofs.«407827_j64682207478383_2_alg».proof.Proof.Spec
import Idealize.ShloMosaic.Lib.Pipeline.Value
import Idealize.ShloMosaic.Lib.Pipeline.Frame
import Idealize.ShloMosaic.Lib.StableHlo.Run

noncomputable section

namespace Cert.Proof.Kernel

open Cert.Kernel Cert.Kernel.Gen Idealize.ShloMosaic Idealize.ShloMosaic.TcCoe Idealize.ShloMosaic.ValueIdx

variable {F : FTy → Type} [FloatOps F]
variable (m : (ℓ : Loc nD τ sig) → Buf (Elt F) ℓ)

/-- The source row of the edge array, flattened, as the region finds it: word e is the edge array's word (0, e). The
    host writes it as the reshape of the slice of row 0; the reshape keeps the row-major position and the slice keeps
    the column. -/
theorem V_v1_apply (c : Dev nD) (e : Fin 1600000) :
    V m c main_v1 (ix1 e) = m ((c : Thread nD τ).loc main_arg1) (ix2 (0 : Fin 2) e) := by
  have h : (V m c main_v1 : S1600000.Idx → BitVec 32)
      = shapeCast S1600000 (extractStridedSlice S1x1600000 ![0, 0] (m ((c : Thread nD τ).loc main_arg1) : S2x1600000.Idx → BitVec 32)
          slices_S2x1600000_S1x1600000_0_0) shapeCasts_S1x1600000_S1600000 := by
    dsimp only [Gen.V, Gen.hostOps0]; after_results; rfl
  show (V m c main_v1 : S1600000.Idx → BitVec 32) (ix1 e) = _
  rw [h]
  refine (shapeCast_apply _ _ (ix1 e) (ix2 (0 : Fin 1) e) ?_).trans ?_
  · rw [Shape.rowMajor_val_two, Shape.rowMajor_val_one]
    show 0 * 1600000 + e.val = e.val
    omega
  · exact extractStridedSlice_apply _ _ _ (ix2 (0 : Fin 1) e) (ix2 (0 : Fin 2) e) (fun a => by
      match a with
      | ⟨0, _⟩ => show (0 : ℕ) = 0 + 0; rfl
      | ⟨1, _⟩ => show e.val = 0 + e.val; omega)

/-- Likewise the destination row: word e is the edge array's word (1, e). -/
theorem V_v3_apply (c : Dev nD) (e : Fin 1600000) :
    V m c main_v3 (ix1 e) = m ((c : Thread nD τ).loc main_arg1) (ix2 (1 : Fin 2) e) := by
  have h : (V m c main_v3 : S1600000.Idx → BitVec 32)
      = shapeCast S1600000 (extractStridedSlice S1x1600000 ![1, 0] (m ((c : Thread nD τ).loc main_arg1) : S2x1600000.Idx → BitVec 32)
          slices_S2x1600000_S1x1600000_1_0) shapeCasts_S1x1600000_S1600000 := by
    dsimp only [Gen.V, Gen.hostOps0]; after_results; rfl
  show (V m c main_v3 : S1600000.Idx → BitVec 32) (ix1 e) = _
  rw [h]
  refine (shapeCast_apply _ _ (ix1 e) (ix2 (0 : Fin 1) e) ?_).trans ?_
  · rw [Shape.rowMajor_val_two, Shape.rowMajor_val_one]
    show 0 * 1600000 + e.val = e.val
    omega
  · exact extractStridedSlice_apply _ _ _ (ix2 (0 : Fin 1) e) (ix2 (1 : Fin 2) e) (fun a => by
      match a with
      | ⟨0, _⟩ => show (1 : ℕ) = 1 + 0; rfl
      | ⟨1, _⟩ => show e.val = 0 + e.val; omega)

/-- The two index windows' block index at a point is the point's number. -/
theorem idx_words : ∀ t : Fin cfg0.N, win0_0.index t (0 : Fin 1) = t.val ∧ win0_1.index t (0 : Fin 1) = t.val :=
  (by decide +kernel : ∀ t : Fin grid0.N, win0_0.index t (0 : Fin 1) = t.val ∧ win0_1.index t (0 : Fin 1) = t.val)

/-- Word j of block t is word 512 t + j of the row, and the row has 3125 blocks of 512 words. -/
theorem word_lt (t : Fin cfg0.N) (j : Fin 512) : 512 * t.val + j.val < 1600000 := by
  have h1 := t.isLt
  have h2 := j.isLt
  have h3 : cfg0.N = 3125 := N_0
  omega

/-- Window 0's block at point t, read at j: the edge array's word (0, 512 t + j). The block's coordinate in the row
    is its index times 512 plus the coordinate inside the block. -/
theorem iblk0_apply (c : Dev nD) (t : Fin cfg0.N) (j : Fin 512) :
    iblk m c 0 t (ix1 j) = m ((c : Thread nD τ).loc main_arg1) (ix2 (0 : Fin 2) ⟨512 * t.val + j.val, word_lt t j⟩) := by
  show V m c main_v1 (((cfg0.win 0).blk t).view.emb (ix1 j)) = _
  have he : ((cfg0.win 0).blk t).view.emb (ix1 j) = (ix1 ⟨512 * t.val + j.val, word_lt t j⟩ : S1600000.Idx) := by
    funext a; apply Fin.ext
    match a with
    | ⟨0, _⟩ =>
      show win0_0.index t (0 : Fin 1) * 512 + 1 * j.val = 512 * t.val + j.val
      rw [(idx_words t).1]; omega
  exact (congrArg (V m c main_v1 : S1600000.Idx → BitVec 32) he).trans (V_v1_apply m c _)

/-- Window 1's block at point t, read at j: the edge array's word (1, 512 t + j). -/
theorem iblk1_apply (c : Dev nD) (t : Fin cfg0.N) (j : Fin 512) :
    iblk m c 1 t (ix1 j) = m ((c : Thread nD τ).loc main_arg1) (ix2 (1 : Fin 2) ⟨512 * t.val + j.val, word_lt t j⟩) := by
  show V m c main_v3 (((cfg0.win 1).blk t).view.emb (ix1 j)) = _
  have he : ((cfg0.win 1).blk t).view.emb (ix1 j) = (ix1 ⟨512 * t.val + j.val, word_lt t j⟩ : S1600000.Idx) := by
    funext a; apply Fin.ext
    match a with
    | ⟨0, _⟩ =>
      show win0_1.index t (0 : Fin 1) * 512 + 1 * j.val = 512 * t.val + j.val
      rw [(idx_words t).2]; omega
  exact (congrArg (V m c main_v3 : S1600000.Idx → BitVec 32) he).trans (V_v3_apply m c _)

section Range

variable (hR : ∀ c : Dev nD, Cert.Spec.InRange (m ((c : Thread nD τ).loc main_arg1)))
include hR

/-- When every word of the edge array is a node number, so is every word of a block of its source row. -/
theorem iblk0_lt (c : Dev nD) (t : Fin cfg0.N) : ∀ y, (iblk m c 0 t y).toNat < 100000 := by
  intro y
  obtain ⟨j, rfl⟩ : ∃ j : Fin 512, y = ix1 j := ⟨y 0, eq_ix1 y⟩
  exact (congrArg BitVec.toNat (iblk0_apply m c t j)).trans_lt (hR c _)

/-- Likewise every word of a block of its destination row. -/
theorem iblk1_lt (c : Dev nD) (t : Fin cfg0.N) : ∀ y, (iblk m c 1 t y).toNat < 100000 := by
  intro y
  obtain ⟨j, rfl⟩ : ∃ j : Fin 512, y = ix1 j := ⟨y 0, eq_ix1 y⟩
  exact (congrArg BitVec.toNat (iblk1_apply m c t j)).trans_lt (hR c _)

/-- The source block's staging buffer, held at the contents that read the block, reads a node number at every index
    of every load: a load through a whole buffer's own view reads the block at the load's index. -/
theorem wordsOK0 (c : Dev nD) (t : Fin cfg0.N) :
    WordsOK (F := F) (st0_0 t) ((hstage0_0 ((cfg0.slots t 0).cast nbuf0_0)).unread (iblk m c 0 t)) := by
  intro r y
  have e : View.readAt (Elt F) (st0_0 t).view r ((hstage0_0 ((cfg0.slots t 0).cast nbuf0_0)).unread (iblk m c 0 t)) y
      = iblk m c 0 t (r.idx y) :=
    congrFun ((hstage0_0 ((cfg0.slots t 0).cast nbuf0_0)).read_unread (iblk m c 0 t)) _
  exact (congrArg BitVec.toNat e).trans_lt (iblk0_lt m hR c t _)

/-- Likewise the destination block's staging buffer. -/
theorem wordsOK1 (c : Dev nD) (t : Fin cfg0.N) :
    WordsOK (F := F) (st0_1 t) ((hstage0_1 ((cfg0.slots t 1).cast nbuf0_1)).unread (iblk m c 1 t)) := by
  intro r y
  have e : View.readAt (Elt F) (st0_1 t).view r ((hstage0_1 ((cfg0.slots t 1).cast nbuf0_1)).unread (iblk m c 1 t)) y
      = iblk m c 1 t (r.idx y) :=
    congrFun ((hstage0_1 ((cfg0.slots t 1).cast nbuf0_1)).read_unread (iblk m c 1 t)) _
  exact (congrArg BitVec.toNat e).trans_lt (iblk1_lt m hR c t _)

end Range

end Cert.Proof.Kernel

end
-- ==== Proof.KernelLaunch.lean ====
/-
  The launch of the fused kernel's pipeline and its frame.

  @main is four host operations (the two rows of the edge array sliced out and flattened) and then the one kernel
  region. From any memory whose edge words are all node numbers, every weakly fair execution of @main terminates,
  faults nowhere, and ends with every array of the pipeline at what the library computes from the proof data, x
  and the result (routed through the body's invariant) at x's launch contents and the result's final contents
  `outC`, and every other buffer that is no window's array as the region found it. Read at the seven arguments
  this is the frame claim's post: they end as launched.
-/
import proofs.«407827_j64682207478383_2_alg».proof.Proof.KernelObligation
import proofs.«407827_j64682207478383_2_alg».proof.Proof.KernelWords

set_option maxRecDepth 65536
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]

local notation "𝕄" => MT nD τ sig Unit (Elt F) ℕ UC ℕ

variable (m : (ℓ : Loc nD τ sig) → Buf (Elt F) ℓ) (ρ : Dev nD → PrngReg)
variable (hR : ∀ c : Dev nD, Cert.Spec.InRange (m ((c : Thread nD τ).loc main_arg1)))

/-- The layout the launch needs of the kernel's own semaphores: scoped, distinct, and no staging semaphore. -/
theorem ownSemFacts : Pipeline.OwnSemFacts spec0 osem := by decide

/-- The proof data at the word facts the precondition gives. -/
abbrev datsR := dats (F := F) m (wordsOK0 m hR) (wordsOK1 m hR)
abbrev YvR := Yv (F := F) m (wordsOK0 m hR) (wordsOK1 m hR)

/-- At the compiled mesh, for any float values, from any memory with zero counters whose edge words are node numbers:
    every weakly fair execution of @main on the TensorCores terminates, and every final state has the pipeline's
    arrays at the library's account of them, x as launched and the result at `outC`, the other buffers as the region
    found them. -/
theorem run_main : θ_run defs (onTc (τ := τ) (main (F := F))) (s₀ m ρ) (RoutedPost cfgs (datsR m hR) 0 RR (V m) (YvR m hR)) :=
  Pipeline.θ_run_frame_routed cfgs (datsR m hR) 0 launch0 ownSemFacts defs₀ 𝒱₀ m ρ main
    (hbody := fun c => (body_obligation m (wordsOK0 m hR) (wordsOK1 m hR) c).loose)
    (hshare := fun c => (datsR m hR 0 c).share_full fun _ => rfl)
    (howed := fun _ _ => rfl) (V := V m)
    (hmain := Pipeline.hmain_prefix cfgs 0 defs₀ 𝒱₀ m main hostOps0 hostOps0_sub (hostOps0_fresh (F := F)) main_chain)
    (hA := fun _ _ => rfl) (R := RR) (hR := by decide) (Y := YvR m hR)
    (hin := fun c => by
      rw [show (datsR m hR 0 c).Φ 0 = Ends spec0 osem RR c (V m c) from by unfold datsR; dsimp only [dats]; unfold Φv; exact dif_pos rfl])
    (hout := fun c => by
      rw [show (datsR m hR 0 c).Φ (Fin.last cfg0.N) = Ends spec0 osem RR c (YvR m hR c) from by
        unfold datsR YvR; dsimp only [dats]; unfold Φv
        exact (dif_neg (show ¬ cfg0.N = 0 by rw [N_eq]; omega)).trans (dif_pos rfl)])

/-! ## The final contents, read off the post -/

theorem final_arg0 {r : PUnit × MemSt nD τ sig (Elt F)} (h : RoutedPost cfgs (datsR m hR) 0 RR (V m) (YvR m hR) r) (c : Dev nD) :
    r.2.mem ((c : Thread nD τ).loc main_arg0) = m ((c : Thread nD τ).loc main_arg0) :=
  ((h c).2.1 main_arg0 (by decide)).trans ((Yv_x m _ _ c).trans (V_main_arg0 m c))

theorem final_arg1 {r : PUnit × MemSt nD τ sig (Elt F)} (h : RoutedPost cfgs (datsR m hR) 0 RR (V m) (YvR m hR) r) (c : Dev nD) :
    r.2.mem ((c : Thread nD τ).loc main_arg1) = m ((c : Thread nD τ).loc main_arg1) :=
  ((h c).2.2 main_arg1 (Finset.mem_sdiff.mpr ⟨Pipeline.mem_restRefs_of main_arg1 (by decide) (by decide), by decide⟩)).trans (V_main_arg1 m c)

theorem final_arg2 {r : PUnit × MemSt nD τ sig (Elt F)} (h : RoutedPost cfgs (datsR m hR) 0 RR (V m) (YvR m hR) r) (c : Dev nD) :
    r.2.mem ((c : Thread nD τ).loc main_arg2) = m ((c : Thread nD τ).loc main_arg2) :=
  ((h c).1 2).trans (((datsR m hR 0 c).arrAt_in 2 rfl _).trans (V_main_arg2 m c))
theorem final_arg3 {r : PUnit × MemSt nD τ sig (Elt F)} (h : RoutedPost cfgs (datsR m hR) 0 RR (V m) (YvR m hR) r) (c : Dev nD) :
    r.2.mem ((c : Thread nD τ).loc main_arg3) = m ((c : Thread nD τ).loc main_arg3) :=
  ((h c).1 3).trans (((datsR m hR 0 c).arrAt_in 3 rfl _).trans (V_main_arg3 m c))
theorem final_arg4 {r : PUnit × MemSt nD τ sig (Elt F)} (h : RoutedPost cfgs (datsR m hR) 0 RR (V m) (YvR m hR) r) (c : Dev nD) :
    r.2.mem ((c : Thread nD τ).loc main_arg4) = m ((c : Thread nD τ).loc main_arg4) :=
  ((h c).1 4).trans (((datsR m hR 0 c).arrAt_in 4 rfl _).trans (V_main_arg4 m c))
theorem final_arg5 {r : PUnit × MemSt nD τ sig (Elt F)} (h : RoutedPost cfgs (datsR m hR) 0 RR (V m) (YvR m hR) r) (c : Dev nD) :
    r.2.mem ((c : Thread nD τ).loc main_arg5) = m ((c : Thread nD τ).loc main_arg5) :=
  ((h c).1 5).trans (((datsR m hR 0 c).arrAt_in 5 rfl _).trans (V_main_arg5 m c))
theorem final_arg6 {r : PUnit × MemSt nD τ sig (Elt F)} (h : RoutedPost cfgs (datsR m hR) 0 RR (V m) (YvR m hR) r) (c : Dev nD) :
    r.2.mem ((c : Thread nD τ).loc main_arg6) = m ((c : Thread nD τ).loc main_arg6) :=
  ((h c).1 6).trans (((datsR m hR 0 c).arrAt_in 6 rfl _).trans (V_main_arg6 m c))

/-- The result array ends at `outC`; the gate array at the library's account of its window. -/
theorem final_out {r : PUnit × MemSt nD τ sig (Elt F)} (h : RoutedPost cfgs (datsR m hR) 0 RR (V m) (YvR m hR) r) (c : Dev nD) :
    r.2.mem ((c : Thread nD τ).loc main_v4_0) = outC m (wordsOK0 m hR) (wordsOK1 m hR) c :=
  ((h c).2.1 main_v4_0 (by decide)).trans (Yv_out m _ _ c)
theorem final_gate {r : PUnit × MemSt nD τ sig (Elt F)} (h : RoutedPost cfgs (datsR m hR) 0 RR (V m) (YvR m hR) r) (c : Dev nD) :
    r.2.mem ((c : Thread nD τ).loc main_v4_1) = (datsR m hR 0 c).arrAt 7 cfg0.N :=
  (h c).1 7

include hR in
/-- THE FRAME: the program runs to the end, faults nowhere, and its seven arguments end as launched. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨final_arg0 m hR h c, final_arg1 m hR h c, final_arg2 m hR h c, final_arg3 m hR h c, final_arg4 m hR h c, final_arg5 m hR h c, final_arg6 m hR h c⟩)
    (run_main m ρ hR)

end Cert.Proof.Kernel

end
-- ==== Proof.KernelIdealLoop.lean ====
/-
  The edge loop of the fused kernel, one trip at a symbolic trip number, and its invariant.

  At every grid point the body runs 64 trips; trip k handles the eight edges 8k … 8k+7 of the point's block of 512:
  it reads the edge's source word and destination word from the two staged index blocks, checks that each names
  a row of the arrays, and adds the source's feature row (from the resident copy of x) to the destination's row
  of the aggregate, in place. A trip therefore leaves the aggregate's buffer at its previous contents overwritten
  by eight one-row pieces, each piece's payload read off the contents the earlier pieces left. The trip is run once,
  at a symbolic k, under the one fact the checks need: every word of the two index blocks is below 100000. The
  pieces of the trips before k, newest first, are `pieces k`; the invariant before trip k holds the two index blocks
  and the copy of x at their contents and the aggregate at its loop-entry contents overwritten by `pieces k`.
-/
import proofs.«407827_j64682207478383_2_alg».proof.Proof.Gen.KernelIdeal.Loops
import Idealize.ShloMosaic.Lib.Pipeline.Routed

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UC : Type := UR sig nD τ × Counters
local notation "𝕄" => MT nD τ sig Unit (Elt F) ℕ UC ℕ

/-- A word below the number of rows names a row inside the arrays: the row's one-row rectangle fits. -/
theorem row_ok {v : BitVec 32} (h : v.toNat < 100000) :
    ∀ a, (![(Scalar.indexCast v).toNat, 0] : Fin 2 → ℕ) a + S1x64.size a ≤ S100000x64.size a := by
  intro a
  match a with
  | ⟨0, _⟩ => show (Scalar.indexCast v).toNat + 1 ≤ 100000; simp only [Scalar.indexCast]; omega
  | ⟨1, _⟩ => show 0 + 64 ≤ 64; omega

/-- Every word an index block holds is a row number. -/
abbrev WordsOK (M : Memref sig .tc .smem S512 .i32) (X : BufTy.Contents (Elt F) M.view.ty) : Prop :=
  ∀ (r : LoadRect S512) (y : r.shape.Idx), (View.readAt (Elt F) M.view r X y).toNat < 100000

/-- What a trip touches: the two index blocks and the copy of x, read; the aggregate, read and written. -/
abbrev Trip (c : Dev nD) (arg1 arg2 : Memref sig .tc .smem S512 .i32) (arg11 arg12 : Memref sig .tc .vmem S100000x64 .f32)
    (X1 : BufTy.Contents (Elt F) arg1.view.ty) (X2 : BufTy.Contents (Elt F) arg2.view.ty)
    (X11 : BufTy.Contents (Elt F) arg11.view.ty) (f12 : BufTy.Contents (Elt F) arg12.view.ty) : sProp 𝕄 :=
  iprop((arg1.view.loc (c : Thread nD τ) ↦[arg1.view.set]{fullShare} X1) ∗ (arg2.view.loc (c : Thread nD τ) ↦[arg2.view.set]{fullShare} X2)
    ∗ (arg11.view.loc (c : Thread nD τ) ↦[arg11.view.set]{fullShare} X11) ∗ (arg12.view.loc (c : Thread nD τ) ↦[arg12.view.set]{fullShare} f12))

/-- ONE TRIP at a symbolic trip number: the eight row pieces it writes into the aggregate, as a function of the
    contents it finds there, and the trip's run from those contents to them overwritten by the pieces. -/
@[irreducible] def trip (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (k : Fin k0_t1_loop.trips) :
    { L : BufTy.Contents (Elt F) arg12.view.ty → List (View.Piece (Elt F) S100000x64 .f32) // ∀ (f12 : BufTy.Contents (Elt F) arg12.view.ty),
      Trip (F := F) c arg1 arg2 arg11 arg12 X1 X2 X11 f12
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 arg15 k PUnit.unit)
          (fun _ => Trip (F := F) c arg1 arg2 arg11 arg12 X1 X2 X11 (arg12.view.writes (Elt F) f12 (L f12))) } := by
  refine ⟨?_, fun f12 => ?run⟩
  case run =>
    unfold k0_t1_body
    iintro ⟨H1, H2, H11, H12⟩
    sl_exec (disch := (sl_unfold_run_names; first | exact row_ok (hX1 _ _) | exact ⟨row_ok (hX2 _ _), row_ok (hX2 _ _)⟩))
    sl_step
    sl_close

/-- The trip's pieces at the contents it finds (a plain projection, for the recursion below to cite). -/
abbrev tripL (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (k : Fin k0_t1_loop.trips) (f12 : BufTy.Contents (Elt F) arg12.view.ty) :
    List (View.Piece (Elt F) S100000x64 .f32) :=
  (trip (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 k).1 f12

/-- Trip k's pieces in front of the pieces before it, taken at the contents those left; past the last trip, nothing more. -/
@[irreducible] def piecesStep (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty)
    (k : ℕ) (prev : List (View.Piece (Elt F) S100000x64 .f32)) : List (View.Piece (Elt F) S100000x64 .f32) :=
  if h : k < k0_t1_loop.trips then
    (tripL (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 ⟨k, h⟩ (arg12.view.writes (Elt F) G12 prev)) ++ prev
  else prev

/-- The pieces of the trips before k, newest first, from the aggregate's contents `G12` at loop entry. -/
def pieces (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty) :
    ℕ → List (View.Piece (Elt F) S100000x64 .f32)
  | 0 => []
  | k + 1 => piecesStep (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k (pieces c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k)

theorem pieces_succ (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty) (k : Fin k0_t1_loop.trips) :
    pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 (k.val + 1)
      = (tripL (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 k (arg12.view.writes (Elt F) G12 (pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k.val)))
          ++ (pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k.val) := by
  rw [pieces.eq_2]; unfold piecesStep; exact dif_pos k.isLt

/-- THE INVARIANT before trip k: the index blocks and the copy of x at their contents, the aggregate at its
    loop-entry contents overwritten by the pieces of the trips before k. -/
abbrev inv (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty) (k : ℕ) (_u : Unit) : sProp 𝕄 :=
  iprop((arg1.view.loc (c : Thread nD τ) ↦[arg1.view.set]{fullShare} X1) ∗ (arg2.view.loc (c : Thread nD τ) ↦[arg2.view.set]{fullShare} X2)
    ∗ (arg11.view.loc (c : Thread nD τ) ↦[arg11.view.set]{fullShare} X11)
    ∗ (∃ f, (arg12.view.loc (c : Thread nD τ) ↦[arg12.view.set]{fullShare} f)
        ∗ ⌜f = arg12.view.writes (Elt F) G12 (pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k)⌝))

/-- One trip takes the invariant before it to the invariant after it. -/
theorem inv_step (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty)
    (k : Fin k0_t1_loop.trips) (acc : Unit) :
    inv (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 k.val acc
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 arg15 k acc)
          (inv (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 (k.val + 1)) := by
  iintro ⟨H1, H2, H11, ⟨%f12, H12, %h12⟩⟩
  iapply (wp_wand_r Idealize.ShloMosaic.frame (wpE (defs₀ (F := F)) Variants.none (c : Thread nD τ) none) Set.univ)
  isplitl [H1 H2 H11 H12]
  · iapply ((trip (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 k).2 f12)
    isplitl [H1]; · iexact H1
    isplitl [H2]; · iexact H2
    isplitl [H11]; · iexact H11
    iexact H12
  · iintro %_ ⟨H1, H2, H11, H12⟩
    isplitl [H1]; · iexact H1
    isplitl [H2]; · iexact H2
    isplitl [H11]; · iexact H11
    rw [pieces_succ]
    iexists _; isplitl [H12]; · iexact H12
    ipureintro; rw [h12, ← View.writes_append]

end Cert.Proof.KernelIdeal

end
-- ==== Proof.KernelIdealKinds.lean ====
/-
  The fused kernel's body at a symbolic grid point, by the point's kind.

  The grid has one axis of 3125 points, one per block of 512 edges. At the FIRST point the body copies x from the
  array left in place into a resident scratch copy (its own transfer, issued and waited for at once) and fills the
  aggregate with zeros; at EVERY point it runs the 64 trips of the edge loop over the point's two index blocks; at
  the LAST point it computes the gate and, tile by tile (twenty tiles of 5000 rows), the perceptron of x plus the
  aggregate, storing each tile and copying it out into the result's rows by a transfer issued and waited for at
  once. Three runs, one per kind, each at any point of its kind — the kind given as the body's own two branch
  conditions — from the buffers the body touches at their contents to those buffers at what the body leaves:
  the aggregate at its entry contents overwritten by the loop's pieces (`aggAfter`), at the first point from the
  zero fill (`aggZero`) with the copy of x at x's contents (`xCopy`).
-/
import proofs.«407827_j64682207478383_2_alg».proof.Proof.KernelIdealLoop

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

/-- The grid point is the first: the body's own test, as it computes it. -/
abbrev IsFirst (t : Fin cfg0.N) : Prop :=
  Scalar.cmpi .ne (Scalar.extui (Scalar.cmpi .eq (BitVec.ofNat 32 ((grid0.coords t) 0).val) 0#32)) 0#32 = 1#1
/-- The grid point is the last. -/
abbrev IsLast (t : Fin cfg0.N) : Prop := k0_cond2 (grid0.coords t) = 1#1

/-- A memref's buffer contents on core `c`; the buffer held whole at contents `f`; held by the memref's own elements. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev ptS (c : Dev nD) {sp : Space} {S : Shape} {e : EltTy} (M : Memref sig .tc sp S e) (f : BufTy.Contents (Elt F) M.view.ty) : sProp 𝕄 :=
  M.view.loc (c : Thread nD τ) ↦[M.view.set]{fullShare} f

/-- The loop's trip count (64). -/
abbrev nTrips : ℕ := Scf.trips k0_t1_loop.lb k0_t1_loop.ub k0_t1_loop.st

/-- The resident copy of x after the first point's transfer: the buffer written whole with x's contents. -/
abbrev xCopy (c : Dev nD) (Xh : Bf (F := F) c (Memref.whole main_arg0 : Memref sig .tc .hbm S100000x64 .f32)) :
    BufTy.Contents (Elt F) (Memref.whole cc0_scratch0 : Memref sig .tc .vmem S100000x64 .f32).view.ty :=
  (Memref.whole cc0_scratch0 : Memref sig .tc .vmem S100000x64 .f32).view.writes (Elt F) (Memref.whole cc0_scratch0 : Memref sig .tc .vmem S100000x64 .f32).view.junk
    [⟨Rect.whole _, ReadAs.same.apply ((Memref.whole main_arg0 : Memref sig .tc .hbm S100000x64 .f32).view.read (Elt F) Xh)⟩]

/-- The aggregate after the first point's zero fill. -/
abbrev aggZero : BufTy.Contents (Elt F) (Memref.whole cc0_scratch1 : Memref sig .tc .vmem S100000x64 .f32).view.ty :=
  (Memref.whole cc0_scratch1 : Memref sig .tc .vmem S100000x64 .f32).view.writes (Elt F) (Memref.whole cc0_scratch1 : Memref sig .tc .vmem S100000x64 .f32).view.junk
    [⟨Rect.unit (s := S100000x64) ![0, 0] S100000x64.size inb_S100000x64_S100000x64_0_0, k0_pay1 (F := F)⟩]

section Runs

variable (c : Dev nD) (t : Fin cfg0.N) (arg1 : Memref sig .tc .smem S512 .i32) (harg1 : arg1.IsWhole) (arg2 : Memref sig .tc .smem S512 .i32) (harg2 : arg2.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg10 : Memref sig .tc .vmem S1 .f32) (harg10 : arg10.IsWhole)

/-- The aggregate after a point's loop, from contents `G12`, the copy of x at `X11`, the point's index blocks at `X1`, `X2`. -/
abbrev aggAfter (X1 : BufTy.Contents (Elt F) arg1.view.ty) (X2 : BufTy.Contents (Elt F) arg2.view.ty)
    (X11 : BufTy.Contents (Elt F) (Memref.whole cc0_scratch0 : Memref sig .tc .vmem S100000x64 .f32).view.ty)
    (hX1 : WordsOK (F := F) arg1 X1) (hX2 : WordsOK (F := F) arg2 X2)
    (G12 : BufTy.Contents (Elt F) (Memref.whole cc0_scratch1 : Memref sig .tc .vmem S100000x64 .f32).view.ty) :
    BufTy.Contents (Elt F) (Memref.whole cc0_scratch1 : Memref sig .tc .vmem S100000x64 .f32).view.ty :=
  (Memref.whole cc0_scratch1 : Memref sig .tc .vmem S100000x64 .f32).view.writes (Elt F) G12
    (pieces (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12 nTrips)

set_option sl_exec.dmaWindow true in
/-- The first point: x copied in, the aggregate zeroed, the loop run from the zero fill. -/
theorem run_first (hF : IsFirst t) (hL : ¬ IsLast t)
    (X1 : BufTy.Contents (Elt F) arg1.view.ty) (X2 : BufTy.Contents (Elt F) arg2.view.ty)
    (Xh : Bf (F := F) c (Memref.whole main_arg0 : Memref sig .tc .hbm S100000x64 .f32))
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (hX1 : WordsOK (F := F) arg1 X1) (hX2 : WordsOK (F := F) arg2 X2) (W : Waits sig Unit) (Q : PUnit → sProp 𝕄) :
    iprop(ptS c arg1 X1 ∗ ptS c arg2 X2 ∗ pt c (Memref.whole main_arg0) Xh
      ∗ ptS c (Memref.whole cc0_scratch0) X11 ∗ ptS c (Memref.whole cc0_scratch1) G12
      ∗ semVal ((c : Thread nD τ), SemLoc.dma (10 : DmaSem sig)) 0 ∗ owes (c : Thread nD τ) 0 W
      ∗ (iprop(ptS c arg1 X1 ∗ ptS c arg2 X2 ∗ pt c (Memref.whole main_arg0) Xh
          ∗ ptS c (Memref.whole cc0_scratch0) (xCopy (F := F) c Xh)
          ∗ ptS c (Memref.whole cc0_scratch1) (aggAfter (F := F) c t arg1 harg1 arg2 harg2 arg4 harg4 arg5 harg5 arg6 harg6 arg7 harg7 arg8 harg8 arg10 harg10 X1 X2 (xCopy (F := F) c Xh) hX1 hX2 (aggZero (F := F)))
          ∗ semVal ((c : Thread nD τ), SemLoc.dma (10 : DmaSem sig)) 0 ∗ (∃ W', owes (c : Thread nD τ) 0 W')) -∗ Q ⟨⟩))
      ⊢ wp frame (wpE (defs₀ (F := F)) Variants.none (c : Thread nD τ) none) Set.univ
          (cc0__fused_kernel (F := F) (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4) Q := by
  iintro ⟨H1, H2, Hx, H11, H12, Hs, HO, Hk⟩
  simp only [cc0__fused_kernel_eq_skeleton]; unfold cc0__fused_kernel_skel
  sl_exec (disch := assumption)
  sl_for (inv (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 (xCopy (F := F) c Xh) hX1 hX2 (aggZero (F := F))) $$ [H1 H2 H11 H12]
  · exact inv_step (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 (xCopy (F := F) c Xh) hX1 hX2 (aggZero (F := F))
  · isplitl [H1]; · iexact H1
    isplitl [H2]; · iexact H2
    isplitl [H11]; · iexact H11
    iexists _; isplitl [H12]; · iexact H12
    ipureintro
    rw [pieces.eq_1, View.writes_nil]
    exact congrArg (fun L => (Memref.whole cc0_scratch1 : Memref sig .tc .vmem S100000x64 .f32).view.writes (Elt F) (Memref.whole cc0_scratch1 : Memref sig .tc .vmem S100000x64 .f32).view.junk L)
      (show _ = ([⟨Rect.unit (s := S100000x64) ![0, 0] S100000x64.size inb_S100000x64_S100000x64_0_0, k0_pay1 (F := F)⟩] : List (View.Piece (Elt F) S100000x64 .f32)) by sl_unfold_run_names; rfl)
  · iintro %acc ⟨H1, H2, H11, ⟨%f12, H12, %h12⟩⟩
    subst h12
    sl_exec (disch := assumption)
    sl_step
    iapply Hk
    isplitl [H1]; · iexact H1
    isplitl [H2]; · iexact H2
    isplitl [Hx]; · iexact Hx
    isplitl [H11]; · iexact H11
    isplitl [H12]; · iexact H12
    isplitl [Hs]; · iexact Hs
    iexists _; iexact HO

/-- A middle point: the loop alone. -/
theorem run_mid (hF : ¬ IsFirst t) (hL : ¬ IsLast t)
    (X1 : BufTy.Contents (Elt F) arg1.view.ty) (X2 : BufTy.Contents (Elt F) arg2.view.ty)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (hX1 : WordsOK (F := F) arg1 X1) (hX2 : WordsOK (F := F) arg2 X2) (Q : PUnit → sProp 𝕄) :
    iprop(ptS c arg1 X1 ∗ ptS c arg2 X2 ∗ ptS c (Memref.whole cc0_scratch0) X11 ∗ ptS c (Memref.whole cc0_scratch1) G12
      ∗ (iprop(ptS c arg1 X1 ∗ ptS c arg2 X2 ∗ ptS c (Memref.whole cc0_scratch0) X11
          ∗ ptS c (Memref.whole cc0_scratch1) (aggAfter (F := F) c t arg1 harg1 arg2 harg2 arg4 harg4 arg5 harg5 arg6 harg6 arg7 harg7 arg8 harg8 arg10 harg10 X1 X2 X11 hX1 hX2 G12)) -∗ Q ⟨⟩))
      ⊢ wp frame (wpE (defs₀ (F := F)) Variants.none (c : Thread nD τ) none) Set.univ
          (cc0__fused_kernel (F := F) (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4) Q := by
  iintro ⟨H1, H2, H11, H12, Hk⟩
  simp only [cc0__fused_kernel_eq_skeleton]; unfold cc0__fused_kernel_skel
  sl_exec (disch := assumption)
  sl_for (inv (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12) $$ [H1 H2 H11 H12]
  · exact inv_step (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12
  · isplitl [H1]; · iexact H1
    isplitl [H2]; · iexact H2
    isplitl [H11]; · iexact H11
    iexists _; isplitl [H12]; · iexact H12
    ipureintro; rfl
  · iintro %acc ⟨H1, H2, H11, ⟨%f12, H12, %h12⟩⟩
    subst h12
    sl_exec (disch := assumption)
    sl_step
    iapply Hk
    isplitl [H1]; · iexact H1
    isplitl [H2]; · iexact H2
    isplitl [H11]; · iexact H11
    iexact H12

/-- The gate's staging buffer after the last point: its one cell stored with the logistic of the staged parameter. -/
abbrev gateAfter (X8 : BufTy.Contents (Elt F) arg8.view.ty) (D10 : BufTy.Contents (Elt F) arg10.view.ty) : BufTy.Contents (Elt F) arg10.view.ty :=
  arg10.view.writes (Elt F) D10
    [⟨Rect.unit (s := S1) ![0] S1.size inb_S1_S1_0,
      k0_pay13 (View.readAt (Elt F) arg8.view (Rect.unit (s := S1) ![0] S1.size inb_S1_S1_0).toLoadRect X8)⟩]

set_option sl_exec.dmaWindow true in
/-- The last point: the loop, then the gate and the twenty tiles, each stored to the tile buffer and copied out into
    its rows of the result. The pieces the result and the tile buffer end overwritten by are the run's own finds
    (the result's: one 5000-row block per tile, its payload what the transfer read off the tile buffer). -/
@[irreducible] def runLast (hF : ¬ IsFirst t) (hL : IsLast t)
    (X1 : BufTy.Contents (Elt F) arg1.view.ty) (X2 : BufTy.Contents (Elt F) arg2.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (D10 : BufTy.Contents (Elt F) arg10.view.ty)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (T13 : BufTy.Contents (Elt F) (Memref.whole cc0_scratch2 : Memref sig .tc .vmem S5000x64 .f32).view.ty)
    (hX1 : WordsOK (F := F) arg1 X1) (hX2 : WordsOK (F := F) arg2 X2) :
    Σ' (Pout : List (View.Piece (Elt F) S100000x64 .f32)), { Ptile : List (View.Piece (Elt F) S5000x64 .f32) //
      ∀ (Yo : Bf (F := F) c (Memref.whole main_v4_0 : Memref sig .tc .hbm S100000x64 .f32)) (W : Waits sig Unit),
      iprop(ptS c arg1 X1 ∗ ptS c arg2 X2 ∗ ptS c arg4 X4 ∗ ptS c arg5 X5 ∗ ptS c arg6 X6 ∗ ptS c arg7 X7 ∗ ptS c arg8 X8 ∗ ptS c arg10 D10
        ∗ ptS c (Memref.whole cc0_scratch0) X11 ∗ ptS c (Memref.whole cc0_scratch1) G12 ∗ ptS c (Memref.whole cc0_scratch2) T13
        ∗ pt c (Memref.whole main_v4_0) Yo
        ∗ semVal ((c : Thread nD τ), SemLoc.dma (11 : DmaSem sig)) 0 ∗ owes (c : Thread nD τ) 0 W)
      ⊢ wp frame (wpE (defs₀ (F := F)) Variants.none (c : Thread nD τ) none) Set.univ
          (cc0__fused_kernel (F := F) (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4)
          (fun _ => iprop(ptS c arg1 X1 ∗ ptS c arg2 X2 ∗ ptS c arg4 X4 ∗ ptS c arg5 X5 ∗ ptS c arg6 X6 ∗ ptS c arg7 X7 ∗ ptS c arg8 X8
            ∗ ptS c arg10 (gateAfter (F := F) arg8 arg10 X8 D10)
            ∗ ptS c (Memref.whole cc0_scratch0) X11
            ∗ ptS c (Memref.whole cc0_scratch1) (aggAfter (F := F) c t arg1 harg1 arg2 harg2 arg4 harg4 arg5 harg5 arg6 harg6 arg7 harg7 arg8 harg8 arg10 harg10 X1 X2 X11 hX1 hX2 G12)
            ∗ ptS c (Memref.whole cc0_scratch2) ((Memref.whole cc0_scratch2 : Memref sig .tc .vmem S5000x64 .f32).view.writes (Elt F) T13 Ptile)
            ∗ pt c (Memref.whole main_v4_0) ((Memref.whole main_v4_0 : Memref sig .tc .hbm S100000x64 .f32).view.writes (Elt F) Yo Pout)
            ∗ semVal ((c : Thread nD τ), SemLoc.dma (11 : DmaSem sig)) 0 ∗ (∃ W', owes (c : Thread nD τ) 0 W'))) } := by
  refine ⟨?_, ?_, fun Yo W => ?run⟩
  case run =>
    iintro ⟨H1, H2, H4, H5, H6, H7, H8, H10, H11, H12, H13, Hy, Hs, HO⟩
    simp only [cc0__fused_kernel_eq_skeleton]; unfold cc0__fused_kernel_skel
    sl_exec (disch := assumption)
    sl_for (inv (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12) $$ [H1 H2 H11 H12]
    · exact inv_step (F := F) c (grid0.coords t) arg1 harg1 arg2 harg2 (Memref.whole main_arg0) (Memref.isWhole_whole _) arg4 harg4 arg5 harg5 arg6 harg6 arg7 harg7 arg8 harg8 (Memref.whole main_v4_0) (Memref.isWhole_whole _) arg10 harg10 (Memref.whole cc0_scratch0) (Memref.isWhole_whole _) (Memref.whole cc0_scratch1) (Memref.isWhole_whole _) (Memref.whole cc0_scratch2) (Memref.isWhole_whole _) cc0_scratch3 cc0_scratch4 X1 X2 X11 hX1 hX2 G12
    · isplitl [H1]; · iexact H1
      isplitl [H2]; · iexact H2
      isplitl [H11]; · iexact H11
      iexists _; isplitl [H12]; · iexact H12
      ipureintro; rfl
    · iintro %acc ⟨H1, H2, H11, ⟨%f12, H12, %h12⟩⟩
      subst h12
      sl_exec (disch := assumption)
      sl_step
      sl_close

end Runs

end Cert.Proof.KernelIdeal

end
-- ==== Proof.KernelIdealData.lean ====
/-
  The proof data of the fused kernel's pipeline: what each staging buffer holds at each point, the aggregate's
  contents after each point, the result's contents at the end, and the invariant the body keeps between points.

  The two index windows and the five parameter windows are inputs the body only reads: each staging buffer holds its
  window's block. The gate's window is an output the body stores at the last point only. Between points the body's
  three scratch buffers carry the copy of x (from the first point on), the aggregate (the zero fill overwritten by
  every point's loop pieces so far) and the output tile (anything); x itself and the result array, left in place,
  are routed through the invariant: x unchanged, the result at its entry contents until the last point, at `outC`
  after it; the kernel's two transfer cells are at zero between points.
-/
import proofs.«407827_j64682207478383_2_alg».proof.Proof.KernelIdealKinds
import proofs.«407827_j64682207478383_2_alg».proof.Proof.Gen.KernelIdeal.Frame
import proofs.«407827_j64682207478383_2_alg».proof.Proof.Gen.KernelIdeal.Points
import proofs.«407827_j64682207478383_2_alg».proof.Proof.Spec
import Idealize.ShloMosaic.Lib.Pipeline.Routed

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]

local notation "𝕄" => MT nD τ sig Unit (Elt F) ℕ UC ℕ

variable (m : (ℓ : Loc nD τ sig) → Buf (Elt F) ℓ) (ρ : Dev nD → PrngReg)

/-- The kernel's own cells: the two scratch DMA semaphores (the copy-in's and the copy-out's). -/
abbrev osem : Fin 2 → SemLoc sig := fun | 0 => .dma 10 | 1 => .dma 11
/-- The two arrays left in place that the body moves itself: x (read) and the result (written). -/
abbrev RR : Finset (Ref sig .tc) := {main_arg0, main_v4_0}

/-! ## What the staging buffers hold, as raw contents -/

/-- Window w's current staging buffer at point t holds the window's block; as raw contents of the (whole) buffer. -/
abbrev X0at (c : Dev nD) (t : Fin cfg0.N) : BufTy.Contents (Elt F) (st0_0 t).view.ty := (hstage0_0 ((cfg0.slots t 0).cast nbuf0_0)).unread (iblk m c 0 t)
abbrev X1at (c : Dev nD) (t : Fin cfg0.N) : BufTy.Contents (Elt F) (st0_1 t).view.ty := (hstage0_1 ((cfg0.slots t 1).cast nbuf0_1)).unread (iblk m c 1 t)
abbrev X2at (c : Dev nD) (t : Fin cfg0.N) : BufTy.Contents (Elt F) (st0_2 t).view.ty := (hstage0_2 ((cfg0.slots t 2).cast nbuf0_2)).unread (iblk m c 2 t)
abbrev X3at (c : Dev nD) (t : Fin cfg0.N) : BufTy.Contents (Elt F) (st0_3 t).view.ty := (hstage0_3 ((cfg0.slots t 3).cast nbuf0_3)).unread (iblk m c 3 t)
abbrev X4at (c : Dev nD) (t : Fin cfg0.N) : BufTy.Contents (Elt F) (st0_4 t).view.ty := (hstage0_4 ((cfg0.slots t 4).cast nbuf0_4)).unread (iblk m c 4 t)
abbrev X5at (c : Dev nD) (t : Fin cfg0.N) : BufTy.Contents (Elt F) (st0_5 t).view.ty := (hstage0_5 ((cfg0.slots t 5).cast nbuf0_5)).unread (iblk m c 5 t)
abbrev X6at (c : Dev nD) (t : Fin cfg0.N) : BufTy.Contents (Elt F) (st0_6 t).view.ty := (hstage0_6 ((cfg0.slots t 6).cast nbuf0_6)).unread (iblk m c 6 t)

variable (hW0 : ∀ (c : Dev nD) (t : Fin cfg0.N), WordsOK (F := F) (st0_0 t) (X0at m c t))
  (hW1 : ∀ (c : Dev nD) (t : Fin cfg0.N), WordsOK (F := F) (st0_1 t) (X1at m c t))

/-! ## The aggregate after each point -/

/-- The aggregate's buffer after point k: after point 0 the zero fill overwritten by point 0's loop pieces, after a
    later point what the point before left overwritten by this point's. -/
def aggC (c : Dev nD) : (k : ℕ) → k < cfg0.N → BufTy.Contents (Elt F) (Memref.whole cc0_scratch1 : Memref sig .tc .vmem S100000x64 .f32).view.ty
  | 0, hk => aggAfter (F := F) c ⟨0, hk⟩ (st0_0 ⟨0, hk⟩) (hstage0_0 ((cfg0.slots ⟨0, hk⟩ 0).cast nbuf0_0)) (st0_1 ⟨0, hk⟩) (hstage0_1 ((cfg0.slots ⟨0, hk⟩ 1).cast nbuf0_1)) (st0_2 ⟨0, hk⟩) (hstage0_2 ((cfg0.slots ⟨0, hk⟩ 2).cast nbuf0_2)) (st0_3 ⟨0, hk⟩) (hstage0_3 ((cfg0.slots ⟨0, hk⟩ 3).cast nbuf0_3)) (st0_4 ⟨0, hk⟩) (hstage0_4 ((cfg0.slots ⟨0, hk⟩ 4).cast nbuf0_4)) (st0_5 ⟨0, hk⟩) (hstage0_5 ((cfg0.slots ⟨0, hk⟩ 5).cast nbuf0_5)) (st0_6 ⟨0, hk⟩) (hstage0_6 ((cfg0.slots ⟨0, hk⟩ 6).cast nbuf0_6)) (st0_7 ⟨0, hk⟩) (hstage0_7 ((cfg0.slots ⟨0, hk⟩ 7).cast nbuf0_7)) (X0at m c ⟨0, hk⟩) (X1at m c ⟨0, hk⟩)
      (xCopy (F := F) c (V m c main_arg0)) (hW0 c ⟨0, hk⟩) (hW1 c ⟨0, hk⟩) (aggZero (F := F))
  | k + 1, hk => aggAfter (F := F) c ⟨k + 1, hk⟩ (st0_0 ⟨k + 1, hk⟩) (hstage0_0 ((cfg0.slots ⟨k + 1, hk⟩ 0).cast nbuf0_0)) (st0_1 ⟨k + 1, hk⟩) (hstage0_1 ((cfg0.slots ⟨k + 1, hk⟩ 1).cast nbuf0_1)) (st0_2 ⟨k + 1, hk⟩) (hstage0_2 ((cfg0.slots ⟨k + 1, hk⟩ 2).cast nbuf0_2)) (st0_3 ⟨k + 1, hk⟩) (hstage0_3 ((cfg0.slots ⟨k + 1, hk⟩ 3).cast nbuf0_3)) (st0_4 ⟨k + 1, hk⟩) (hstage0_4 ((cfg0.slots ⟨k + 1, hk⟩ 4).cast nbuf0_4)) (st0_5 ⟨k + 1, hk⟩) (hstage0_5 ((cfg0.slots ⟨k + 1, hk⟩ 5).cast nbuf0_5)) (st0_6 ⟨k + 1, hk⟩) (hstage0_6 ((cfg0.slots ⟨k + 1, hk⟩ 6).cast nbuf0_6)) (st0_7 ⟨k + 1, hk⟩) (hstage0_7 ((cfg0.slots ⟨k + 1, hk⟩ 7).cast nbuf0_7)) (X0at m c ⟨k + 1, hk⟩) (X1at m c ⟨k + 1, hk⟩)
      (xCopy (F := F) c (V m c main_arg0)) (hW0 c ⟨k + 1, hk⟩) (hW1 c ⟨k + 1, hk⟩) (aggC c k (Nat.lt_of_succ_lt hk))

/-- The last point. -/
theorem N_eq : cfg0.N = 3125 := N_0

/-- The body's two branch conditions over the grid: the first point is point 0, the last is point 3124. -/
theorem isFirst_iff : ∀ t : Fin cfg0.N, IsFirst t ↔ t.val = 0 :=
  (by decide +kernel : ∀ t : Fin grid0.N, IsFirst t ↔ t.val = 0)
theorem isLast_iff : ∀ t : Fin cfg0.N, IsLast t ↔ t.val = 3124 :=
  (by decide +kernel : ∀ t : Fin grid0.N, IsLast t ↔ t.val = 3124)

theorem tlast_ex : ∃ t : Fin cfg0.N, t.val = 3124 := ⟨⟨3124, by rw [N_eq]; omega⟩, rfl⟩

/-- The last point, named by its number alone (`tlast_val`): nothing computes with it. -/
def tlast : Fin cfg0.N := Classical.choose tlast_ex

theorem tlast_val : tlast.val = 3124 := Classical.choose_spec tlast_ex

theorem tlast_not_first : ¬ IsFirst tlast := fun h => by have := (isFirst_iff tlast).mp h; rw [tlast_val] at this; omega
theorem tlast_last : IsLast tlast := (isLast_iff tlast).mpr tlast_val

/-- The result array at the end: its entry contents overwritten by the last point's twenty row blocks (taken at the
    junk contents of the gate's and the tile's buffers, of which they do not depend). -/
def outC (c : Dev nD) : Bf (F := F) c (Memref.whole main_v4_0 : Memref sig .tc .hbm S100000x64 .f32) :=
  (Memref.whole main_v4_0 : Memref sig .tc .hbm S100000x64 .f32).view.writes (Elt F) (V m c main_v4_0)
    (runLast (F := F) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) tlast_not_first tlast_last
      (X0at m c tlast) (X1at m c tlast) (X2at m c tlast) (X3at m c tlast) (X4at m c tlast) (X5at m c tlast) (X6at m c tlast)
      (st0_7 tlast).view.junk (xCopy (F := F) c (V m c main_arg0)) (aggC m hW0 hW1 c (tlast.val - 1) (by have := tlast.isLt; omega))
      (Memref.whole cc0_scratch2 : Memref sig .tc .vmem S5000x64 .f32).view.junk (hW0 c tlast) (hW1 c tlast)).1

/-- The routed buffers' exit contents as a valuation: x as launched, the result at `outC`. -/
def Yv (c : Dev nD) : (b : Ref sig .tc) → Buf (Elt F) ((c : Thread nD τ).loc b) := Function.update (V m c) main_v4_0 (outC m hW0 hW1 c)

theorem Yv_out (c : Dev nD) : Yv m hW0 hW1 c main_v4_0 = outC m hW0 hW1 c := Function.update_self ..
theorem Yv_x (c : Dev nD) : Yv m hW0 hW1 c main_arg0 = V m c main_arg0 := Function.update_of_ne (by decide) ..

/-! ## The proof data -/

/-- The gate's block: the one cell stored with the logistic of the staged parameter. -/
abbrev gateV (a : Vec F S1 .f32) : Vec F S1 .f32 :=
  View.canon [⟨Rect.unit (s := S1) ![0] S1.size inb_S1_S1_0, k0_pay13 (View.ld a (Rect.unit (s := S1) ![0] S1.size inb_S1_S1_0))⟩]

/-- Between points (after point k, before point k + 1): x and the result as launched, the copy of x, the aggregate
    at what the points so far left, the tile buffer at anything, both cells at zero, the generator register. -/
def Φmid (c : Dev nD) (k : ℕ) (hk : k < cfg0.N) : sProp 𝕄 :=
  iprop(pt c (Memref.whole main_arg0) (V m c main_arg0) ∗ pt c (Memref.whole main_v4_0) (V m c main_v4_0)
    ∗ ptS c (Memref.whole cc0_scratch0) (xCopy (F := F) c (V m c main_arg0))
    ∗ ptS c (Memref.whole cc0_scratch1) (aggC m hW0 hW1 c k hk)
    ∗ (∃ f, ptS c (Memref.whole cc0_scratch2 : Memref sig .tc .vmem S5000x64 .f32) f)
    ∗ semVal ((c : Thread nD τ), SemLoc.dma (10 : DmaSem sig)) 0 ∗ semVal ((c : Thread nD τ), SemLoc.dma (11 : DmaSem sig)) 0
    ∗ ∃ r, prngReg c r)

/-- The invariant before point k (k = 0 … 3125). -/
def Φv (c : Dev nD) (k : Fin (cfg0.N + 1)) : sProp 𝕄 :=
  if h0 : k.val = 0 then Ends spec0 osem RR c (V m c)
  else if hN : k.val = cfg0.N then Ends spec0 osem RR c (Yv m hW0 hW1 c)
  else Φmid m hW0 hW1 c (k.val - 1) (by have := k.isLt; omega)

def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => gateV (F := F) (iblk m c 6 t)
  Φ k := Φv m hW0 hW1 c k
  q _ := fullShare
  owed _ := 0

end Cert.Proof.KernelIdeal

end
-- ==== Proof.KernelIdealOutIndep.lean ====
/-
  The last grid point's result pieces do not depend on what the tile buffer held before the point.

  At the last point each of the twenty tiles is stored WHOLE into the tile buffer and then copied out into its rows of
  the result by a transfer of its own. What a transfer reads off the tile buffer is therefore the payload of the
  store just before it, whatever the buffer held at entry and whatever the earlier tiles left there: a list of writes
  whose last one covers the whole buffer reads back as that write's payload.
-/
import proofs.«407827_j64682207478383_2_alg».proof.Proof.KernelIdealKinds

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Every index of the tile lies in the tile's whole rectangle. -/
theorem mem_tile_whole (y : S5000x64.Idx) :
    y ∈ (Rect.unit (s := S5000x64) ![0, 0] S5000x64.size inb_S5000x64_S5000x64_0_0).set := by
  refine Rect.mem_set_unit.mpr fun a => ?_
  match a with
  | ⟨0, _⟩ => exact ⟨Nat.zero_le _, by show (y 0).val < 0 + 5000; have h0 : (y 0).val < 5000 := (y 0).isLt; omega⟩
  | ⟨1, _⟩ => exact ⟨Nat.zero_le _, by show (y 1).val < 0 + 64; have h1 : (y 1).val < 64 := (y 1).isLt; omega⟩

/-- What is read off the tile buffer after a list of stores whose last one stores the whole tile does not depend on
    what the buffer held before. -/
theorem tile_read_indep (T T' : BufTy.Contents (Elt F) (Memref.whole cc0_scratch2 : Memref sig .tc .vmem S5000x64 .f32).view.ty)
    (L : List (View.Piece (Elt F) S5000x64 .f32))
    (w : (Rect.unit (s := S5000x64) ![0, 0] S5000x64.size inb_S5000x64_S5000x64_0_0).shape.Idx → Elt F .f32)
    (L' : List (View.Piece (Elt F) S5000x64 .f32))
    (hL : L = ⟨Rect.unit (s := S5000x64) ![0, 0] S5000x64.size inb_S5000x64_S5000x64_0_0, w⟩ :: L') :
    (Memref.whole cc0_scratch2 : Memref sig .tc .vmem S5000x64 .f32).view.read (Elt F)
        ((Memref.whole cc0_scratch2 : Memref sig .tc .vmem S5000x64 .f32).view.writes (Elt F) T L)
      = (Memref.whole cc0_scratch2 : Memref sig .tc .vmem S5000x64 .f32).view.read (Elt F)
        ((Memref.whole cc0_scratch2 : Memref sig .tc .vmem S5000x64 .f32).view.writes (Elt F) T' L) := by
  subst hL
  exact View.read_writes_of_cover_last _ T _ T' _ L' L' mem_tile_whole

section
variable (c : Dev nD) (t : Fin cfg0.N) (arg1 : Memref sig .tc .smem S512 .i32) (harg1 : arg1.IsWhole) (arg2 : Memref sig .tc .smem S512 .i32) (harg2 : arg2.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg10 : Memref sig .tc .vmem S1 .f32) (harg10 : arg10.IsWhole)

set_option hygiene false in
/-- One piece: the transfer's payload, opened, is a read of the tile buffer after a store of the whole tile. -/
local macro "indep_step " n:ident : tactic =>
  `(tactic| rw [show $n c t arg1 harg1 arg2 harg2 arg4 harg4 arg5 harg5 arg6 harg6 arg7 harg7 arg8 harg8 arg10 harg10 X1 X2 X4 X5 X6 X7 X8 X11 G12 T13 hX1 hX2 = $n c t arg1 harg1 arg2 harg2 arg4 harg4 arg5 harg5 arg6 harg6 arg7 harg7 arg8 harg8 arg10 harg10 X1 X2 X4 X5 X6 X7 X8 X11 G12 T13' hX1 hX2 from by
      delta $n; exact congrArg _ (tile_read_indep T13 T13' _ _ _ rfl)])

/-- THE RESULT'S PIECES DO NOT DEPEND ON THE TILE BUFFER'S ENTRY CONTENTS: each piece's payload is what the transfer
    read off the tile buffer right after a store of the whole tile. -/
theorem runLast_out_indep (hF : ¬ IsFirst t) (hL : IsLast t)
    (X1 : BufTy.Contents (Elt F) arg1.view.ty) (X2 : BufTy.Contents (Elt F) arg2.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (D10 : BufTy.Contents (Elt F) arg10.view.ty)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (T13 T13' : BufTy.Contents (Elt F) (Memref.whole cc0_scratch2 : Memref sig .tc .vmem S5000x64 .f32).view.ty)
    (hX1 : WordsOK (F := F) arg1 X1) (hX2 : WordsOK (F := F) arg2 X2) :
    (runLast (F := F) c t arg1 harg1 arg2 harg2 arg4 harg4 arg5 harg5 arg6 harg6 arg7 harg7 arg8 harg8 arg10 harg10 hF hL X1 X2 X4 X5 X6 X7 X8 D10 X11 G12 T13 hX1 hX2).1
      = (runLast (F := F) c t arg1 harg1 arg2 harg2 arg4 harg4 arg5 harg5 arg6 harg6 arg7 harg7 arg8 harg8 arg10 harg10 hF hL X1 X2 X4 X5 X6 X7 X8 D10 X11 G12 T13' hX1 hX2).1 := by
  unfold runLast
  dsimp only
  indep_step runLast.sl.dma163
  indep_step runLast.sl.dma155
  indep_step runLast.sl.dma147
  indep_step runLast.sl.dma139
  indep_step runLast.sl.dma131
  indep_step runLast.sl.dma123
  indep_step runLast.sl.dma115
  indep_step runLast.sl.dma107
  indep_step runLast.sl.dma99
  indep_step runLast.sl.dma91
  indep_step runLast.sl.dma83
  indep_step runLast.sl.dma75
  indep_step runLast.sl.dma67
  indep_step runLast.sl.dma59
  indep_step runLast.sl.dma51
  indep_step runLast.sl.dma43
  indep_step runLast.sl.dma35
  indep_step runLast.sl.dma27
  indep_step runLast.sl.dma19
  indep_step runLast.sl.dma11

/-- Nor do they depend on what the gate's staging buffer held at entry: those contents occur in no payload. -/
theorem runLast_out_indep2 (hF : ¬ IsFirst t) (hL : IsLast t)
    (X1 : BufTy.Contents (Elt F) arg1.view.ty) (X2 : BufTy.Contents (Elt F) arg2.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (D10 D10' : BufTy.Contents (Elt F) arg10.view.ty)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (T13 T13' : BufTy.Contents (Elt F) (Memref.whole cc0_scratch2 : Memref sig .tc .vmem S5000x64 .f32).view.ty)
    (hX1 : WordsOK (F := F) arg1 X1) (hX2 : WordsOK (F := F) arg2 X2) :
    (runLast (F := F) c t arg1 harg1 arg2 harg2 arg4 harg4 arg5 harg5 arg6 harg6 arg7 harg7 arg8 harg8 arg10 harg10 hF hL X1 X2 X4 X5 X6 X7 X8 D10 X11 G12 T13 hX1 hX2).1
      = (runLast (F := F) c t arg1 harg1 arg2 harg2 arg4 harg4 arg5 harg5 arg6 harg6 arg7 harg7 arg8 harg8 arg10 harg10 hF hL X1 X2 X4 X5 X6 X7 X8 D10' X11 G12 T13' hX1 hX2).1 := by
  unfold runLast
  dsimp only
  indep_step runLast.sl.dma163
  indep_step runLast.sl.dma155
  indep_step runLast.sl.dma147
  indep_step runLast.sl.dma139
  indep_step runLast.sl.dma131
  indep_step runLast.sl.dma123
  indep_step runLast.sl.dma115
  indep_step runLast.sl.dma107
  indep_step runLast.sl.dma99
  indep_step runLast.sl.dma91
  indep_step runLast.sl.dma83
  indep_step runLast.sl.dma75
  indep_step runLast.sl.dma67
  indep_step runLast.sl.dma59
  indep_step runLast.sl.dma51
  indep_step runLast.sl.dma43
  indep_step runLast.sl.dma35
  indep_step runLast.sl.dma27
  indep_step runLast.sl.dma19
  indep_step runLast.sl.dma11
end

end Cert.Proof.KernelIdeal

end
-- ==== Proof.KernelIdealObligation.lean ====
/-
  The body obligation of the fused kernel's pipeline: at every grid point the body, from the invariant before the
  point and every window's staging buffer at what it then holds, runs to the invariant after the point and every
  staging buffer at what the body leaves. By the point's kind: at the first point the invariant's entry form (x and
  the result as launched, the scratch buffers at anything, both cells at zero) becomes the between-points form with
  the copy of x and the aggregate after the first block of edges; at a middle point the aggregate moves on by the
  point's block; at the last point the between-points form becomes the exit form with the result at its final
  contents, and the gate's staging buffer holds the gate's block.
-/
import proofs.«407827_j64682207478383_2_alg».proof.Proof.KernelIdealData
import proofs.«407827_j64682207478383_2_alg».proof.Proof.KernelIdealOutIndep
import Idealize.ShloMosaic.Lib.Pipeline.FrameBody

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]

local notation "𝕄" => MT nD τ sig Unit (Elt F) ℕ UC ℕ

variable (m : (ℓ : Loc nD τ sig) → Buf (Elt F) ℓ) (ρ : Dev nD → PrngReg)
variable (hW0 : ∀ (c : Dev nD) (t : Fin cfg0.N), WordsOK (F := F) (st0_0 t) (X0at m c t))
  (hW1 : ∀ (c : Dev nD) (t : Fin cfg0.N), WordsOK (F := F) (st0_1 t) (X1at m c t))

/-! ## Holding a buffer: the forms the pieces are stated in -/

/-- A whole memref owned at what it reads is held, by its own elements, at the contents that read so. -/
theorem owns_eq_ptS (c : Dev nD) {sp : Space} {S : Shape} {e : EltTy} (M : Memref sig .tc sp S e) (h : M.IsWhole) (X : S.Idx → Elt F e) :
    (owns (c : Thread nD τ) M fullShare X : sProp 𝕄) = ptS c M (h.unread X) := by
  have h₁ : (owns (c : Thread nD τ) M fullShare X : sProp 𝕄) ⊢ ptS c M (h.unread X) := by
    unfold owns; iintro ⟨%f, %hf, H⟩; obtain rfl := h.eq_unread hf; iexact H
  have h₂ : (ptS c M (h.unread X) : sProp 𝕄) ⊢ owns (c : Thread nD τ) M fullShare X := by
    iintro H; unfold owns; iexists _; isplitr
    · ipureintro; exact h.read_unread X
    · iexact H
  exact BI.equiv_iff.mp ⟨h₁, h₂⟩

/-- A whole buffer held by its memref's own elements is held whole. -/
theorem ptS_whole (c : Dev nD) (b : Ref sig .tc) (f : Buf (Elt F) ((c : Thread nD τ).loc b)) :
    (ptS c (Memref.whole b) f : sProp 𝕄) = (((c : Thread nD τ).loc b) ↦{fullShare} f) := by
  unfold ptS; rw [(Memref.isWhole_whole b).set_eq_univ]

omit [FloatOps F] in
theorem ownSems0_eq (c : Dev nD) :
    (Pipeline.ownSems0 (Ix := Unit) (Name := ℕ) (U := UC) (Lvl := ℕ) (Val := Elt F) (τ := τ) osem c : sProp 𝕄)
      = iprop(semVal ((c : Thread nD τ), SemLoc.dma (10 : DmaSem sig)) 0 ∗ semVal ((c : Thread nD τ), SemLoc.dma (11 : DmaSem sig)) 0) :=
  Pipeline.ownSems0_eq_of_list c osem [0, 1] (by decide) (by decide)

omit [FloatOps F] in
theorem routed_eq (c : Dev nD) (W : (b : Ref sig .tc) → Buf (Elt F) ((c : Thread nD τ).loc b)) :
    (Pipeline.routed RR c W : sProp 𝕄)
      = iprop((((c : Thread nD τ).loc main_arg0) ↦{fullShare} W main_arg0) ∗ (((c : Thread nD τ).loc main_v4_0) ↦{fullShare} W main_v4_0)) := by
  unfold Pipeline.routed RR
  rw [bigSep_insert (by decide), bigSep_singleton]
  rfl

/-- The invariant's two ends at this program's lists: x and the result, the two cells, the three scratch buffers, the register. -/
theorem ends_eq (c : Dev nD) (W : (b : Ref sig .tc) → Buf (Elt F) ((c : Thread nD τ).loc b)) :
    (Ends spec0 osem RR c W : sProp 𝕄)
      = iprop(((((c : Thread nD τ).loc main_arg0) ↦{fullShare} W main_arg0) ∗ (((c : Thread nD τ).loc main_v4_0) ↦{fullShare} W main_v4_0))
          ∗ (semVal ((c : Thread nD τ), SemLoc.dma (10 : DmaSem sig)) 0 ∗ semVal ((c : Thread nD τ), SemLoc.dma (11 : DmaSem sig)) 0)
          ∗ ((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f))
          ∗ ∃ r, prngReg c r) := by
  unfold Ends; rw [routed_eq, ownSems0_eq, scopedRest0_eq]

/-! ## What the body finds in each staging buffer, and leaves -/

theorem after_0 (c : Dev nD) (t : Fin cfg0.N) : (dats m hW0 hW1 0 c).after 0 t = iblk m c 0 t := by dsimp only [dats]
theorem after_1 (c : Dev nD) (t : Fin cfg0.N) : (dats m hW0 hW1 0 c).after 1 t = iblk m c 1 t := by dsimp only [dats]
theorem after_2 (c : Dev nD) (t : Fin cfg0.N) : (dats m hW0 hW1 0 c).after 2 t = iblk m c 2 t := by dsimp only [dats]
theorem after_3 (c : Dev nD) (t : Fin cfg0.N) : (dats m hW0 hW1 0 c).after 3 t = iblk m c 3 t := by dsimp only [dats]
theorem after_4 (c : Dev nD) (t : Fin cfg0.N) : (dats m hW0 hW1 0 c).after 4 t = iblk m c 4 t := by dsimp only [dats]
theorem after_5 (c : Dev nD) (t : Fin cfg0.N) : (dats m hW0 hW1 0 c).after 5 t = iblk m c 5 t := by dsimp only [dats]
theorem after_6 (c : Dev nD) (t : Fin cfg0.N) : (dats m hW0 hW1 0 c).after 6 t = iblk m c 6 t := by dsimp only [dats]
theorem after_7 (c : Dev nD) (t : Fin cfg0.N) : (dats m hW0 hW1 0 c).after 7 t = gateV (F := F) (iblk m c 6 t) := by dsimp only [dats]

/-- The two index windows are fetched at every point; the five parameter windows at the first only, and the body leaves
    their blocks in place: every input's staging buffer holds its block when the body runs. -/
theorem before_0 (c : Dev nD) (t : Fin cfg0.N) (d) : (dats m hW0 hW1 0 c).before 0 t d = iblk m c 0 t := by
  rw [(dats m hW0 hW1 0 c).before_fetched 0 t (fetch0_0 t)]; unfold Dat.fetched Dat.blockOf; dsimp only [dats]; rfl
theorem before_1 (c : Dev nD) (t : Fin cfg0.N) (d) : (dats m hW0 hW1 0 c).before 1 t d = iblk m c 1 t := by
  rw [(dats m hW0 hW1 0 c).before_fetched 1 t (fetch0_1 t)]; unfold Dat.fetched Dat.blockOf; dsimp only [dats]; rfl
theorem before_2 (c : Dev nD) (t : Fin cfg0.N) (d) : (dats m hW0 hW1 0 c).before 2 t d = iblk m c 2 t :=
  ((dats m hW0 hW1 0 c).before_in_eq_fetched 2 rfl (fun _ => rfl) (fun _ _ _ => rfl)
    (fun t => by rw [after_2]; unfold Dat.blockOf iblk; dsimp only [dats]; try rfl) t d).trans
    (by unfold Dat.fetched Dat.blockOf iblk; dsimp only [dats]; try rfl)
theorem before_3 (c : Dev nD) (t : Fin cfg0.N) (d) : (dats m hW0 hW1 0 c).before 3 t d = iblk m c 3 t :=
  ((dats m hW0 hW1 0 c).before_in_eq_fetched 3 rfl (fun _ => rfl) (fun _ _ _ => rfl)
    (fun t => by rw [after_3]; unfold Dat.blockOf iblk; dsimp only [dats]; try rfl) t d).trans
    (by unfold Dat.fetched Dat.blockOf iblk; dsimp only [dats]; try rfl)
theorem before_4 (c : Dev nD) (t : Fin cfg0.N) (d) : (dats m hW0 hW1 0 c).before 4 t d = iblk m c 4 t :=
  ((dats m hW0 hW1 0 c).before_in_eq_fetched 4 rfl (fun _ => rfl) (fun _ _ _ => rfl)
    (fun t => by rw [after_4]; unfold Dat.blockOf iblk; dsimp only [dats]; try rfl) t d).trans
    (by unfold Dat.fetched Dat.blockOf iblk; dsimp only [dats]; try rfl)
theorem before_5 (c : Dev nD) (t : Fin cfg0.N) (d) : (dats m hW0 hW1 0 c).before 5 t d = iblk m c 5 t :=
  ((dats m hW0 hW1 0 c).before_in_eq_fetched 5 rfl (fun _ => rfl) (fun _ _ _ => rfl)
    (fun t => by rw [after_5]; unfold Dat.blockOf iblk; dsimp only [dats]; try rfl) t d).trans
    (by unfold Dat.fetched Dat.blockOf iblk; dsimp only [dats]; try rfl)
theorem before_6 (c : Dev nD) (t : Fin cfg0.N) (d) : (dats m hW0 hW1 0 c).before 6 t d = iblk m c 6 t :=
  ((dats m hW0 hW1 0 c).before_in_eq_fetched 6 rfl (fun _ => rfl) (fun _ _ _ => rfl)
    (fun t => by rw [after_6]; unfold Dat.blockOf iblk; dsimp only [dats]; try rfl) t d).trans
    (by unfold Dat.fetched Dat.blockOf iblk; dsimp only [dats]; try rfl)

/-! ## The gate's window: idle until the last point, written back there -/

theorem idle7_of_last (t : Fin cfg0.N) (h : IsLast t) : idle0 7 (grid0.coords t) = false := by
  show (!(k0_cond2 (grid0.coords t) == 1#1)) = false; rw [show (k0_cond2 (grid0.coords t) == 1#1) = true from beq_iff_eq.mpr h]; rfl
theorem idle7_of_not_last (t : Fin cfg0.N) (h : ¬ IsLast t) : idle0 7 (grid0.coords t) = true := by
  show (!(k0_cond2 (grid0.coords t) == 1#1)) = true; rw [show (k0_cond2 (grid0.coords t) == 1#1) = false from beq_eq_false_iff_ne.mpr h]; rfl
theorem idle_0 (t : Fin cfg0.N) : idle0 0 (grid0.coords t) = false := rfl
theorem idle_1 (t : Fin cfg0.N) : idle0 1 (grid0.coords t) = false := rfl
theorem idle_2 (t : Fin cfg0.N) : idle0 2 (grid0.coords t) = false := rfl
theorem idle_3 (t : Fin cfg0.N) : idle0 3 (grid0.coords t) = false := rfl
theorem idle_4 (t : Fin cfg0.N) : idle0 4 (grid0.coords t) = false := rfl
theorem idle_5 (t : Fin cfg0.N) : idle0 5 (grid0.coords t) = false := rfl
theorem idle_6 (t : Fin cfg0.N) : idle0 6 (grid0.coords t) = false := rfl
theorem flush7_of_not_last (t : Fin cfg0.N) (h : ¬ IsLast t) : (cfg0.win 7).flush t = false :=
  Bool.eq_false_iff.mpr fun hf => h ((isLast_iff t).mpr (by
    have h1 := (flush0_7 t).mp hf; have h2 : t.val < 3125 := Nat.lt_of_lt_of_eq t.isLt N_eq; omega))

/-! ## The invariant at each kind of point -/

theorem Φ_pre_first (c : Dev nD) (hk : 0 < cfg0.N) : (dats m hW0 hW1 0 c).Φ (⟨0, hk⟩ : Fin cfg0.N).castSucc = Ends spec0 osem RR c (V m c) := by
  dsimp only [dats]; unfold Φv; exact dif_pos rfl
theorem Φ_pre_later (c : Dev nD) (k : ℕ) (hk : k + 1 < cfg0.N) :
    (dats m hW0 hW1 0 c).Φ (⟨k + 1, hk⟩ : Fin cfg0.N).castSucc = Φmid m hW0 hW1 c k (Nat.lt_of_succ_lt hk) := by
  dsimp only [dats]; unfold Φv; exact (dif_neg (Nat.succ_ne_zero k)).trans (dif_neg (Nat.ne_of_lt hk))
theorem Φ_post_later (c : Dev nD) (k : ℕ) (hk : k < cfg0.N) (hne : k + 1 ≠ cfg0.N) :
    (dats m hW0 hW1 0 c).Φ (⟨k, hk⟩ : Fin cfg0.N).succ = Φmid m hW0 hW1 c k hk := by
  dsimp only [dats]; unfold Φv; exact (dif_neg (Nat.succ_ne_zero k)).trans (dif_neg hne)
theorem Φ_post_last (c : Dev nD) (k : ℕ) (hk : k < cfg0.N) (he : k + 1 = cfg0.N) :
    (dats m hW0 hW1 0 c).Φ (⟨k, hk⟩ : Fin cfg0.N).succ = Ends spec0 osem RR c (Yv m hW0 hW1 c) := by
  dsimp only [dats]; unfold Φv; exact (dif_neg (Nat.succ_ne_zero k)).trans (dif_pos he)

/-- The core's `owes` as the post wants it, from what a run hands back. -/
theorem owesAt_intro (c : Dev nD) (t : Fin (cfg0.N + 1)) (W' : Waits sig Unit) :
    owes (c : Thread nD τ) 0 W' ⊢ ((dats m hW0 hW1 0 c).owesAt () t : sProp 𝕄) := by
  unfold Dat.owesAt Pipeline.owesWithin
  rw [show (dats m hW0 hW1 0 c).owed t = 0 from rfl]
  iintro HO; iexists W'; isplitr; · ipureintro; exact fun _ _ => Or.inl trivial
  iexact HO

abbrev 𝒱₀ : Variants := Variants.none

/-- The invariant around the last point. -/
theorem Φ_pre_tlast (c : Dev nD) :
    (dats m hW0 hW1 0 c).Φ tlast.castSucc = Φmid m hW0 hW1 c (tlast.val - 1) (by have := tlast.isLt; omega) := by
  dsimp only [dats]; unfold Φv
  exact (dif_neg (show ¬ tlast.val = 0 by rw [tlast_val]; omega)).trans (dif_neg (show ¬ tlast.val = cfg0.N by rw [tlast_val, N_eq]; omega))
theorem Φ_post_tlast (c : Dev nD) : (dats m hW0 hW1 0 c).Φ tlast.succ = Ends spec0 osem RR c (Yv m hW0 hW1 c) := by
  dsimp only [dats]; unfold Φv
  exact (dif_neg (Nat.succ_ne_zero _)).trans (dif_pos (show tlast.val + 1 = cfg0.N by rw [tlast_val, N_eq]))

/-- A whole memref's owned contents as raw contents, and back. -/
theorem owns_ptS (c : Dev nD) {sp : Space} {S : Shape} {e : EltTy} (M : Memref sig .tc sp S e) (h : M.IsWhole) (X : S.Idx → Elt F e) :
    (owns (c : Thread nD τ) M fullShare X : sProp 𝕄) ⊢ ptS c M (h.unread X) := by rw [owns_eq_ptS c M h X]

omit [FloatOps F] in
theorem coverS1 (p : (Rect.unit (s := S1) ![0] S1.size inb_S1_S1_0).shape.Idx → Elt F .f32) (y : S1.Idx) :
    ∃ pc ∈ ([⟨Rect.unit (s := S1) ![0] S1.size inb_S1_S1_0, p⟩] : List (View.Piece (Elt F) S1 .f32)), y ∈ pc.1.set :=
  View.cover_of_tiled [⟨Rect.unit (s := S1) ![0] S1.size inb_S1_S1_0, p⟩] S1.size (by rfl) y

/-- The gate's staging buffer after the last point reads as the gate's block. -/
theorem gate_block (c : Dev nD) (t : Fin cfg0.N) (D : BufTy.Contents (Elt F) (st0_7 t).view.ty) :
    (st0_7 t).view.read (Elt F) (gateAfter (F := F) (st0_6 t) (st0_7 t) (X6at m c t) D) = gateV (F := F) (iblk m c 6 t) := by
  have e6 := (hstage0_6 ((cfg0.slots t 6).cast nbuf0_6)).read_unread (iblk m c 6 t)
  conv_rhs => rw [← e6]
  exact View.read_writes_eq_canon _ _ _ (coverS1 _)

set_option maxHeartbeats 16000000 in
/-- THE BODY OBLIGATION: at every point, by the point's kind, the run of that kind between the invariant's two forms. -/
theorem body_obligation (c : Dev nD) : BodyObligation (dats (F := F) m hW0 hW1 0 c) (defs₀ (F := F)) 𝒱₀ () Set.univ := fun t => by
  rw [bigSep_W0, bigSep_W0]
  unfold Dat.owesAt Pipeline.owesWithin
  rw [show (dats m hW0 hW1 0 c).owed t.castSucc = 0 from rfl]
  by_cases hL : IsLast t
  · -- the last point
    have ht : t = tlast := Fin.ext (((isLast_iff t).mp hL).trans tlast_val.symm)
    subst ht
    simp only [idle_0, idle_1, idle_2, idle_3, idle_4, idle_5, idle_6, idle7_of_last tlast hL,
      before_0, before_1, before_2, before_3, before_4, before_5, before_6, after_0, after_1, after_2, after_3, after_4, after_5, after_6, after_7]
    rw [Φ_pre_tlast, Φ_post_tlast, ends_eq, Yv_x, Yv_out,
      owns_eq_ptS (F := F) c (st0_0 tlast) (hstage0_0 ((cfg0.slots tlast 0).cast nbuf0_0)),
      owns_eq_ptS (F := F) c (st0_1 tlast) (hstage0_1 ((cfg0.slots tlast 1).cast nbuf0_1)),
      owns_eq_ptS (F := F) c (st0_2 tlast) (hstage0_2 ((cfg0.slots tlast 2).cast nbuf0_2)),
      owns_eq_ptS (F := F) c (st0_3 tlast) (hstage0_3 ((cfg0.slots tlast 3).cast nbuf0_3)),
      owns_eq_ptS (F := F) c (st0_4 tlast) (hstage0_4 ((cfg0.slots tlast 4).cast nbuf0_4)),
      owns_eq_ptS (F := F) c (st0_5 tlast) (hstage0_5 ((cfg0.slots tlast 5).cast nbuf0_5)),
      owns_eq_ptS (F := F) c (st0_6 tlast) (hstage0_6 ((cfg0.slots tlast 6).cast nbuf0_6))]
    unfold Φmid
    iintro ⟨⟨Hx, Hy, H11, H12, ⟨%T13, H13⟩, Hs10, Hs11, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    ihave H7 := (owns_ptS (F := F) c (st0_7 tlast) (hstage0_7 ((cfg0.slots tlast 7).cast nbuf0_7)) _) $$ H7
    iapply (wp_wand_r Idealize.ShloMosaic.frame (wpE (defs₀ (F := F)) Variants.none (c : Thread nD τ) none) Set.univ)
    isplitl [H0 H1 H2 H3 H4 H5 H6 H7 H11 H12 H13 Hy Hs11 HO]
    · iapply ((runLast (F := F) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) tlast_not_first tlast_last
          (X0at m c tlast) (X1at m c tlast) (X2at m c tlast) (X3at m c tlast) (X4at m c tlast) (X5at m c tlast) (X6at m c tlast)
          _ (xCopy (F := F) c (V m c main_arg0)) (aggC m hW0 hW1 c (tlast.val - 1) (by have := tlast.isLt; omega)) T13
          (hW0 c tlast) (hW1 c tlast)).2.2 (V m c main_v4_0) Wt)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H11]; · iexact H11
      isplitl [H12]; · iexact H12
      isplitl [H13]; · iexact H13
      isplitl [Hy]; · iexact Hy
      isplitl [Hs11]; · iexact Hs11
      iexact HO
    · iintro %_ ⟨H0, H1, H2, H3, H4, H5, H6, H7, H11, H12, H13, Hy, Hs11, ⟨%W', HO⟩⟩
      isplitl [Hx Hy Hs10 Hs11 H11 H12 H13 Hp]
      · isplitl [Hx Hy]
        · isplitl [Hx]; · iexact Hx
          unfold outC
          rw [runLast_out_indep2 (F := F) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) tlast_not_first tlast_last
            (X0at m c tlast) (X1at m c tlast) (X2at m c tlast) (X3at m c tlast) (X4at m c tlast) (X5at m c tlast) (X6at m c tlast)
            (st0_7 tlast).view.junk ((hstage0_7 ((cfg0.slots tlast 7).cast nbuf0_7)).unread ((dats m hW0 hW1 0 c).before 7 tlast d7))
            (xCopy (F := F) c (V m c main_arg0)) (aggC m hW0 hW1 c (tlast.val - 1) (by have := tlast.isLt; omega))
            (Memref.whole cc0_scratch2 : Memref sig .tc .vmem S5000x64 .f32).view.junk T13 (hW0 c tlast) (hW1 c tlast)]
          iexact Hy
        isplitl [Hs10 Hs11]
        · isplitl [Hs10]; · iexact Hs10
          iexact Hs11
        isplitl [H11 H12 H13]
        · isplitl [H11]; · iexists _; rw [← ptS_whole (F := F) c cc0_scratch0]; iexact H11
          isplitl [H12]; · iexists _; rw [← ptS_whole (F := F) c cc0_scratch1]; iexact H12
          iexists _; rw [← ptS_whole (F := F) c cc0_scratch2]; iexact H13
        iexact Hp
      isplitl [HO]; · iapply (owesAt_intro m hW0 hW1 c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr; swap; (· iexact H7)
      ipureintro; exact gate_block (F := F) m c tlast _
  · simp only [idle_0, idle_1, idle_2, idle_3, idle_4, idle_5, idle_6, idle7_of_not_last t hL, flush7_of_not_last t hL,
      before_0, before_1, before_2, before_3, before_4, before_5, before_6, after_0, after_1, after_2, after_3, after_4, after_5, after_6]
    by_cases hF : IsFirst t
    · -- the first point
      obtain ⟨k, hk⟩ := t
      have hk0 : k = 0 := (isFirst_iff ⟨k, hk⟩).mp hF
      subst hk0
      rw [Φ_pre_first m hW0 hW1 c hk, Φ_post_later m hW0 hW1 c 0 hk (by rw [N_eq]; omega), ends_eq,
        owns_eq_ptS (F := F) c (st0_0 ⟨0, hk⟩) (hstage0_0 ((cfg0.slots ⟨0, hk⟩ 0).cast nbuf0_0)),
        owns_eq_ptS (F := F) c (st0_1 ⟨0, hk⟩) (hstage0_1 ((cfg0.slots ⟨0, hk⟩ 1).cast nbuf0_1))]
      unfold Φmid
      iintro ⟨⟨⟨Hx, Hy⟩, ⟨Hs10, Hs11⟩, ⟨⟨%f0, H11⟩, ⟨%f1, H12⟩, Htile⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      iapply (run_first (F := F) c ⟨0, hk⟩ (st0_0 ⟨0, hk⟩) (hstage0_0 ((cfg0.slots ⟨0, hk⟩ 0).cast nbuf0_0)) (st0_1 ⟨0, hk⟩) (hstage0_1 ((cfg0.slots ⟨0, hk⟩ 1).cast nbuf0_1)) (st0_2 ⟨0, hk⟩) (hstage0_2 ((cfg0.slots ⟨0, hk⟩ 2).cast nbuf0_2)) (st0_3 ⟨0, hk⟩) (hstage0_3 ((cfg0.slots ⟨0, hk⟩ 3).cast nbuf0_3)) (st0_4 ⟨0, hk⟩) (hstage0_4 ((cfg0.slots ⟨0, hk⟩ 4).cast nbuf0_4)) (st0_5 ⟨0, hk⟩) (hstage0_5 ((cfg0.slots ⟨0, hk⟩ 5).cast nbuf0_5)) (st0_6 ⟨0, hk⟩) (hstage0_6 ((cfg0.slots ⟨0, hk⟩ 6).cast nbuf0_6)) (st0_7 ⟨0, hk⟩) (hstage0_7 ((cfg0.slots ⟨0, hk⟩ 7).cast nbuf0_7)) hF hL (X0at m c ⟨0, hk⟩) (X1at m c ⟨0, hk⟩) (V m c main_arg0) f0 f1 (hW0 c ⟨0, hk⟩) (hW1 c ⟨0, hk⟩) Wt _)
      isplitl [H0]; · iexact H0
      isplitl [H1]; · iexact H1
      isplitl [Hx]; · iexact Hx
      isplitl [H11]; · rw [ptS_whole]; iexact H11
      isplitl [H12]; · rw [ptS_whole]; iexact H12
      isplitl [Hs10]; · iexact Hs10
      isplitl [HO]; · iexact HO
      iintro ⟨H0, H1, Hx, H11, H12, Hs10, ⟨%W', HO⟩⟩
      isplitl [Hx Hy H11 H12 Htile Hs10 Hs11 Hp]
      · isplitl [Hx]; · iexact Hx
        isplitl [Hy]; · iexact Hy
        isplitl [H11]; · iexact H11
        isplitl [H12]; · iexact H12
        isplitl [Htile]; · icases Htile with ⟨%f2, Htile⟩; iexists f2; rw [ptS_whole]; iexact Htile
        isplitl [Hs10]; · iexact Hs10
        isplitl [Hs11]; · iexact Hs11
        iexact Hp
      isplitl [HO]; · iapply (owesAt_intro m hW0 hW1 c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point
      obtain ⟨k, hk⟩ := t
      cases k with
      | zero => exact absurd ((isFirst_iff ⟨0, hk⟩).mpr rfl) hF
      | succ k =>
        have hne : k + 1 + 1 ≠ cfg0.N := fun h => hL ((isLast_iff ⟨k + 1, hk⟩).mpr (by show k + 1 = 3124; rw [N_eq] at h; omega))
        rw [Φ_pre_later m hW0 hW1 c k hk, Φ_post_later m hW0 hW1 c (k + 1) hk hne,
          owns_eq_ptS (F := F) c (st0_0 ⟨k + 1, hk⟩) (hstage0_0 ((cfg0.slots ⟨k + 1, hk⟩ 0).cast nbuf0_0)),
          owns_eq_ptS (F := F) c (st0_1 ⟨k + 1, hk⟩) (hstage0_1 ((cfg0.slots ⟨k + 1, hk⟩ 1).cast nbuf0_1))]
        unfold Φmid
        iintro ⟨⟨Hx, Hy, H11, H12, Htile, Hs10, Hs11, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, H7⟩
        iapply (run_mid (F := F) c ⟨k + 1, hk⟩ (st0_0 ⟨k + 1, hk⟩) (hstage0_0 ((cfg0.slots ⟨k + 1, hk⟩ 0).cast nbuf0_0)) (st0_1 ⟨k + 1, hk⟩) (hstage0_1 ((cfg0.slots ⟨k + 1, hk⟩ 1).cast nbuf0_1)) (st0_2 ⟨k + 1, hk⟩) (hstage0_2 ((cfg0.slots ⟨k + 1, hk⟩ 2).cast nbuf0_2)) (st0_3 ⟨k + 1, hk⟩) (hstage0_3 ((cfg0.slots ⟨k + 1, hk⟩ 3).cast nbuf0_3)) (st0_4 ⟨k + 1, hk⟩) (hstage0_4 ((cfg0.slots ⟨k + 1, hk⟩ 4).cast nbuf0_4)) (st0_5 ⟨k + 1, hk⟩) (hstage0_5 ((cfg0.slots ⟨k + 1, hk⟩ 5).cast nbuf0_5)) (st0_6 ⟨k + 1, hk⟩) (hstage0_6 ((cfg0.slots ⟨k + 1, hk⟩ 6).cast nbuf0_6)) (st0_7 ⟨k + 1, hk⟩) (hstage0_7 ((cfg0.slots ⟨k + 1, hk⟩ 7).cast nbuf0_7)) hF hL (X0at m c ⟨k + 1, hk⟩) (X1at m c ⟨k + 1, hk⟩)
          (xCopy (F := F) c (V m c main_arg0)) (aggC m hW0 hW1 c k (Nat.lt_of_succ_lt hk)) (hW0 c ⟨k + 1, hk⟩) (hW1 c ⟨k + 1, hk⟩) _)
        isplitl [H0]; · iexact H0
        isplitl [H1]; · iexact H1
        isplitl [H11]; · iexact H11
        isplitl [H12]; · iexact H12
        iintro ⟨H0, H1, H11, H12⟩
        isplitl [Hx Hy H11 H12 Htile Hs10 Hs11 Hp]
        · isplitl [Hx]; · iexact Hx
          isplitl [Hy]; · iexact Hy
          isplitl [H11]; · iexact H11
          isplitl [H12]; · iexact H12
          isplitl [Htile]; · iexact Htile
          isplitl [Hs10]; · iexact Hs10
          isplitl [Hs11]; · iexact Hs11
          iexact Hp
        isplitl [HO]; · iapply (owesAt_intro m hW0 hW1 c); iexact HO
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

end Cert.Proof.KernelIdeal

end
-- ==== Proof.KernelIdealWords.lean ====
/-
  The two index windows, read. Before the region the host writes the edge array's two rows, each flattened to a vector
  of 1600000 words: the source row (row 0) and the destination row (row 1). The pipeline stages each vector in blocks
  of 512 words, block t at grid point t. So word j of the source window's block at point t is the edge array's word
  (0, 512 t + j), and likewise the destination window's with row 1. When every word of the edge array is a node number
  (below 100000), every word of every block is one, and so is every word a load reads through a staging buffer held
  at the contents that read its block.
-/
import proofs.«407827_j64682207478383_2_alg».proof.Proof.KernelIdealLoop
import proofs.«407827_j64682207478383_2_alg».proof.Proof.Gen.KernelIdeal.Frame
import proofs.«407827_j64682207478383_2_alg».proof.Proof.Gen.KernelIdeal.Points
import proofs.«407827_j64682207478383_2_alg».proof.Proof.Spec
import Idealize.ShloMosaic.Lib.Pipeline.Value
import Idealize.ShloMosaic.Lib.Pipeline.Frame
import Idealize.ShloMosaic.Lib.StableHlo.Run

noncomputable section

namespace Cert.Proof.KernelIdeal

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The source row of the edge array, flattened, as the region finds it: word e is the edge array's word (0, e). The
    host writes it as the reshape of the slice of row 0; the reshape keeps the row-major position and the slice keeps
    the column. -/
theorem V_v1_apply (c : Dev nD) (e : Fin 1600000) :
    V m c main_v1 (ix1 e) = m ((c : Thread nD τ).loc main_arg1) (ix2 (0 : Fin 2) e) := by
  have h : (V m c main_v1 : S1600000.Idx → BitVec 32)
      = shapeCast S1600000 (extractStridedSlice S1x1600000 ![0, 0] (m ((c : Thread nD τ).loc main_arg1) : S2x1600000.Idx → BitVec 32)
          slices_S2x1600000_S1x1600000_0_0) shapeCasts_S1x1600000_S1600000 := by
    dsimp only [Gen.V, Gen.hostOps0]; after_results; rfl
  show (V m c main_v1 : S1600000.Idx → BitVec 32) (ix1 e) = _
  rw [h]
  refine (shapeCast_apply _ _ (ix1 e) (ix2 (0 : Fin 1) e) ?_).trans ?_
  · rw [Shape.rowMajor_val_two, Shape.rowMajor_val_one]
    show 0 * 1600000 + e.val = e.val
    omega
  · exact extractStridedSlice_apply _ _ _ (ix2 (0 : Fin 1) e) (ix2 (0 : Fin 2) e) (fun a => by
      match a with
      | ⟨0, _⟩ => show (0 : ℕ) = 0 + 0; rfl
      | ⟨1, _⟩ => show e.val = 0 + e.val; omega)

/-- Likewise the destination row: word e is the edge array's word (1, e). -/
theorem V_v3_apply (c : Dev nD) (e : Fin 1600000) :
    V m c main_v3 (ix1 e) = m ((c : Thread nD τ).loc main_arg1) (ix2 (1 : Fin 2) e) := by
  have h : (V m c main_v3 : S1600000.Idx → BitVec 32)
      = shapeCast S1600000 (extractStridedSlice S1x1600000 ![1, 0] (m ((c : Thread nD τ).loc main_arg1) : S2x1600000.Idx → BitVec 32)
          slices_S2x1600000_S1x1600000_1_0) shapeCasts_S1x1600000_S1600000 := by
    dsimp only [Gen.V, Gen.hostOps0]; after_results; rfl
  show (V m c main_v3 : S1600000.Idx → BitVec 32) (ix1 e) = _
  rw [h]
  refine (shapeCast_apply _ _ (ix1 e) (ix2 (0 : Fin 1) e) ?_).trans ?_
  · rw [Shape.rowMajor_val_two, Shape.rowMajor_val_one]
    show 0 * 1600000 + e.val = e.val
    omega
  · exact extractStridedSlice_apply _ _ _ (ix2 (0 : Fin 1) e) (ix2 (1 : Fin 2) e) (fun a => by
      match a with
      | ⟨0, _⟩ => show (1 : ℕ) = 1 + 0; rfl
      | ⟨1, _⟩ => show e.val = 0 + e.val; omega)

/-- The two index windows' block index at a point is the point's number. -/
theorem idx_words : ∀ t : Fin cfg0.N, win0_0.index t (0 : Fin 1) = t.val ∧ win0_1.index t (0 : Fin 1) = t.val :=
  (by decide +kernel : ∀ t : Fin grid0.N, win0_0.index t (0 : Fin 1) = t.val ∧ win0_1.index t (0 : Fin 1) = t.val)

/-- Word j of block t is word 512 t + j of the row, and the row has 3125 blocks of 512 words. -/
theorem word_lt (t : Fin cfg0.N) (j : Fin 512) : 512 * t.val + j.val < 1600000 := by
  have h1 := t.isLt
  have h2 := j.isLt
  have h3 : cfg0.N = 3125 := N_0
  omega

/-- Window 0's block at point t, read at j: the edge array's word (0, 512 t + j). The block's coordinate in the row
    is its index times 512 plus the coordinate inside the block. -/
theorem iblk0_apply (c : Dev nD) (t : Fin cfg0.N) (j : Fin 512) :
    iblk m c 0 t (ix1 j) = m ((c : Thread nD τ).loc main_arg1) (ix2 (0 : Fin 2) ⟨512 * t.val + j.val, word_lt t j⟩) := by
  show V m c main_v1 (((cfg0.win 0).blk t).view.emb (ix1 j)) = _
  have he : ((cfg0.win 0).blk t).view.emb (ix1 j) = (ix1 ⟨512 * t.val + j.val, word_lt t j⟩ : S1600000.Idx) := by
    funext a; apply Fin.ext
    match a with
    | ⟨0, _⟩ =>
      show win0_0.index t (0 : Fin 1) * 512 + 1 * j.val = 512 * t.val + j.val
      rw [(idx_words t).1]; omega
  exact (congrArg (V m c main_v1 : S1600000.Idx → BitVec 32) he).trans (V_v1_apply m c _)

/-- Window 1's block at point t, read at j: the edge array's word (1, 512 t + j). -/
theorem iblk1_apply (c : Dev nD) (t : Fin cfg0.N) (j : Fin 512) :
    iblk m c 1 t (ix1 j) = m ((c : Thread nD τ).loc main_arg1) (ix2 (1 : Fin 2) ⟨512 * t.val + j.val, word_lt t j⟩) := by
  show V m c main_v3 (((cfg0.win 1).blk t).view.emb (ix1 j)) = _
  have he : ((cfg0.win 1).blk t).view.emb (ix1 j) = (ix1 ⟨512 * t.val + j.val, word_lt t j⟩ : S1600000.Idx) := by
    funext a; apply Fin.ext
    match a with
    | ⟨0, _⟩ =>
      show win0_1.index t (0 : Fin 1) * 512 + 1 * j.val = 512 * t.val + j.val
      rw [(idx_words t).2]; omega
  exact (congrArg (V m c main_v3 : S1600000.Idx → BitVec 32) he).trans (V_v3_apply m c _)

section Range

variable (hR : ∀ c : Dev nD, Cert.Spec.InRange (m ((c : Thread nD τ).loc main_arg1)))
include hR

/-- When every word of the edge array is a node number, so is every word of a block of its source row. -/
theorem iblk0_lt (c : Dev nD) (t : Fin cfg0.N) : ∀ y, (iblk m c 0 t y).toNat < 100000 := by
  intro y
  obtain ⟨j, rfl⟩ : ∃ j : Fin 512, y = ix1 j := ⟨y 0, eq_ix1 y⟩
  exact (congrArg BitVec.toNat (iblk0_apply m c t j)).trans_lt (hR c _)

/-- Likewise every word of a block of its destination row. -/
theorem iblk1_lt (c : Dev nD) (t : Fin cfg0.N) : ∀ y, (iblk m c 1 t y).toNat < 100000 := by
  intro y
  obtain ⟨j, rfl⟩ : ∃ j : Fin 512, y = ix1 j := ⟨y 0, eq_ix1 y⟩
  exact (congrArg BitVec.toNat (iblk1_apply m c t j)).trans_lt (hR c _)

/-- The source block's staging buffer, held at the contents that read the block, reads a node number at every index
    of every load: a load through a whole buffer's own view reads the block at the load's index. -/
theorem wordsOK0 (c : Dev nD) (t : Fin cfg0.N) :
    WordsOK (F := F) (st0_0 t) ((hstage0_0 ((cfg0.slots t 0).cast nbuf0_0)).unread (iblk m c 0 t)) := by
  intro r y
  have e : View.readAt (Elt F) (st0_0 t).view r ((hstage0_0 ((cfg0.slots t 0).cast nbuf0_0)).unread (iblk m c 0 t)) y
      = iblk m c 0 t (r.idx y) :=
    congrFun ((hstage0_0 ((cfg0.slots t 0).cast nbuf0_0)).read_unread (iblk m c 0 t)) _
  exact (congrArg BitVec.toNat e).trans_lt (iblk0_lt m hR c t _)

/-- Likewise the destination block's staging buffer. -/
theorem wordsOK1 (c : Dev nD) (t : Fin cfg0.N) :
    WordsOK (F := F) (st0_1 t) ((hstage0_1 ((cfg0.slots t 1).cast nbuf0_1)).unread (iblk m c 1 t)) := by
  intro r y
  have e : View.readAt (Elt F) (st0_1 t).view r ((hstage0_1 ((cfg0.slots t 1).cast nbuf0_1)).unread (iblk m c 1 t)) y
      = iblk m c 1 t (r.idx y) :=
    congrFun ((hstage0_1 ((cfg0.slots t 1).cast nbuf0_1)).read_unread (iblk m c 1 t)) _
  exact (congrArg BitVec.toNat e).trans_lt (iblk1_lt m hR c t _)

end Range

end Cert.Proof.KernelIdeal

end
-- ==== Proof.KernelIdealLaunch.lean ====
/-
  The launch of the fused kernel's pipeline and its frame.

  @main is four host operations (the two rows of the edge array sliced out and flattened) and then the one kernel
  region. From any memory whose edge words are all node numbers, every weakly fair execution of @main terminates,
  faults nowhere, and ends with every array of the pipeline at what the library computes from the proof data, x
  and the result (routed through the body's invariant) at x's launch contents and the result's final contents
  `outC`, and every other buffer that is no window's array as the region found it. Read at the seven arguments
  this is the frame claim's post: they end as launched.
-/
import proofs.«407827_j64682207478383_2_alg».proof.Proof.KernelIdealObligation
import proofs.«407827_j64682207478383_2_alg».proof.Proof.KernelIdealWords

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]

local notation "𝕄" => MT nD τ sig Unit (Elt F) ℕ UC ℕ

variable (m : (ℓ : Loc nD τ sig) → Buf (Elt F) ℓ) (ρ : Dev nD → PrngReg)
variable (hR : ∀ c : Dev nD, Cert.Spec.InRange (m ((c : Thread nD τ).loc main_arg1)))

/-- The layout the launch needs of the kernel's own semaphores: scoped, distinct, and no staging semaphore. -/
theorem ownSemFacts : Pipeline.OwnSemFacts spec0 osem := by decide

/-- The proof data at the word facts the precondition gives. -/
abbrev datsR := dats (F := F) m (wordsOK0 m hR) (wordsOK1 m hR)
abbrev YvR := Yv (F := F) m (wordsOK0 m hR) (wordsOK1 m hR)

/-- At the compiled mesh, for any float values, from any memory with zero counters whose edge words are node numbers:
    every weakly fair execution of @main on the TensorCores terminates, and every final state has the pipeline's
    arrays at the library's account of them, x as launched and the result at `outC`, the other buffers as the region
    found them. -/
theorem run_main : θ_run defs (onTc (τ := τ) (main (F := F))) (s₀ m ρ) (RoutedPost cfgs (datsR m hR) 0 RR (V m) (YvR m hR)) :=
  Pipeline.θ_run_frame_routed cfgs (datsR m hR) 0 launch0 ownSemFacts defs₀ 𝒱₀ m ρ main
    (hbody := fun c => (body_obligation m (wordsOK0 m hR) (wordsOK1 m hR) c).loose)
    (hshare := fun c => (datsR m hR 0 c).share_full fun _ => rfl)
    (howed := fun _ _ => rfl) (V := V m)
    (hmain := Pipeline.hmain_prefix cfgs 0 defs₀ 𝒱₀ m main hostOps0 hostOps0_sub (hostOps0_fresh (F := F)) main_chain)
    (hA := fun _ _ => rfl) (R := RR) (hR := by decide) (Y := YvR m hR)
    (hin := fun c => by
      rw [show (datsR m hR 0 c).Φ 0 = Ends spec0 osem RR c (V m c) from by unfold datsR; dsimp only [dats]; unfold Φv; exact dif_pos rfl])
    (hout := fun c => by
      rw [show (datsR m hR 0 c).Φ (Fin.last cfg0.N) = Ends spec0 osem RR c (YvR m hR c) from by
        unfold datsR YvR; dsimp only [dats]; unfold Φv
        exact (dif_neg (show ¬ cfg0.N = 0 by rw [N_eq]; omega)).trans (dif_pos rfl)])

/-! ## The final contents, read off the post -/

theorem final_arg0 {r : PUnit × MemSt nD τ sig (Elt F)} (h : RoutedPost cfgs (datsR m hR) 0 RR (V m) (YvR m hR) r) (c : Dev nD) :
    r.2.mem ((c : Thread nD τ).loc main_arg0) = m ((c : Thread nD τ).loc main_arg0) :=
  ((h c).2.1 main_arg0 (by decide)).trans ((Yv_x m _ _ c).trans (V_main_arg0 m c))

theorem final_arg1 {r : PUnit × MemSt nD τ sig (Elt F)} (h : RoutedPost cfgs (datsR m hR) 0 RR (V m) (YvR m hR) r) (c : Dev nD) :
    r.2.mem ((c : Thread nD τ).loc main_arg1) = m ((c : Thread nD τ).loc main_arg1) :=
  ((h c).2.2 main_arg1 (Finset.mem_sdiff.mpr ⟨Pipeline.mem_restRefs_of main_arg1 (by decide) (by decide), by decide⟩)).trans (V_main_arg1 m c)

theorem final_arg2 {r : PUnit × MemSt nD τ sig (Elt F)} (h : RoutedPost cfgs (datsR m hR) 0 RR (V m) (YvR m hR) r) (c : Dev nD) :
    r.2.mem ((c : Thread nD τ).loc main_arg2) = m ((c : Thread nD τ).loc main_arg2) :=
  ((h c).1 2).trans (((datsR m hR 0 c).arrAt_in 2 rfl _).trans (V_main_arg2 m c))
theorem final_arg3 {r : PUnit × MemSt nD τ sig (Elt F)} (h : RoutedPost cfgs (datsR m hR) 0 RR (V m) (YvR m hR) r) (c : Dev nD) :
    r.2.mem ((c : Thread nD τ).loc main_arg3) = m ((c : Thread nD τ).loc main_arg3) :=
  ((h c).1 3).trans (((datsR m hR 0 c).arrAt_in 3 rfl _).trans (V_main_arg3 m c))
theorem final_arg4 {r : PUnit × MemSt nD τ sig (Elt F)} (h : RoutedPost cfgs (datsR m hR) 0 RR (V m) (YvR m hR) r) (c : Dev nD) :
    r.2.mem ((c : Thread nD τ).loc main_arg4) = m ((c : Thread nD τ).loc main_arg4) :=
  ((h c).1 4).trans (((datsR m hR 0 c).arrAt_in 4 rfl _).trans (V_main_arg4 m c))
theorem final_arg5 {r : PUnit × MemSt nD τ sig (Elt F)} (h : RoutedPost cfgs (datsR m hR) 0 RR (V m) (YvR m hR) r) (c : Dev nD) :
    r.2.mem ((c : Thread nD τ).loc main_arg5) = m ((c : Thread nD τ).loc main_arg5) :=
  ((h c).1 5).trans (((datsR m hR 0 c).arrAt_in 5 rfl _).trans (V_main_arg5 m c))
theorem final_arg6 {r : PUnit × MemSt nD τ sig (Elt F)} (h : RoutedPost cfgs (datsR m hR) 0 RR (V m) (YvR m hR) r) (c : Dev nD) :
    r.2.mem ((c : Thread nD τ).loc main_arg6) = m ((c : Thread nD τ).loc main_arg6) :=
  ((h c).1 6).trans (((datsR m hR 0 c).arrAt_in 6 rfl _).trans (V_main_arg6 m c))

/-- The result array ends at `outC`; the gate array at the library's account of its window. -/
theorem final_out {r : PUnit × MemSt nD τ sig (Elt F)} (h : RoutedPost cfgs (datsR m hR) 0 RR (V m) (YvR m hR) r) (c : Dev nD) :
    r.2.mem ((c : Thread nD τ).loc main_v4_0) = outC m (wordsOK0 m hR) (wordsOK1 m hR) c :=
  ((h c).2.1 main_v4_0 (by decide)).trans (Yv_out m _ _ c)
theorem final_gate {r : PUnit × MemSt nD τ sig (Elt F)} (h : RoutedPost cfgs (datsR m hR) 0 RR (V m) (YvR m hR) r) (c : Dev nD) :
    r.2.mem ((c : Thread nD τ).loc main_v4_1) = (datsR m hR 0 c).arrAt 7 cfg0.N :=
  (h c).1 7

include hR in
/-- THE FRAME: the program runs to the end, faults nowhere, and its seven arguments end as launched. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨final_arg0 m hR h c, final_arg1 m hR h c, final_arg2 m hR h c, final_arg3 m hR h c, final_arg4 m hR h c, final_arg5 m hR h c, final_arg6 m hR h c⟩)
    (run_main m ρ hR)

end Cert.Proof.KernelIdeal

end
-- ==== Proof.LibScatterUnit.lean ====
/-
  SCATTER-ADD THROUGH A TRAILING UNIT AXIS (a general lemma about the ideal instance's accumulating scatter; it
  mentions no program).

  The accumulating scatter of updates `s : [E, H]` into an operand `x : [N, H]` along axis 0, at the row indices
  `idx : [E, 1]`, has at `(n, h)` the value `x n h` plus the sum of `s e c` over the update indices `(e, c)` whose
  result index is `(n, h)`. The result index of `(e, c)` is, axis by axis, start plus window coordinate: on axis 0
  (the scattered, inserted axis) the start is `idx e 0` read as a signed integer and the window coordinate is `0`;
  on axis 1 the start is `0` and the window coordinate is `c`. So `(e, c)` lands on `(n, h)` exactly when
  `idx e 0 = n` (as integers) and `c = h`.

  Seen with a trailing unit axis — operand `[N, H, 1]`, updates `[E, H, 1]`, window axes `[1, 2]` — the first two
  axes read the same, and the third has start `0` and window coordinate the update's third coordinate, which is
  `0` because the axis has one element; the target's third coordinate is `0` too, so the third axis asks nothing:
  `(e, c, 0)` lands on `(n, h, 0)` exactly when `idx e 0 = n` and `c = h`. Hence `(e, c) ↦ (e, c, 0)` is a bijection
  between the two sets of landing update indices, the summands agree along it, and the two sums, and with them
  the two scatter values, are equal.

  Proof shape: `resultIdx?_eq_some_iff` (an update lands on `i` iff start plus window is `i`'s coordinate on every
  axis, for any dimension numbers); `start2_*` / `window2_*` and `start3_*` / `window3_*` (what start and window
  are on each axis of the two literal dimension numbers); `res2_iff` / `res3_iff` (the landing condition in both
  ranks); `hostScatterAdd_unit_axis` (the sums re-indexed along the bijection).
-/
import Idealize.ShloMosaic.PureOps.Ideal
import Idealize.ShloMosaic.Lib.ValueIdx
noncomputable section
namespace Cert.Lib.ScatterUnit
open Idealize.ShloMosaic Idealize.ShloMosaic.ValueIdx

abbrev dims2 (N E H : Nat) (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ :=
  { updateWindowDims := [1], insertedWindowDims := [0], scatterDimsToOperandDims := [0], indexVectorDim := 1, wf := wf }
abbrev dims3 (N E H : Nat) (wf : ScatterDims.WF ⟨3, ![N, H, 1]⟩ ⟨2, ![E, 1]⟩ ⟨3, ![E, H, 1]⟩ [1, 2] [0] [0] 1) :
    ScatterDims ⟨3, ![N, H, 1]⟩ ⟨2, ![E, 1]⟩ ⟨3, ![E, H, 1]⟩ :=
  { updateWindowDims := [1, 2], insertedWindowDims := [0], scatterDimsToOperandDims := [0], indexVectorDim := 1, wf := wf }

/-- A scatter update lands on operand index `i` exactly when, on every axis, start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hh
    constructor
    · intro he a
      have h1 := congrFun (Option.some.inj he) a
      have h2 := congrArg Fin.val h1
      simp only at h2
      have h3 := (hh a).1
      omega
    · intro he
      congr 1
      funext a
      apply Fin.ext
      simp only
      have h1 := he a
      omega
  · rename_i hh
    constructor
    · intro he; exact absurd he (by simp)
    · intro he
      exfalso; apply hh
      intro a
      have h1 := he a
      have h2 := (i a).isLt
      omega

section Rank2
variable {N E H w : Nat} (wf : ScatterDims.WF ⟨2, ![N, H]⟩ ⟨2, ![E, 1]⟩ ⟨2, ![E, H]⟩ [1] [0] [0] 1)
  (idx : IVec ⟨2, ![E, 1]⟩ w) (j : (⟨2, ![E, H]⟩ : Shape).Idx)

/-- On the scattered axis the window starts at the row's index, read signed. -/
theorem start2_0 : (dims2 N E H wf).start j idx 0 = (idx (ix2 (j 0) 0)).toInt := by
  unfold ScatterDims.start
  rw [dif_pos (show (0 : Fin 2) ∈ (dims2 N E H wf).scatterDimsToOperandDims from List.mem_singleton.mpr rfl)]
  have hsi : (dims2 N E H wf).siIdx j ⟨List.idxOf (0 : Fin 2) (dims2 N E H wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The other axis is not scattered: its start is `0`. -/
theorem start2_1 : (dims2 N E H wf).start j idx 1 = 0 := by
  unfold ScatterDims.start
  rw [dif_neg (show ¬ (1 : Fin 2) ∈ (dims2 N E H wf).scatterDimsToOperandDims from by
    intro hm
    have hm' : (1 : Fin 2) = (0 : Fin 2) := List.mem_singleton.mp hm
    exact absurd hm' (by decide))]

/-- The scattered axis is an inserted window axis: window coordinate `0`. -/
theorem window2_0 : (dims2 N E H wf).window j 0 = 0 := by
  unfold ScatterDims.window
  rw [dif_neg (show ¬ (0 : Fin 2) ∈ (dims2 N E H wf).sKept from by
    intro hm
    have hm' : (0 : Fin 2) ∈ [(1 : Fin 2)] := hm
    have hm'' : (0 : Fin 2) = (1 : Fin 2) := List.mem_singleton.mp hm'
    exact absurd hm'' (by decide))]

/-- The other axis carries the update's window coordinate. -/
theorem window2_1 : (dims2 N E H wf).window j 1 = (j 1).val := by
  unfold ScatterDims.window
  rw [dif_pos (show (1 : Fin 2) ∈ (dims2 N E H wf).sKept from
    (show (1 : Fin 2) ∈ [(1 : Fin 2)] from List.mem_singleton.mpr rfl))]
  rfl
end Rank2

section Rank3
variable {N E H w : Nat} (wf : ScatterDims.WF ⟨3, ![N, H, 1]⟩ ⟨2, ![E, 1]⟩ ⟨3, ![E, H, 1]⟩ [1, 2] [0] [0] 1)
  (idx : IVec ⟨2, ![E, 1]⟩ w) (j : (⟨3, ![E, H, 1]⟩ : Shape).Idx)

/-- On the scattered axis the window starts at the row's index, read signed. -/
theorem start3_0 : (dims3 N E H wf).start j idx 0 = (idx (ix2 (j 0) 0)).toInt := by
  unfold ScatterDims.start
  rw [dif_pos (show (0 : Fin 3) ∈ (dims3 N E H wf).scatterDimsToOperandDims from List.mem_singleton.mpr rfl)]
  have hsi : (dims3 N E H wf).siIdx j ⟨List.idxOf (0 : Fin 3) (dims3 N E H wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The second axis is not scattered: its start is `0`. -/
theorem start3_1 : (dims3 N E H wf).start j idx 1 = 0 := by
  unfold ScatterDims.start
  rw [dif_neg (show ¬ (1 : Fin 3) ∈ (dims3 N E H wf).scatterDimsToOperandDims from by
    intro hm
    have hm' : (1 : Fin 3) = (0 : Fin 3) := List.mem_singleton.mp hm
    exact absurd hm' (by decide))]

/-- The unit axis is not scattered: its start is `0`. -/
theorem start3_2 : (dims3 N E H wf).start j idx 2 = 0 := by
  unfold ScatterDims.start
  rw [dif_neg (show ¬ (2 : Fin 3) ∈ (dims3 N E H wf).scatterDimsToOperandDims from by
    intro hm
    have hm' : (2 : Fin 3) = (0 : Fin 3) := List.mem_singleton.mp hm
    exact absurd hm' (by decide))]

/-- The scattered axis is an inserted window axis: window coordinate `0`. -/
theorem window3_0 : (dims3 N E H wf).window j 0 = 0 := by
  unfold ScatterDims.window
  rw [dif_neg (show ¬ (0 : Fin 3) ∈ (dims3 N E H wf).sKept from by
    intro hm
    have hm' : (0 : Fin 3) ∈ [(1 : Fin 3), (2 : Fin 3)] := hm
    revert hm'; decide)]

/-- The second axis carries the update's second coordinate. -/
theorem window3_1 : (dims3 N E H wf).window j 1 = (j 1).val := by
  unfold ScatterDims.window
  rw [dif_pos (show (1 : Fin 3) ∈ (dims3 N E H wf).sKept from
    (show (1 : Fin 3) ∈ [(1 : Fin 3), (2 : Fin 3)] from by decide))]
  rfl

/-- The unit axis carries the update's third coordinate. -/
theorem window3_2 : (dims3 N E H wf).window j 2 = (j 2).val := by
  unfold ScatterDims.window
  rw [dif_pos (show (2 : Fin 3) ∈ (dims3 N E H wf).sKept from
    (show (2 : Fin 3) ∈ [(1 : Fin 3), (2 : Fin 3)] from by decide))]
  rfl
end Rank3

/-- At rank 2, update row `j` lands on `(n, h)` exactly when its row's index, read signed, is `n` and its column
    is `h`. -/
theorem res2_iff {N E H w : Nat} (wf : ScatterDims.WF ⟨2, ![N, H]⟩ ⟨2, ![E, 1]⟩ ⟨2, ![E, H]⟩ [1] [0] [0] 1)
    (idx : IVec ⟨2, ![E, 1]⟩ w) (j : (⟨2, ![E, H]⟩ : Shape).Idx) (n : Fin N) (h : Fin H) :
    (dims2 N E H wf).resultIdx? j idx = some (ix2 n h)
      ↔ (idx (ix2 (j 0) 0)).toInt = (n.val : Int) ∧ (j 1).val = h.val := by
  rw [resultIdx?_eq_some_iff]
  constructor
  · intro hh
    have h0 : (dims2 N E H wf).start j idx 0 + ((dims2 N E H wf).window j 0 : Int) = (n.val : Int) := hh 0
    have h1 : (dims2 N E H wf).start j idx 1 + ((dims2 N E H wf).window j 1 : Int) = (h.val : Int) := hh 1
    rw [start2_0, window2_0] at h0
    rw [start2_1, window2_1] at h1
    constructor <;> omega
  · rintro ⟨e0, e1⟩ a
    match a with
    | ⟨0, _⟩ =>
      show (dims2 N E H wf).start j idx 0 + ((dims2 N E H wf).window j 0 : Int) = (n.val : Int)
      rw [start2_0, window2_0]; omega
    | ⟨1, _⟩ =>
      show (dims2 N E H wf).start j idx 1 + ((dims2 N E H wf).window j 1 : Int) = (h.val : Int)
      rw [start2_1, window2_1]; omega

/-- At rank 3 with a trailing unit axis the condition is the same: the third coordinate of an update index is
    `0`, as the target's is, so the third axis asks nothing. -/
theorem res3_iff {N E H w : Nat} (wf : ScatterDims.WF ⟨3, ![N, H, 1]⟩ ⟨2, ![E, 1]⟩ ⟨3, ![E, H, 1]⟩ [1, 2] [0] [0] 1)
    (idx : IVec ⟨2, ![E, 1]⟩ w) (j : (⟨3, ![E, H, 1]⟩ : Shape).Idx) (n : Fin N) (h : Fin H) :
    (dims3 N E H wf).resultIdx? j idx = some (ix3 n h (0 : Fin 1))
      ↔ (idx (ix2 (j 0) 0)).toInt = (n.val : Int) ∧ (j 1).val = h.val := by
  rw [resultIdx?_eq_some_iff]
  have hj2 : (j 2).val < 1 := (j 2).isLt
  constructor
  · intro hh
    have h0 : (dims3 N E H wf).start j idx 0 + ((dims3 N E H wf).window j 0 : Int) = (n.val : Int) := hh 0
    have h1 : (dims3 N E H wf).start j idx 1 + ((dims3 N E H wf).window j 1 : Int) = (h.val : Int) := hh 1
    rw [start3_0, window3_0] at h0
    rw [start3_1, window3_1] at h1
    constructor <;> omega
  · rintro ⟨e0, e1⟩ a
    match a with
    | ⟨0, _⟩ =>
      show (dims3 N E H wf).start j idx 0 + ((dims3 N E H wf).window j 0 : Int) = (n.val : Int)
      rw [start3_0, window3_0]; omega
    | ⟨1, _⟩ =>
      show (dims3 N E H wf).start j idx 1 + ((dims3 N E H wf).window j 1 : Int) = (h.val : Int)
      rw [start3_1, window3_1]; omega
    | ⟨2, _⟩ =>
      show (dims3 N E H wf).start j idx 2 + ((dims3 N E H wf).window j 2 : Int) = ((0 : Nat) : Int)
      rw [start3_2, window3_2]; omega

/-- SCATTER-ADD THROUGH A TRAILING UNIT AXIS. Scattering the rows of `s : [E, H]` into `x : [N, H]` along axis 0 at
    the indices `idx : [E, 1]`, and scattering the same rows seen as `[E, H, 1]` into the same operand seen as
    `[N, H, 1]`, give the same value at `(n, h)` and `(n, h, 0)`: the update elements landing there correspond
    under `(e, c) ↦ (e, c, 0)`, and both sums add `s e c` over them. -/
theorem hostScatterAdd_unit_axis {N E H w : Nat} (wf2) (wf3) (idx : IVec ⟨2, ![E, 1]⟩ w)
    (x : (⟨2, ![N, H]⟩ : Shape).Idx → EReal) (s : (⟨2, ![E, H]⟩ : Shape).Idx → EReal) (n : Fin N) (h : Fin H) :
    Ideal.hostScatterAdd (dims3 N E H wf3) (fun i => x (ix2 (i 0) (i 1))) idx (fun j => s (ix2 (j 0) (j 1))) (ix3 n h (0 : Fin 1))
      = Ideal.hostScatterAdd (dims2 N E H wf2) x idx s (ix2 n h) := by
  unfold Ideal.hostScatterAdd
  show x (ix2 n h) + _ = x (ix2 n h) + _
  congr 1
  refine Finset.sum_nbij' (fun j3 => ix2 (j3 0) (j3 1)) (fun j2 => ix3 (j2 0) (j2 1) (0 : Fin 1)) ?_ ?_ ?_ ?_ ?_
  · intro j3 hj3
    rw [Finset.mem_filter] at hj3 ⊢
    exact ⟨Finset.mem_univ _, (res2_iff wf2 idx _ n h).mpr ((res3_iff wf3 idx j3 n h).mp hj3.2)⟩
  · intro j2 hj2
    rw [Finset.mem_filter] at hj2 ⊢
    exact ⟨Finset.mem_univ _, (res3_iff wf3 idx _ n h).mpr ((res2_iff wf2 idx j2 n h).mp hj2.2)⟩
  · intro j3 _
    funext a
    match a with
    | ⟨0, _⟩ => rfl
    | ⟨1, _⟩ => rfl
    | ⟨2, _⟩ =>
      have hlt : (j3 2).val < 1 := (j3 2).isLt
      exact Fin.ext (show (0 : Nat) = (j3 2).val by omega)
  · intro j2 _
    funext a
    match a with
    | ⟨0, _⟩ => rfl
    | ⟨1, _⟩ => rfl
  · intro j3 _
    rfl

/-- The same with the rank-3 operand and updates given as arbitrary functions that agree with the rank-2 ones
    entry by entry. -/
theorem hostScatterAdd_unit_axis_of_eq {N E H w : Nat} (wf2) (wf3) (idx : IVec ⟨2, ![E, 1]⟩ w)
    (x : (⟨2, ![N, H]⟩ : Shape).Idx → EReal) (s : (⟨2, ![E, H]⟩ : Shape).Idx → EReal)
    (x3 : (⟨3, ![N, H, 1]⟩ : Shape).Idx → EReal) (s3 : (⟨3, ![E, H, 1]⟩ : Shape).Idx → EReal)
    (hx : ∀ i, x3 i = x (ix2 (i 0) (i 1))) (hs : ∀ j, s3 j = s (ix2 (j 0) (j 1))) (n : Fin N) (h : Fin H) :
    Ideal.hostScatterAdd (dims3 N E H wf3) x3 idx s3 (ix3 n h (0 : Fin 1))
      = Ideal.hostScatterAdd (dims2 N E H wf2) x idx s (ix2 n h) := by
  obtain rfl : x3 = fun i => x (ix2 (i 0) (i 1)) := funext hx
  obtain rfl : s3 = fun j => s (ix2 (j 0) (j 1)) := funext hs
  exact hostScatterAdd_unit_axis wf2 wf3 idx x s n h

end Cert.Lib.ScatterUnit
end
-- ==== Proof.LibAllOnes.lean ====
/-
  A one-bit mask that is all ones. A host reduction by `and` from the constant 1 over an array of one-bit words
  every one of which is 1 is 1 at every result index (the converse of reading such a reduction back); a select on an
  all-ones mask keeps its first operand; and the signed comparisons that say a 32-bit word lies in [0, n): such a
  word is not negative, so an index normalisation that adds the extent to negative words leaves it alone, and it is
  at most n - 1.
-/
import Idealize.ShloMosaic.Lib.ReduceAll
import Idealize.ShloMosaic.Lib.ValueIdx

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    rw [List.foldl_cons]
    exact foldl_andi_of_all f l _ (andi_eq_one.2 ⟨h, hl a (List.mem_cons_self ..)⟩) fun n hn => hl n (List.mem_cons_of_mem _ hn)

/-- A word that is not negative is not below zero: the normalisation's condition is not 1. -/
theorem slt_zero_ne_one {w : BitVec 32} (h0 : cmpi .sge w 0#32 = 1#1) : ¬ cmpi .slt w 0#32 = 1#1 := by
  rw [cmpi_sge] at h0
  rw [cmpi_slt]
  omega

/-- A word below `n` is at most `hi` when `hi` is `n - 1`. -/
theorem sle_pred_of_slt {w n hi : BitVec 32} (hhi : hi.toInt + 1 = n.toInt) (hn : cmpi .slt w n = 1#1) :
    cmpi .sle w hi = 1#1 := by
  rw [cmpi_slt] at hn
  rw [cmpi_sle]
  omega

end IntOp

namespace Scalar

/-- jnp's index normalisation (a negative index is increased by the extent) leaves a word in [0, n) alone. -/
theorem select_wrap_of_nonneg {w n : BitVec 32} (h0 : IntOp.cmpi .sge w 0#32 = 1#1) :
    Scalar.select (IntOp.cmpi .slt w 0#32) (IntOp.addi w n) w = w :=
  if_neg (IntOp.slt_zero_ne_one h0)

end Scalar

namespace Host

variable {s t u : Shape} {axes : List (Fin s.rank)}

/-- `jnp.all` of an all-ones array: a reduce by `and` from an initial 1 over one-bit words that are all 1 is 1 at
    every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun n _ => hx n

end Host

/-- A select whose one-bit mask is 1 at an index keeps its first operand there. -/
theorem select_apply_of_one {s : Shape} {α : Type} (c : IVec s 1) (a b : s.Idx → α) (i : s.Idx) (h : c i = 1#1) :
    select c a b i = a i := by
  show Scalar.select (c i) (a i) (b i) = a i
  rw [h]
  exact ValueIdx.select_one _ _

end Idealize.ShloMosaic
-- ==== Proof.RefValue.lean ====
/-
  THE REFERENCE'S RESULTS ARE THE SPECIFICATION'S ARRAYS.

  The reference computes, for a graph of 100000 nodes with 64 features each and 1600000 directed edges, the gathered
  source rows `x[src]`, their accumulating scatter into a table of zeros at the destination rows (the aggregate), the
  hidden rows `x + aggregate`, two affine layers with a rectifier between them, and the gate `1 / (1 + exp(-alpha))`
  that multiplies the result. Read at one index each of these is the specification's function:

  * the gate is the logistic function of the parameter, since the logistic function IS that quotient (`gate_at`);
  * a word below 100000 is not negative, so the normalisation of negative indices leaves it alone, its signed and
    unsigned readings agree, and the clamp into `[0, 99999]` leaves it alone (`toInt_of_lt`, `wrap_of_lt`, `clamp_of_lt`);
  * taking rows of a table reads, at (e, c), the table at the row the start index names and column c
    (`gather_rows_apply`, from the operand index axis by axis);
  * the accumulating scatter of rows reads, at (n, h), the operand plus the sum over the update rows whose index is n
    of the row's element h: an update element (e, c') lands on (n, h) exactly when row e's index is n and c' = h, so
    the sum over all update elements splits into rows and, inside a row, collapses to the one column h
    (`scatter_rows_apply`);
  * hence the aggregate at (r, c) is the sum over the edges into r of the source node's feature c (`agg_at`), and the
    layers on top of it are the specification's, sum by sum (`hid_at`, `lin1_at`, `act_at`, `lin2_at`, `out_at`).

  `ref_run` then restates the reference's run with the two results as `Cert.Spec.outArr` and `Cert.Spec.gateArr`.
-/
import proofs.«407827_j64682207478383_2_alg».proof.Proof.Gen.ReferenceIdeal.Run
import proofs.«407827_j64682207478383_2_alg».proof.Proof.Gen.ReferenceIdeal.Read
import proofs.«407827_j64682207478383_2_alg».proof.Proof.Spec
import proofs.«407827_j64682207478383_2_alg».proof.Proof.LibScatterUnit
import proofs.«407827_j64682207478383_2_alg».proof.Proof.LibAllOnes
import Idealize.ShloMosaic.Lib.IdealHost

noncomputable section

open scoped BigOperators

namespace Cert.Proof.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- The gate: one over one plus the exponential of minus the parameter is the logistic function. -/
theorem gate_at (alpha : (⟨S1, .f32⟩ : BufTy).Contents (Elt Ideal)) (i : S1.Idx) :
    val_main_v29 (F := Ideal) alpha i = Cert.Spec.gate alpha := by
  have hi : i = ix1 (0 : Fin 1) := by
    have h0 : (i 0).val < 1 := (i 0).isLt
    rw [eq_ix1 i]; exact congrArg ix1 (Fin.ext (by show (i 0).val = 0; omega))
  rw [val_main_v29_apply, val_main_v28_apply, val_main_cst_2_apply, val_main_v27_apply, val_main_v26_apply,
    val_main_cst_1_apply, val_main_v25_apply, val_main_v24_apply, hi]
  simp only [Ideal.ofBits_def, Ideal.ofBits_one_f32, Ideal.hostDivf_def, Ideal.addf_def, Ideal.hostUnary_exp_def,
    Ideal.hostNegf_def, Ideal.negf_def]
  rfl

theorem refGate_eq (alpha : (⟨S1, .f32⟩ : BufTy).Contents (Elt Ideal)) :
    Host.divf (F := Ideal) (broadcastInDim S1 ![] bcast_S_S1 (constant (F := Ideal) S_ .f32 0x3F800000#32)) (addf (broadcastInDim S1 ![] bcast_S_S1 (constant (F := Ideal) S_ .f32 0x3F800000#32)) (Host.exp (F := Ideal) (Host.negf (F := Ideal) alpha)))
      = Cert.Spec.gateArr alpha := by
  rw [val_main_v29_eq]
  funext i
  exact gate_at alpha i

/-! ## Words that are node numbers -/

/-- A word below 100000 read signed is the word read unsigned. -/
theorem toInt_of_lt {w : BitVec 32} (h : w.toNat < 100000) : w.toInt = (w.toNat : Int) :=
  BitVec.toInt_eq_toNat_of_lt (by omega)

/-- The index normalisation leaves a node number alone. -/
theorem wrap_of_lt {w : BitVec 32} (h : w.toNat < 100000) :
    Scalar.select (IntOp.cmpi .slt w 0#32) (IntOp.addi w 100000#32) w = w := by
  refine Scalar.select_wrap_of_nonneg ?_
  rw [IntOp.cmpi_sge, toInt_of_lt h]
  show (0 : Int) ≤ _
  omega

/-- The clamp into the rows of the table leaves a node number alone. -/
theorem clamp_of_lt {w : BitVec 32} (h : w.toNat < 100000) : min w.toInt.toNat (100000 - 1) = w.toNat := by
  rw [toInt_of_lt h, Int.toNat_natCast]
  omega

/-! ## Taking rows of a table -/

/-- The dimension numbers of taking rows: start indices [E, 1] name a row of an [N, H] table each, the whole row is
    the slice. -/
abbrev rowsDims (N E H : Nat)
    (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ :=
  { offsetDims := [1], collapsedSliceDims := [0], operandBatchingDims := [], startIndicesBatchingDims := [],
    startIndexMap := [0], indexVectorDim := 1, sliceSizes := ![1, H], wf := wf }

section Rows
variable {N E H w : Nat} (wf : GatherDims.WF ⟨2, ![N, H]⟩ ⟨2, ![E, 1]⟩ ⟨2, ![E, H]⟩ [1] [0] [] [0] [] 1 ![1, H])
  (idx : IVec ⟨2, ![E, 1]⟩ w) (j : (⟨2, ![E, H]⟩ : Shape).Idx)

/-- On the row axis the slice starts at the start index, read signed and clamped into the table. -/
theorem rows_start_0 : (rowsDims N E H wf).start j idx 0 = min (idx (ix2 (j 0) 0)).toInt.toNat (N - 1) := by
  unfold GatherDims.start
  rw [dif_pos (show (0 : Fin 2) ∈ (rowsDims N E H wf).startIndexMap from List.mem_singleton.mpr rfl)]
  have hsi : (rowsDims N E H wf).siIdx j ⟨List.idxOf (0 : Fin 2) (rowsDims N E H wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The column axis is not indexed: its slice starts at 0. -/
theorem rows_start_1 : (rowsDims N E H wf).start j idx 1 = 0 := by
  unfold GatherDims.start
  rw [dif_neg (show ¬ (1 : Fin 2) ∈ (rowsDims N E H wf).startIndexMap from by
    intro hm
    have hm' : (1 : Fin 2) = (0 : Fin 2) := List.mem_singleton.mp hm
    exact absurd hm' (by decide))]

/-- The row axis is collapsed: no offset coordinate. -/
theorem rows_off_0 : (rowsDims N E H wf).offCoord j 0 = 0 :=
  GatherDims.offCoord_eq_zero _ _ _ (fun h => ((GatherDims.mem_sKept _ _).mp h).1 (List.mem_singleton.mpr rfl))

/-- The column axis carries the result's column. -/
theorem rows_off_1 : (rowsDims N E H wf).offCoord j 1 = (j 1).val := by
  unfold GatherDims.offCoord
  rw [dif_pos (show (1 : Fin 2) ∈ (rowsDims N E H wf).sKept from
    (show (1 : Fin 2) ∈ [(1 : Fin 2)] from List.mem_singleton.mpr rfl))]
  rfl

/-- TAKING ROWS READ AT (e, c): the table at the row the start index names, read signed and clamped, and column c. -/
theorem gather_rows_apply {α : Type} (hN : 0 < N) (x : (⟨2, ![N, H]⟩ : Shape).Idx → α) (e : Fin E) (c : Fin H) :
    Host.gather (rowsDims N E H wf) x idx (ix2 e c)
      = x (ix2 (⟨min (idx (ix2 e 0)).toInt.toNat (N - 1), by omega⟩ : Fin N) c) := by
  unfold Host.gather
  congr 1
  funext a
  refine Fin.ext ?_
  match a with
  | ⟨0, _⟩ =>
    show (rowsDims N E H wf).start (ix2 e c) idx 0 + (rowsDims N E H wf).batchCoord (ix2 e c) 0
      + (rowsDims N E H wf).offCoord (ix2 e c) 0 = _
    rw [GatherDims.batchCoord_eq_zero _ _ _ List.not_mem_nil, rows_start_0, rows_off_0]
    rfl
  | ⟨1, _⟩ =>
    show (rowsDims N E H wf).start (ix2 e c) idx 1 + (rowsDims N E H wf).batchCoord (ix2 e c) 1
      + (rowsDims N E H wf).offCoord (ix2 e c) 1 = _
    rw [GatherDims.batchCoord_eq_zero _ _ _ List.not_mem_nil, rows_start_1, rows_off_1]
    show 0 + 0 + c.val = c.val
    omega
end Rows

/-! ## Accumulating rows into a table -/

section ScatterRows
open Cert.Lib.ScatterUnit

/-- THE ACCUMULATING SCATTER OF ROWS READ AT (n, h): the operand there plus the sum, over the update rows whose index
    (read signed) is n, of the row's element h. -/
theorem scatter_rows_apply {N E H w : Nat} (wf : ScatterDims.WF ⟨2, ![N, H]⟩ ⟨2, ![E, 1]⟩ ⟨2, ![E, H]⟩ [1] [0] [0] 1)
    (idx : IVec ⟨2, ![E, 1]⟩ w) (x0 : (⟨2, ![N, H]⟩ : Shape).Idx → EReal) (u : (⟨2, ![E, H]⟩ : Shape).Idx → EReal)
    (n : Fin N) (h : Fin H) :
    Ideal.hostScatterAdd (dims2 N E H wf) x0 idx u (ix2 n h)
      = x0 (ix2 n h) + ∑ e : Fin E, if (idx (ix2 e 0)).toInt = (n.val : Int) then u (ix2 e h) else 0 := by
  unfold Ideal.hostScatterAdd
  show x0 (ix2 n h) + _ = x0 (ix2 n h) + _
  congr 1
  rw [Finset.sum_filter, sum_idx2]
  refine Finset.sum_congr rfl fun e _ => ?_
  by_cases hde : (idx (ix2 e 0)).toInt = (n.val : Int)
  · rw [if_pos hde, Finset.sum_eq_single h]
    · exact if_pos ((res2_iff wf idx (ix2 e h) n h).mpr ⟨hde, rfl⟩)
    · intro c' _ hne
      refine if_neg fun hh => hne (Fin.ext ((res2_iff wf idx (ix2 e c') n h).mp hh).2)
    · intro hh; exact absurd (Finset.mem_univ _) hh
  · rw [if_neg hde]
    refine Finset.sum_eq_zero fun c' _ => if_neg fun hh => hde ((res2_iff wf idx (ix2 e c') n h).mp hh).1
end ScatterRows

/-- The host's accumulating scatter at the ideal instance is the exact sum. -/
theorem hostScatterAdd_eq {s si u : Shape} {w : Nat} {φ : FTy} (d : ScatterDims s si u) (x0 : FVec Ideal s φ)
    (idx : IVec si w) (upd : FVec Ideal u φ) :
    Host.scatterAdd (F := Ideal) d x0 idx upd = Ideal.hostScatterAdd d x0 idx upd := rfl

/-! ## The edge array's two rows as the reference reads them -/

section Edges
variable (x : (⟨S100000x64, .f32⟩ : BufTy).Contents (Elt Ideal)) (ei : (⟨S2x1600000, .i32⟩ : BufTy).Contents (Elt Ideal))

/-- The scatter's index column at edge e is the edge's destination word. -/
theorem dst_word (e : Fin 1600000) : val_main_v12 (F := Ideal) ei (ix2 e (0 : Fin 1)) = Cert.Spec.dst ei e := by
  rw [val_main_v12_apply, val_main_v3_apply, val_main_v2_apply]
  refine congrArg ei (funext fun a => Fin.ext ?_)
  match a with
  | ⟨0, _⟩ => rfl
  | ⟨1, _⟩ => exact Nat.mod_eq_of_lt e.isLt

/-- Row 0 of the edge array, flattened, at edge e is the edge's source word. -/
theorem src_row (e : Fin 1600000) : val_main_v1 (F := Ideal) ei (ix1 e) = Cert.Spec.src ei e := by
  rw [val_main_v1_apply, val_main_v0_apply]
  refine congrArg ei (funext fun a => Fin.ext ?_)
  match a with
  | ⟨0, _⟩ => rfl
  | ⟨1, _⟩ => exact Nat.mod_eq_of_lt e.isLt

/-- The gather's start-index column at edge e is the edge's source word: the normalisation of negative indices
    does nothing to a node number. -/
theorem src_word (hr : Cert.Spec.InRange ei) (e : Fin 1600000) :
    val_main_v9 (F := Ideal) ei (ix2 e (0 : Fin 1)) = Cert.Spec.src ei e := by
  have hi : idx_main_v9 (ix2 e (0 : Fin 1)) = ix1 e := funext fun a => Fin.ext (by match a with | ⟨0, _⟩ => rfl)
  rw [val_main_v9_apply, hi, val_main_v8_apply, val_main_v5_apply, val_main_v7_apply, val_main_v4_apply, val_main_c_apply,
    val_main_v6_apply, val_main_c_0_apply, src_row]
  exact wrap_of_lt (hr _)

/-- The destination word read signed is the node number. -/
theorem dst_toInt (hr : Cert.Spec.InRange ei) (e : Fin 1600000) :
    (val_main_v12 (F := Ideal) ei (ix2 e (0 : Fin 1))).toInt = ((Cert.Spec.dst ei e).toNat : Int) := by
  have h : (Cert.Spec.dst ei e).toNat < 100000 := hr _
  rw [dst_word, toInt_of_lt h]

/-- The gathered rows: at (e, c) the features of edge e's source node at c. -/
theorem gather_at (hr : Cert.Spec.InRange ei) (e : Fin 1600000) (c : Fin 64) :
    val_main_v10 (F := Ideal) x ei (ix2 e c) = x (ix2 (Cert.Spec.node (Cert.Spec.src ei e)) c) := by
  have hd : gather_S100000x64_S1600000x1_S1600000x64_1_0_n_n_0_1_164
      = rowsDims 100000 1600000 64 gather_S100000x64_S1600000x1_S1600000x64_1_0_n_n_0_1_164_wf := rfl
  unfold val_main_v10
  rw [hd, gather_rows_apply _ _ (by norm_num)]
  refine congrArg (fun r => x (ix2 r c)) (Fin.ext ?_)
  show min (val_main_v9 (F := Ideal) ei (ix2 e (0 : Fin 1))).toInt.toNat (100000 - 1) = (Cert.Spec.src ei e).toNat % 100000
  have h : (Cert.Spec.src ei e).toNat < 100000 := hr _
  rw [src_word ei hr, clamp_of_lt h, Nat.mod_eq_of_lt h]

/-- The scatter's operand is zero everywhere. -/
theorem zero_at (i : S100000x64.Idx) : val_main_v11 (F := Ideal) i = 0 := by
  rw [val_main_v11_apply, val_main_cst_apply, Ideal.ofBits_def, Ideal.ofBits_zero_f32]

/-- THE AGGREGATE: the accumulating scatter of the gathered rows into zeros reads, at (r, c), the sum over the edges
    into r of the source node's feature c. -/
theorem agg_at (hr : Cert.Spec.InRange ei) (r : Fin 100000) (c : Fin 64) :
    val_main_v13 (F := Ideal) x ei (ix2 r c) = Cert.Spec.aggAt x ei r c := by
  have hd : scatter_S100000x64_S1600000x1_S1600000x64_1_0_0_1
      = Cert.Lib.ScatterUnit.dims2 100000 1600000 64 scatter_S100000x64_S1600000x1_S1600000x64_1_0_0_1_wf := rfl
  unfold val_main_v13
  rw [hostScatterAdd_eq, hd, scatter_rows_apply, zero_at, zero_add]
  unfold Cert.Spec.aggAt
  rw [Finset.sum_filter]
  refine Finset.sum_congr rfl fun e _ => ?_
  rw [dst_toInt ei hr, gather_at x ei hr]
  by_cases hde : (Cert.Spec.dst ei e).toNat = r.val
  · rw [if_pos hde, if_pos (congrArg Nat.cast hde)]
  · rw [if_neg hde, if_neg (fun h => hde (Int.ofNat_inj.mp h))]
end Edges

/-! ## The perceptron on top of the aggregate -/

section Layers
variable (x : (⟨S100000x64, .f32⟩ : BufTy).Contents (Elt Ideal)) (ei : (⟨S2x1600000, .i32⟩ : BufTy).Contents (Elt Ideal))
  (W1 : (⟨S64x64, .f32⟩ : BufTy).Contents (Elt Ideal)) (b1 : (⟨S64, .f32⟩ : BufTy).Contents (Elt Ideal))
  (W2 : (⟨S64x64, .f32⟩ : BufTy).Contents (Elt Ideal)) (b2 : (⟨S64, .f32⟩ : BufTy).Contents (Elt Ideal))
  (alpha : (⟨S1, .f32⟩ : BufTy).Contents (Elt Ideal))

/-- The hidden row: the node's own features plus its aggregate. -/
theorem hid_at (hr : Cert.Spec.InRange ei) (r : Fin 100000) (j : Fin 64) :
    val_main_v14 (F := Ideal) x ei (ix2 r j) = Cert.Spec.hid x ei r j := by
  rw [val_main_v14_apply, agg_at x ei hr, Ideal.addf_def]
  rfl

/-- A bias broadcast over the rows reads the bias at the column. -/
theorem bias1_at (r : Fin 100000) (k : Fin 64) : val_main_v17 (F := Ideal) b1 (ix2 r k) = b1 (ix1 k) := by
  rw [val_main_v17_apply, val_main_v16_apply]
  exact congrArg b1 (funext fun a => Fin.ext (by match a with | ⟨0, _⟩ => rfl))

theorem bias2_at (r : Fin 100000) (k : Fin 64) : val_main_v22 (F := Ideal) b2 (ix2 r k) = b2 (ix1 k) := by
  rw [val_main_v22_apply, val_main_v21_apply]
  exact congrArg b2 (funext fun a => Fin.ext (by match a with | ⟨0, _⟩ => rfl))

/-- The first affine layer at (r, k). -/
theorem lin1_at (hr : Cert.Spec.InRange ei) (r : Fin 100000) (k : Fin 64) :
    val_main_v18 (F := Ideal) x ei W1 b1 (ix2 r k) = Cert.Spec.lin (Cert.Spec.hid x ei r) W1 b1 k := by
  have hl : ∀ j : Fin 64, lidx_main_v15 (ix2 r k) j = ix2 r j := fun j =>
    funext fun a => Fin.ext (by match a with | ⟨0, _⟩ => rfl | ⟨1, _⟩ => rfl)
  have hrr : ∀ j : Fin 64, ridx_main_v15 (ix2 r k) j = ix2 j k := fun j =>
    funext fun a => Fin.ext (by match a with | ⟨0, _⟩ => rfl | ⟨1, _⟩ => rfl)
  rw [val_main_v18_apply, val_main_v15_apply, bias1_at, Ideal.addf_def]
  unfold Cert.Spec.lin
  congr 1
  refine Finset.sum_congr rfl fun j _ => ?_
  rw [hl j, hrr j, hid_at x ei hr]

/-- The rectified first layer at (r, k). -/
theorem act_at (hr : Cert.Spec.InRange ei) (r : Fin 100000) (k : Fin 64) :
    val_main_v19 (F := Ideal) x ei W1 b1 (ix2 r k) = Cert.Spec.act x ei W1 b1 r k := by
  rw [val_main_v19_apply, lin1_at x ei W1 b1 hr, val_main_call0_v0_apply, val_main_call0_cst_apply, Ideal.ofBits_def,
    Ideal.ofBits_zero_f32, Ideal.maximumf_def]
  rfl

/-- The second affine layer at (r, c). -/
theorem lin2_at (hr : Cert.Spec.InRange ei) (r : Fin 100000) (c : Fin 64) :
    val_main_v23 (F := Ideal) x ei W1 b1 W2 b2 (ix2 r c) = Cert.Spec.lin (Cert.Spec.act x ei W1 b1 r) W2 b2 c := by
  have hl : ∀ j : Fin 64, lidx_main_v20 (ix2 r c) j = ix2 r j := fun j =>
    funext fun a => Fin.ext (by match a with | ⟨0, _⟩ => rfl | ⟨1, _⟩ => rfl)
  have hrr : ∀ j : Fin 64, ridx_main_v20 (ix2 r c) j = ix2 j c := fun j =>
    funext fun a => Fin.ext (by match a with | ⟨0, _⟩ => rfl | ⟨1, _⟩ => rfl)
  rw [val_main_v23_apply, val_main_v20_apply, bias2_at, Ideal.addf_def]
  unfold Cert.Spec.lin
  congr 1
  refine Finset.sum_congr rfl fun j _ => ?_
  rw [hl j, hrr j, act_at x ei W1 b1 hr]

/-- The gate broadcast over the whole result. -/
theorem gate_bcast_at (i : S100000x64.Idx) : val_main_v31 (F := Ideal) alpha i = Cert.Spec.gate alpha := by
  rw [val_main_v31_apply, val_main_v30_apply, gate_at]

/-- THE RESULT at (r, c). -/
theorem out_at (hr : Cert.Spec.InRange ei) (r : Fin 100000) (c : Fin 64) :
    val_main_v32 (F := Ideal) x ei W1 b1 W2 b2 alpha (ix2 r c) = Cert.Spec.outAt x ei W1 b1 W2 b2 alpha r c := by
  rw [val_main_v32_apply, gate_bcast_at, lin2_at x ei W1 b1 W2 b2 hr, Ideal.mulf_def]
  rfl

/-- The reference's first result is the specification's result array. -/
theorem refOut_eq (hr : Cert.Spec.InRange ei) :
    val_main_v32 (F := Ideal) x ei W1 b1 W2 b2 alpha = Cert.Spec.outArr x ei W1 b1 W2 b2 alpha := by
  funext i
  obtain ⟨r, c, rfl⟩ : ∃ (r : Fin 100000) (c : Fin 64), i = ix2 r c := ⟨i 0, i 1, eq_ix2 i⟩
  rw [Cert.Spec.outArr_ix2]
  exact out_at x ei W1 b1 W2 b2 alpha hr r c
end Layers

/-! ## The reference's run -/

/-- THE REFERENCE'S RUN AT THE IDEAL INSTANCE. From any memory whose edge array holds node numbers only, every weakly
    fair execution of the reference terminates with its first result the specification's result array and its second the
    gate array, both of the arguments' launch contents, and the arguments unchanged. -/
theorem ref_run [Cert.ReferenceIdeal.Facts] (m' : (ℓ : Loc nD τ sig) → Buf (Elt Ideal) ℓ) (ρ' : Dev nD → PrngReg)
    (hr : ∀ c : Dev nD, Cert.Spec.InRange (m' ((c.tc : Thread nD τ).loc main_arg1))) :
    θ_run (defs (F := Ideal)) (onTc (τ := τ) (main (F := Ideal))) ⟨m', fun _ => 0, ρ'⟩ (fun r => ∀ c : Dev nD,
      r.2.mem ((c.tc : Thread nD τ).loc main_v32) = Cert.Spec.outArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_v29) = Cert.Spec.gateArr (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run _ _ _).mono (fun _ h c =>
      ⟨(h c).1.trans ((val_main_v32_eq _ _ _ _ _ _ _).trans (refOut_eq _ _ _ _ _ _ _ (hr c))),
        (h c).2.1.trans (refGate_eq _), (h c).2.2⟩)
    (Cert.ReferenceIdeal.Value.run (F := Ideal) m' ρ')

end Cert.Proof.RefValue
end
-- ==== Proof.PreRange.lean ====
/-
  The precondition's range conjuncts, read back. The printed precondition is a chain of one-bit "and"s over eight
  reductions; its last two are the reductions by "and", over every word of the edge array, of the signed comparisons
  "word ≥ 0" and "word < 100000". If the whole chain is 1, each of the two reductions is 1, so each comparison is 1 at
  every index. A 32-bit word that is not negative and is below 100000 when read signed has the same value read
  unsigned, so its unsigned value is below 100000: every word of the edge array is a node number. The float
  conjuncts are not used, so the statement holds over any float instance.
-/
import proofs.«407827_j64682207478383_2_alg».proof.Pre_finite_inputs
import proofs.«407827_j64682207478383_2_alg».proof.Proof.Gen.Pre_finite_inputs
import proofs.«407827_j64682207478383_2_alg».proof.Proof.Spec
import proofs.«407827_j64682207478383_2_alg».proof.Proof.LibAllOnes
import Idealize.ShloMosaic.Lib.ReduceAll
import Idealize.ShloMosaic.Lib.StableHlo.Predicate
import Idealize.ShloMosaic.Lib.ValueIdx

namespace Cert.Proof.PreRange

open Idealize.ShloMosaic Cert.Pre_finite_inputs

/-- The scalar shape has one index. -/
instance : Subsingleton S_.Idx := ⟨fun a b => funext fun d => d.elim0⟩

/-- A 32-bit word that is at least 0 and below 100000 as a signed number is below 100000 as an unsigned one: a word
    whose top bit is set reads negative, so the first comparison rules it out, and the others read the same both ways. -/
theorem toNat_lt_of_signed_range {w : BitVec 32} (h0 : IntOp.cmpi .sge w 0#32 = 1#1)
    (h1 : IntOp.cmpi .slt w 100000#32 = 1#1) : w.toNat < 100000 := by
  rw [IntOp.cmpi_sge] at h0
  rw [IntOp.cmpi_slt] at h1
  have z : (0#32 : BitVec 32).toInt = 0 := by decide
  have c : (100000#32 : BitVec 32).toInt = 100000 := by decide
  rw [z] at h0
  rw [c] at h1
  have hw := w.isLt
  have e := BitVec.toInt_eq_toNat_cond w
  split at e <;> omega

section

variable {F : FTy → Type} [FloatOps F] [hP : Facts]
  (a0 : FVec F S100000x64 .f32) (a1 : IVec S2x1600000 32) (a2 : FVec F S64x64 .f32) (a3 : FVec F S64 .f32)
  (a4 : FVec F S64x64 .f32) (a5 : FVec F S64 .f32) (a6 : FVec F S1 .f32)

/-- Under the precondition both signed comparisons hold at every index of the edge array: the precondition at its one
    index is the "and" chain, whose last two members are the two reductions; a reduction by "and" that is 1 had a 1 at
    every element; and the compared constant, a scalar broadcast, reads as itself at every index. -/
theorem cmp_of_pre (h : fn (F := F) a0 a1 a2 a3 a4 a5 a6 = fun _ => 1#1) (i : S2x1600000.Idx) :
    IntOp.cmpi .sge (a1 i) 0#32 = 1#1 ∧ IntOp.cmpi .slt (a1 i) 100000#32 = 1#1 := by
  have h0 := congrFun h ValueIdx.ix0
  simp only [fn, fn_part1, fn_part2, andi, IntOp.andi_eq_one] at h0
  obtain ⟨⟨_, h31⟩, h35⟩ := h0
  have b0 : broadcastInDim S2x1600000 ![] Facts.bcast_S_S2x1600000 (constantI S_ 32 0#32) i = 0#32 :=
    (StableHlo.Predicate.bcast_scalar Facts.bcast_S_S2x1600000 Facts.h_S_ (constantI S_ 32 0#32) i).trans rfl
  have b1 : broadcastInDim S2x1600000 ![] Facts.bcast_S_S2x1600000 (constantI S_ 32 100000#32) i = 100000#32 :=
    (StableHlo.Predicate.bcast_scalar Facts.bcast_S_S2x1600000 Facts.h_S_ (constantI S_ 32 100000#32) i).trans rfl
  have s : IntOp.cmpi .sge (a1 i) (broadcastInDim S2x1600000 ![] Facts.bcast_S_S2x1600000 (constantI S_ 32 0#32) i) = 1#1 :=
    Host.reduce_andi_all _ _ _ _ _ h31 i
  have l : IntOp.cmpi .slt (a1 i) (broadcastInDim S2x1600000 ![] Facts.bcast_S_S2x1600000 (constantI S_ 32 100000#32) i) = 1#1 :=
    Host.reduce_andi_all _ _ _ _ _ h35 i
  rw [b0] at s
  rw [b1] at l
  exact ⟨s, l⟩

/-- Every word of the edge array is not negative. -/
theorem sge_of_pre (h : fn (F := F) a0 a1 a2 a3 a4 a5 a6 = fun _ => 1#1) :
    ∀ i, IntOp.cmpi .sge (a1 i) 0#32 = 1#1 :=
  fun i => (cmp_of_pre a0 a1 a2 a3 a4 a5 a6 h i).1

/-- Every word of the edge array is below 100000, read signed. -/
theorem slt_of_pre (h : fn (F := F) a0 a1 a2 a3 a4 a5 a6 = fun _ => 1#1) :
    ∀ i, IntOp.cmpi .slt (a1 i) 100000#32 = 1#1 :=
  fun i => (cmp_of_pre a0 a1 a2 a3 a4 a5 a6 h i).2

/-- The precondition makes every word of the edge array a node number. -/
theorem inRange_of_pre (h : fn (F := F) a0 a1 a2 a3 a4 a5 a6 = fun _ => 1#1) : Cert.Spec.InRange a1 :=
  fun i => toNat_lt_of_signed_range (sge_of_pre a0 a1 a2 a3 a4 a5 a6 h i) (slt_of_pre a0 a1 a2 a3 a4 a5 a6 h i)

end

end Cert.Proof.PreRange
-- ==== Proof.SpecOut.lean ====
/-
  The layer's result as a function of the hidden rows.

  The specification's result at (node, feature) uses the features and the edges only through the hidden rows
  (the node's own row plus its aggregate). `outOf` is that result with the hidden rows as an argument: the gate times
  the second affine layer of the rectified first affine layer of the node's hidden row. With the specification's own
  hidden rows it is the specification's result, by definition.
-/
import proofs.«407827_j64682207478383_2_alg».proof.Proof.Spec

noncomputable section

open scoped BigOperators

namespace Cert.Spec

open Idealize.ShloMosaic Idealize.ShloMosaic.ValueIdx

/-- The layer's result at (node, feature) from the hidden rows `h`. -/
def outOf (h : Fin 100000 → Fin 64 → EReal) (W1 : SW.Idx → EReal) (b1 : SB.Idx → EReal) (W2 : SW.Idx → EReal)
    (b2 : SB.Idx → EReal) (alpha : SA.Idx → EReal) (r : Fin 100000) (c : Fin 64) : EReal :=
  gate alpha * lin (fun k => max (lin (h r) W1 b1 k) 0) W2 b2 c

/-- The specification's result is `outOf` at the specification's hidden rows. -/
theorem outAt_eq_outOf (x : SX.Idx → EReal) (ei : SE.Idx → BitVec 32) (W1 : SW.Idx → EReal) (b1 : SB.Idx → EReal)
    (W2 : SW.Idx → EReal) (b2 : SB.Idx → EReal) (alpha : SA.Idx → EReal) (r : Fin 100000) (c : Fin 64) :
    outAt x ei W1 b1 W2 b2 alpha r c = outOf (hid x ei) W1 b1 W2 b2 alpha r c := rfl

end Cert.Spec

end
-- ==== Proof.KernelIdealOutValue.lean ====
/-
  The last grid point's results, read at an index, over the extended reals.

  At the last point the kernel computes the gate and, tile by tile (twenty tiles of 5000 rows), the perceptron of the
  hidden rows it holds — the resident copy of x plus the aggregate its loop left —, stores each tile whole into the
  tile buffer and copies it out into its rows of the result array. Here:

  * every tile's stored payload is ONE term, `tileOf`, at that tile's loads (`pay_tile_1` … `pay_tile_20`: the body
    is printed in positional parts, so the same operations appear under different names);
  * `tileOf` at (p, q) is `gate * (Σ_k max(Σ_j (x + agg)[p, j] W1[j, k] + b1[k], 0) W2[k, q] + b2[q])` (`tileOf_apply`:
    the matrix unit's product into a zero accumulator is the plain sum over the contracted axis; a bias row broadcast
    over the rows reads the bias at the column);
  * a tile's loads read the staged arrays at the tile's rows (`rows_at`, `w_at`, `b_at`), and the gate scalar is the
    logistic function of the staged parameter (`gate_scalar`), so the tile that starts at row o is, at its own index,
    the specification's result at the index it lands on (`tile_piece`);
  * what a transfer reads off the tile buffer right after a store of the whole tile is that store's payload
    (`tile_read_last`), and the twenty pieces tile the rows (`RowBlocks.cover`), so the result array reads, at every
    index, the specification's result from the hidden rows the kernel holds (`out_read`);
  * the gate's staging buffer reads the gate (`gate_read`).
-/
import proofs.«407827_j64682207478383_2_alg».proof.Proof.KernelIdealKinds
import proofs.«407827_j64682207478383_2_alg».proof.Proof.SpecOut
import Idealize.ShloMosaic.Lib.IdealHost
import Idealize.ShloMosaic.Lib.ValueLayout
import Idealize.ShloMosaic.Lib.Pipeline.Value
import Idealize.ShloMosaic.PureOps.Ideal.Laws

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators

/-! ## The tile arithmetic -/

section Tile

/-- ONE TILE of the perceptron: from the tile's rows of x and of the aggregate, the two weight matrices, the two
    biases and the gate scalar, the 5000 x 64 block `gate * (max((x + agg) W1 + b1, 0) W2 + b2)`, spelt with the
    kernel's own operations. Every tile the last point stores is this term at that tile's loads. -/
def tileOf {F : FTy → Type} [FloatOps F] (g : F .f32) (xr ar : Vec F S5000x64 .f32) (w1 : Vec F S64x64 .f32) (b1 : Vec F S64 .f32)
    (w2 : Vec F S64x64 .f32) (b2 : Vec F S64 .f32) : FVec F S5000x64 .f32 :=
  shapeCast S5000x64
    (mulf (broadcast S5000x64 g)
      (addf
        (matmul dot_S5000x64_S64x64_S5000x64_1_0_0_1_n_n none
          (maximumf
            (addf (matmul dot_S5000x64_S64x64_S5000x64_1_0_0_1_n_n none (addf xr ar) w1 (constant S5000x64 .f32 0x00000000#32))
              (broadcastTo S5000x64 (shapeCast S1x64 b1 shapeCasts_S64_S1x64) broadcasts_S1x64_S5000x64))
            (broadcast S5000x64 (Scalar.ofBits .f32 0x00000000#32)))
          w2 (constant S5000x64 .f32 0x00000000#32))
        (broadcastTo S5000x64 (shapeCast S1x64 b2 shapeCasts_S64_S1x64) broadcasts_S1x64_S5000x64)))
    shapeCasts_S5000x64_S5000x64

section Payloads
variable {F : FTy → Type} [FloatOps F] (g : F .f32) (v7 : Vec F S1 .f32) (xr ar : Vec F S5000x64 .f32) (w1 : Vec F S64x64 .f32) (b1 : Vec F S64 .f32)
  (w2 : Vec F S64x64 .f32) (b2 : Vec F S64 .f32)

/-! Each of the twenty tile stores' payloads is the one tile term at its loads: the printed body is cut into
    positional parts, so the tiles' payloads carry different names and pass partial results along, but each composes
    to the same operations in the same order. -/
theorem pay_tile_1 : k0_pay15 v7 xr ar w1 b1 w2 b2 = tileOf (k0_pay14 v7) xr ar w1 b1 w2 b2 := rfl
theorem pay_tile_2 : k0_pay17 g (k0_pay16 xr ar) w1 b1 w2 b2 = tileOf g xr ar w1 b1 w2 b2 := rfl
theorem pay_tile_3 : k0_pay19 g (k0_pay18 xr ar w1 b1) w2 b2 = tileOf g xr ar w1 b1 w2 b2 := rfl
theorem pay_tile_4 : k0_pay21 (k0_pay20 g xr ar w1 b1 w2 b2) = tileOf g xr ar w1 b1 w2 b2 := rfl
theorem pay_tile_5 : k0_pay22 g xr ar w1 b1 w2 b2 = tileOf g xr ar w1 b1 w2 b2 := rfl
theorem pay_tile_6 : k0_pay23 g xr ar w1 b1 w2 b2 = tileOf g xr ar w1 b1 w2 b2 := rfl
theorem pay_tile_7 : k0_pay25 g (k0_pay24 xr ar w1 b1) w2 b2 = tileOf g xr ar w1 b1 w2 b2 := rfl
theorem pay_tile_8 : k0_pay28 (k0_pay26 xr ar w1 b1 w2 b2) (k0_pay27 g) = tileOf g xr ar w1 b1 w2 b2 := rfl
theorem pay_tile_9 : k0_pay29 g xr ar w1 b1 w2 b2 = tileOf g xr ar w1 b1 w2 b2 := rfl
theorem pay_tile_10 : k0_pay30 g xr ar w1 b1 w2 b2 = tileOf g xr ar w1 b1 w2 b2 := rfl
theorem pay_tile_11 : k0_pay32 g (k0_pay31 xr ar w1) b1 w2 b2 = tileOf g xr ar w1 b1 w2 b2 := rfl
theorem pay_tile_12 : k0_pay34 g (k0_pay33 xr ar w1 b1 w2) b2 = tileOf g xr ar w1 b1 w2 b2 := rfl
theorem pay_tile_13 : k0_pay35 g xr ar w1 b1 w2 b2 = tileOf g xr ar w1 b1 w2 b2 := rfl
theorem pay_tile_14 : k0_pay36 g xr ar w1 b1 w2 b2 = tileOf g xr ar w1 b1 w2 b2 := rfl
theorem pay_tile_15 : k0_pay38 g (k0_pay37 xr ar) w1 b1 w2 b2 = tileOf g xr ar w1 b1 w2 b2 := rfl
theorem pay_tile_16 : k0_pay40 g (k0_pay39 xr ar w1 b1) w2 b2 = tileOf g xr ar w1 b1 w2 b2 := rfl
theorem pay_tile_17 : k0_pay41 g xr ar w1 b1 w2 b2 = tileOf g xr ar w1 b1 w2 b2 := rfl
theorem pay_tile_18 : k0_pay42 g xr ar w1 b1 w2 b2 = tileOf g xr ar w1 b1 w2 b2 := rfl
theorem pay_tile_19 : k0_pay43 g xr ar w1 b1 w2 b2 = tileOf g xr ar w1 b1 w2 b2 := rfl
theorem pay_tile_20 : k0_pay3 g (k0_pay44 xr ar w1 b1) k0_pay45 w2 b2 = tileOf g xr ar w1 b1 w2 b2 := rfl
end Payloads

theorem lhs_tile_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_tile_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_tile_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_tile_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix unit's product into a zero accumulator, read at (p, q): the row of the left operand against the column
    of the right. -/
theorem mm_apply (lhs : FVec Ideal S5000x64 .f32) (rhs : FVec Ideal S64x64 .f32) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  show FloatOps.matmul dot_S5000x64_S64x64_S5000x64_1_0_0_1_n_n none lhs rhs (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [el, er]

/-- A bias row broadcast over the tile's rows reads the bias at the column. -/
theorem bias_apply (b : FVec Ideal S64 .f32) (p : Fin 5000) (q : Fin 64) :
    broadcastTo S5000x64 (shapeCast S1x64 b shapeCasts_S64_S1x64) broadcasts_S1x64_S5000x64 (ix2 p q) = b (ix1 q) := by
  rw [broadcastTo_apply _ broadcasts_S1x64_S5000x64 (ix2 p q) (ix2 (0 : Fin 1) q) (fun a => by
    match a with
    | ⟨0, _⟩ => rfl
    | ⟨1, _⟩ => rfl)]
  exact shapeCast_a_1a_apply b shapeCasts_S64_S1x64 (0 : Fin 1) q

/-- THE TILE AT (p, q), over the extended reals. -/
theorem tileOf_apply (g : Ideal .f32) (xr ar : Vec Ideal S5000x64 .f32) (w1 : Vec Ideal S64x64 .f32) (b1 : Vec Ideal S64 .f32)
    (w2 : Vec Ideal S64x64 .f32) (b2 : Vec Ideal S64 .f32) (p : Fin 5000) (q : Fin 64) :
    tileOf (F := Ideal) g xr ar w1 b1 w2 b2 (ix2 p q)
      = g * ((∑ k : Fin 64, max ((∑ j : Fin 64, (xr (ix2 p j) + ar (ix2 p j)) * w1 (ix2 j k)) + b1 (ix1 k)) 0 * w2 (ix2 k q))
          + b2 (ix1 q)) := by
  unfold tileOf
  rw [shapeCast_self, mulf_apply, broadcast_apply, addf_apply, mm_apply, bias_apply]
  refine congrArg (fun s => g * (s + b2 (ix1 q))) (Finset.sum_congr rfl fun k _ => ?_)
  rw [maximumf_apply, addf_apply, mm_apply, bias_apply, broadcast_apply]
  show max _ (Ideal.ofBits .f32 0x00000000#32) * _ = _
  rw [Ideal.ofBits_zero_f32]
  rfl
end Tile

/-! ## Reading the staged arrays and the tile buffer -/

/-- The resident copy of x, the aggregate, the tile buffer and the result array, whole. -/
abbrev xRes : Memref sig .tc .vmem S100000x64 .f32 := Memref.whole cc0_scratch0
abbrev aggRes : Memref sig .tc .vmem S100000x64 .f32 := Memref.whole cc0_scratch1
abbrev tileBuf : Memref sig .tc .vmem S5000x64 .f32 := Memref.whole cc0_scratch2
abbrev resArr : Memref sig .tc .hbm S100000x64 .f32 := Memref.whole main_v4_0

/-- The tile's whole rectangle places an index at itself. -/
theorem emb_tile_whole (x : S5000x64.Idx) :
    (Rect.unit (s := S5000x64) ![0, 0] S5000x64.size inb_S5000x64_S5000x64_0_0).emb x = x :=
  funext fun a => Fin.ext (by
    match a with
    | ⟨0, _⟩ => show 0 + 1 * (x 0).val = (x 0).val; omega
    | ⟨1, _⟩ => show 0 + 1 * (x 1).val = (x 1).val; omega)

/-- What a transfer reads off the tile buffer right after a store of the whole tile is that store's payload. -/
theorem tile_read_last {F : FTy → Type} (T : BufTy.Contents (Elt F) tileBuf.view.ty)
    (w : (Rect.unit (s := S5000x64) ![0, 0] S5000x64.size inb_S5000x64_S5000x64_0_0).shape.Idx → Elt F .f32)
    (L : List (View.Piece (Elt F) S5000x64 .f32)) (x : S5000x64.Idx) :
    tileBuf.view.read (Elt F) (tileBuf.view.writes (Elt F) T
        (⟨Rect.unit (s := S5000x64) ![0, 0] S5000x64.size inb_S5000x64_S5000x64_0_0, w⟩ :: L)) x = w x := by
  have h := View.read_writes_cons_emb tileBuf.view T
    (Rect.unit (s := S5000x64) ![0, 0] S5000x64.size inb_S5000x64_S5000x64_0_0) w L x
  rwa [emb_tile_whole] at h

section Reads
variable (arg4 : Memref sig .tc .vmem S64x64 .f32) (arg5 : Memref sig .tc .vmem S64 .f32) (arg6 : Memref sig .tc .vmem S64x64 .f32)
  (arg7 : Memref sig .tc .vmem S64 .f32) (arg8 : Memref sig .tc .vmem S1 .f32)
  (X4 : BufTy.Contents (Elt Ideal) arg4.view.ty) (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty)
  (X11 : BufTy.Contents (Elt Ideal) xRes.view.ty) (A12 : BufTy.Contents (Elt Ideal) aggRes.view.ty)

/-- The gate scalar the tiles are multiplied by is the specification's gate of the staged parameter. -/
theorem gate_scalar :
    k0_pay14 (View.readAt (Elt Ideal) arg8.view (Rect.unit (s := S1) ![0] S1.size inb_S1_S1_0).toLoadRect X8)
      = Cert.Spec.gate (arg8.view.read (Elt Ideal) X8) := by
  have hi : (Rect.unit (s := S1) ![0] S1.size inb_S1_S1_0).toLoadRect.idx (fun a => ⟨(![0] : Fin 1 → ℕ) a, inpos_S1_p0 a⟩)
      = ix1 (0 : Fin 1) := funext fun a => Fin.ext (by match a with | ⟨0, _⟩ => rfl)
  unfold k0_pay14 k0_pay13 extractAt Cert.Spec.gate
  show Ideal.logistic (arg8.view.read (Elt Ideal) X8 ((Rect.unit (s := S1) ![0] S1.size inb_S1_S1_0).toLoadRect.idx
    (fun a => ⟨(![0] : Fin 1 → ℕ) a, inpos_S1_p0 a⟩))) = _
  rw [hi]

/-- A whole 64 x 64 block loaded reads the staged array. -/
theorem w_at (M : Memref sig .tc .vmem S64x64 .f32) (X : BufTy.Contents (Elt Ideal) M.view.ty) (j k : Fin 64) :
    View.readAt (Elt Ideal) M.view (Rect.unit (s := S64x64) ![0, 0] S64x64.size inb_S64x64_S64x64_0_0).toLoadRect X (ix2 j k)
      = M.view.read (Elt Ideal) X (ix2 j k) :=
  congrArg (M.view.read (Elt Ideal) X) (funext fun a => Fin.ext (by
    match a with
    | ⟨0, _⟩ => show 0 + 1 * j.val = j.val; omega
    | ⟨1, _⟩ => show 0 + 1 * k.val = k.val; omega))

/-- A whole 64-vector loaded reads the staged array. -/
theorem b_at (M : Memref sig .tc .vmem S64 .f32) (X : BufTy.Contents (Elt Ideal) M.view.ty) (k : Fin 64) :
    View.readAt (Elt Ideal) M.view (Rect.unit (s := S64) ![0] S64.size inb_S64_S64_0).toLoadRect X (ix1 k)
      = M.view.read (Elt Ideal) X (ix1 k) :=
  congrArg (M.view.read (Elt Ideal) X) (funext fun a => Fin.ext (by
    match a with
    | ⟨0, _⟩ => show 0 + 1 * k.val = k.val; omega))

/-- A row of a tile that starts at row o is a row of the array. -/
theorem rows_lt {o : ℕ} (inb : ∀ a, (![o, 0] : Fin 2 → ℕ) a + S5000x64.size a ≤ S100000x64.size a) (p : Fin 5000) :
    o + p.val < 100000 := by
  have h : o + 5000 ≤ 100000 := inb 0
  omega

/-- The tile's rows loaded from row o on read the array at rows o + p. -/
theorem rows_at (M : Memref sig .tc .vmem S100000x64 .f32) (X : BufTy.Contents (Elt Ideal) M.view.ty) (o : ℕ)
    (inb : ∀ a, (![o, 0] : Fin 2 → ℕ) a + S5000x64.size a ≤ S100000x64.size a) (p : Fin 5000) (q : Fin 64) :
    View.readAt (Elt Ideal) M.view (Rect.unit (s := S100000x64) ![o, 0] S5000x64.size inb).toLoadRect X (ix2 p q)
      = M.view.read (Elt Ideal) X (ix2 (⟨o + p.val, rows_lt inb p⟩ : Fin 100000) q) :=
  congrArg (M.view.read (Elt Ideal) X) (funext fun a => Fin.ext (by
    match a with
    | ⟨0, _⟩ => show o + 1 * p.val = o + p.val; omega
    | ⟨1, _⟩ => show 0 + 1 * q.val = q.val; omega))

/-- The hidden rows the kernel holds: the resident copy of x plus the aggregate. -/
abbrev hidK : Fin 100000 → Fin 64 → EReal := fun r j =>
  xRes.view.read (Elt Ideal) X11 (ix2 r j) + aggRes.view.read (Elt Ideal) A12 (ix2 r j)

/-- The specification's result from those hidden rows and the staged parameters, as a function of the array index. -/
abbrev outG : S100000x64.Idx → EReal := fun i =>
  Cert.Spec.outOf (hidK X11 A12) (arg4.view.read (Elt Ideal) X4) (arg5.view.read (Elt Ideal) X5) (arg6.view.read (Elt Ideal) X6)
    (arg7.view.read (Elt Ideal) X7) (arg8.view.read (Elt Ideal) X8) ⟨(i 0).val, idx2_lt0 i⟩ ⟨(i 1).val, idx2_lt1 i⟩

/-- THE TILE THAT STARTS AT ROW o, at its own index x, is the specification's result at the index x lands on. -/
theorem tile_piece (o : ℕ) (inb : ∀ a, (![o, 0] : Fin 2 → ℕ) a + S5000x64.size a ≤ S100000x64.size a)
    (x : (Rect.unit (s := S100000x64) ![o, 0] S5000x64.size inb).shape.Idx) :
    tileOf (F := Ideal) (k0_pay14 (View.readAt (Elt Ideal) arg8.view (Rect.unit (s := S1) ![0] S1.size inb_S1_S1_0).toLoadRect X8))
        (View.readAt (Elt Ideal) xRes.view (Rect.unit (s := S100000x64) ![o, 0] S5000x64.size inb).toLoadRect X11)
        (View.readAt (Elt Ideal) aggRes.view (Rect.unit (s := S100000x64) ![o, 0] S5000x64.size inb).toLoadRect A12)
        (View.readAt (Elt Ideal) arg4.view (Rect.unit (s := S64x64) ![0, 0] S64x64.size inb_S64x64_S64x64_0_0).toLoadRect X4)
        (View.readAt (Elt Ideal) arg5.view (Rect.unit (s := S64) ![0] S64.size inb_S64_S64_0).toLoadRect X5)
        (View.readAt (Elt Ideal) arg6.view (Rect.unit (s := S64x64) ![0, 0] S64x64.size inb_S64x64_S64x64_0_0).toLoadRect X6)
        (View.readAt (Elt Ideal) arg7.view (Rect.unit (s := S64) ![0] S64.size inb_S64_S64_0).toLoadRect X7) x
      = outG arg4 arg5 arg6 arg7 arg8 X4 X5 X6 X7 X8 X11 A12 ((Rect.unit (s := S100000x64) ![o, 0] S5000x64.size inb).emb x) := by
  obtain ⟨p, q, rfl⟩ : ∃ (p : Fin 5000) (q : Fin 64), x = ix2 p q := ⟨x 0, x 1, eq_ix2 x⟩
  have hR : outG arg4 arg5 arg6 arg7 arg8 X4 X5 X6 X7 X8 X11 A12 ((Rect.unit (s := S100000x64) ![o, 0] S5000x64.size inb).emb (ix2 p q))
      = Cert.Spec.outOf (hidK X11 A12) (arg4.view.read (Elt Ideal) X4) (arg5.view.read (Elt Ideal) X5) (arg6.view.read (Elt Ideal) X6)
          (arg7.view.read (Elt Ideal) X7) (arg8.view.read (Elt Ideal) X8) (⟨o + p.val, rows_lt inb p⟩ : Fin 100000) q :=
    congrArg₂ (Cert.Spec.outOf (hidK X11 A12) (arg4.view.read (Elt Ideal) X4) (arg5.view.read (Elt Ideal) X5)
        (arg6.view.read (Elt Ideal) X6) (arg7.view.read (Elt Ideal) X7) (arg8.view.read (Elt Ideal) X8))
      (Fin.ext (by show o + 1 * p.val = o + p.val; omega)) (Fin.ext (by show 0 + 1 * q.val = q.val; omega))
  rw [hR, tileOf_apply, gate_scalar]
  unfold Cert.Spec.outOf Cert.Spec.lin
  rw [b_at]
  refine congrArg (fun s => Cert.Spec.gate (arg8.view.read (Elt Ideal) X8) * (s + arg7.view.read (Elt Ideal) X7 (ix1 q)))
    (Finset.sum_congr rfl fun k _ => ?_)
  rw [w_at, b_at]
  refine congrArg (fun s => max (s + arg5.view.read (Elt Ideal) X5 (ix1 k)) 0 * arg6.view.read (Elt Ideal) X6 (ix2 k q))
    (Finset.sum_congr rfl fun j _ => ?_)
  rw [rows_at, rows_at, w_at]
/-- A piece of the result: what the transfer read off the tile buffer right after the store of the tile that starts
    at row o, at its own index x, is the specification's result at the index x lands on. -/
theorem piece_ok (T : BufTy.Contents (Elt Ideal) tileBuf.view.ty)
    (w : (Rect.unit (s := S5000x64) ![0, 0] S5000x64.size inb_S5000x64_S5000x64_0_0).shape.Idx → Elt Ideal .f32)
    (L : List (View.Piece (Elt Ideal) S5000x64 .f32)) (o : ℕ)
    (inb : ∀ a, (![o, 0] : Fin 2 → ℕ) a + S5000x64.size a ≤ S100000x64.size a)
    (hw : w = tileOf (F := Ideal) (k0_pay14 (View.readAt (Elt Ideal) arg8.view (Rect.unit (s := S1) ![0] S1.size inb_S1_S1_0).toLoadRect X8))
        (View.readAt (Elt Ideal) xRes.view (Rect.unit (s := S100000x64) ![o, 0] S5000x64.size inb).toLoadRect X11)
        (View.readAt (Elt Ideal) aggRes.view (Rect.unit (s := S100000x64) ![o, 0] S5000x64.size inb).toLoadRect A12)
        (View.readAt (Elt Ideal) arg4.view (Rect.unit (s := S64x64) ![0, 0] S64x64.size inb_S64x64_S64x64_0_0).toLoadRect X4)
        (View.readAt (Elt Ideal) arg5.view (Rect.unit (s := S64) ![0] S64.size inb_S64_S64_0).toLoadRect X5)
        (View.readAt (Elt Ideal) arg6.view (Rect.unit (s := S64x64) ![0, 0] S64x64.size inb_S64x64_S64x64_0_0).toLoadRect X6)
        (View.readAt (Elt Ideal) arg7.view (Rect.unit (s := S64) ![0] S64.size inb_S64_S64_0).toLoadRect X7))
    (x : (Rect.unit (s := S100000x64) ![o, 0] S5000x64.size inb).shape.Idx) :
    ReadAs.same.apply (tileBuf.view.read (Elt Ideal) (tileBuf.view.writes (Elt Ideal) T (⟨(Rect.unit (s := S5000x64) ![0, 0] S5000x64.size inb_S5000x64_S5000x64_0_0), w⟩ :: L))) x
      = outG arg4 arg5 arg6 arg7 arg8 X4 X5 X6 X7 X8 X11 A12 ((Rect.unit (s := S100000x64) ![o, 0] S5000x64.size inb).emb x) := by
  subst hw
  exact (tile_read_last T _ L x).trans (tile_piece arg4 arg5 arg6 arg7 arg8 X4 X5 X6 X7 X8 X11 A12 o inb x)
end Reads

/-! ## The pieces tile the rows -/

/-- A list of pieces, newest first, that are the row blocks n - 1, …, 0 of 5000 rows each, whatever their payloads. -/
inductive RowBlocks {Val : EltTy → Type} : ℕ → List (View.Piece Val S100000x64 .f32) → Prop
  | nil : RowBlocks 0 []
  | cons {n : ℕ} {L : List (View.Piece Val S100000x64 .f32)}
      (inb : ∀ a, (![5000 * n, 0] : Fin 2 → ℕ) a + S5000x64.size a ≤ S100000x64.size a)
      (w : (Rect.unit (s := S100000x64) ![5000 * n, 0] S5000x64.size inb).shape.Idx → Val .f32) :
      RowBlocks n L → RowBlocks (n + 1) (⟨Rect.unit (s := S100000x64) ![5000 * n, 0] S5000x64.size inb, w⟩ :: L)

/-- Such a list covers every index whose row is below 5000 n: the row lies in the block of its quotient by 5000. -/
theorem RowBlocks.cover {Val : EltTy → Type} {n : ℕ} {L : List (View.Piece Val S100000x64 .f32)} (h : RowBlocks n L)
    (y : S100000x64.Idx) (hy : (y 0).val < 5000 * n) : ∃ p ∈ L, y ∈ p.1.set := by
  induction h with
  | nil => omega
  | @cons n L inb w _ ih =>
    by_cases hlt : (y 0).val < 5000 * n
    · obtain ⟨p, hp, hm⟩ := ih hlt
      exact ⟨p, List.mem_cons_of_mem _ hp, hm⟩
    · refine ⟨⟨Rect.unit (s := S100000x64) ![5000 * n, 0] S5000x64.size inb, w⟩, List.mem_cons_self,
        (Rect.mem_set_unit (inb := inb)).mpr fun a => ?_⟩
      match a with
      | ⟨0, _⟩ =>
        exact ⟨by show 5000 * n ≤ (y 0).val; omega, by show (y 0).val < 5000 * n + 5000; omega⟩
      | ⟨1, _⟩ =>
        have h1 : (y 1).val < 64 := idx2_lt1 y
        exact ⟨Nat.zero_le _, by show (y 1).val < 0 + 64; omega⟩

/-! ## The result array after the last point -/

section Main
variable (c : Dev nD) (t : Fin cfg0.N) (arg1 : Memref sig .tc .smem S512 .i32) (harg1 : arg1.IsWhole) (arg2 : Memref sig .tc .smem S512 .i32) (harg2 : arg2.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg10 : Memref sig .tc .vmem S1 .f32) (harg10 : arg10.IsWhole)

set_option hygiene false in
/-- One piece of the result: its payload, opened, is a read of the tile buffer right after the store of that tile,
    whose payload is the tile term at the tile's loads. -/
local macro "piece_step " n:ident h:ident o:num inb:ident pay:ident : tactic =>
  `(tactic| (refine List.forall_mem_cons.mpr ⟨?_, ?_⟩
             · dsimp only
               intro x
               delta $n
               delta $h
               refine (tile_read_last T13 _ _ x).trans ?_
               sl_unfold_run_names
               refine (congrFun ($pay _ _ _ _ _ _ _) x).trans ?_
               exact tile_piece arg4 arg5 arg6 arg7 arg8 X4 X5 X6 X7 X8 X11 (aggAfter (F := Ideal) c t arg1 harg1 arg2 harg2 arg4 harg4 arg5 harg5 arg6 harg6 arg7 harg7 arg8 harg8 arg10 harg10 X1 X2 X11 hX1 hX2 G12) $o $inb x))

/-- THE RESULT ARRAY AFTER THE LAST POINT, read at (r, cc): the specification's result from the hidden rows the kernel
    holds (the resident copy of x plus the aggregate after the point's loop) and the staged parameters. The twenty
    pieces tile the rows; row r lies in the piece of its block of 5000. -/
theorem out_read (hF : ¬ IsFirst t) (hL : IsLast t)
    (X1 : BufTy.Contents (Elt Ideal) arg1.view.ty) (X2 : BufTy.Contents (Elt Ideal) arg2.view.ty)
    (X4 : BufTy.Contents (Elt Ideal) arg4.view.ty) (X5 : BufTy.Contents (Elt Ideal) arg5.view.ty) (X6 : BufTy.Contents (Elt Ideal) arg6.view.ty)
    (X7 : BufTy.Contents (Elt Ideal) arg7.view.ty) (X8 : BufTy.Contents (Elt Ideal) arg8.view.ty) (D10 : BufTy.Contents (Elt Ideal) arg10.view.ty)
    (X11 : BufTy.Contents (Elt Ideal) (Memref.whole cc0_scratch0 : Memref sig .tc .vmem S100000x64 .f32).view.ty)
    (G12 : BufTy.Contents (Elt Ideal) (Memref.whole cc0_scratch1 : Memref sig .tc .vmem S100000x64 .f32).view.ty)
    (T13 : BufTy.Contents (Elt Ideal) (Memref.whole cc0_scratch2 : Memref sig .tc .vmem S5000x64 .f32).view.ty)
    (hX1 : WordsOK (F := Ideal) arg1 X1) (hX2 : WordsOK (F := Ideal) arg2 X2)
    (Yo : Bf (F := Ideal) c (Memref.whole main_v4_0 : Memref sig .tc .hbm S100000x64 .f32)) (r : Fin 100000) (cc : Fin 64) :
    (Memref.whole main_v4_0 : Memref sig .tc .hbm S100000x64 .f32).view.read (Elt Ideal)
        ((Memref.whole main_v4_0 : Memref sig .tc .hbm S100000x64 .f32).view.writes (Elt Ideal) Yo (runLast (F := Ideal) c t arg1 harg1 arg2 harg2 arg4 harg4 arg5 harg5 arg6 harg6 arg7 harg7 arg8 harg8 arg10 harg10 hF hL X1 X2 X4 X5 X6 X7 X8 D10 X11 G12 T13 hX1 hX2).1) (ix2 r cc)
      = Cert.Spec.outOf (hidK X11 (aggAfter (F := Ideal) c t arg1 harg1 arg2 harg2 arg4 harg4 arg5 harg5 arg6 harg6 arg7 harg7 arg8 harg8 arg10 harg10 X1 X2 X11 hX1 hX2 G12))
          (arg4.view.read (Elt Ideal) X4) (arg5.view.read (Elt Ideal) X5) (arg6.view.read (Elt Ideal) X6) (arg7.view.read (Elt Ideal) X7)
          (arg8.view.read (Elt Ideal) X8) r cc := by
  have hG : ∀ p ∈ (runLast (F := Ideal) c t arg1 harg1 arg2 harg2 arg4 harg4 arg5 harg5 arg6 harg6 arg7 harg7 arg8 harg8 arg10 harg10 hF hL X1 X2 X4 X5 X6 X7 X8 D10 X11 G12 T13 hX1 hX2).1, ∀ x : p.1.shape.Idx,
      p.2 x = outG arg4 arg5 arg6 arg7 arg8 X4 X5 X6 X7 X8 X11 (aggAfter (F := Ideal) c t arg1 harg1 arg2 harg2 arg4 harg4 arg5 harg5 arg6 harg6 arg7 harg7 arg8 harg8 arg10 harg10 X1 X2 X11 hX1 hX2 G12) (p.1.emb x) := by
    unfold runLast
    dsimp only
    piece_step runLast.sl.dma163 runLast.sl.H13_20 95000 inb_S100000x64_S5000x64_95000_0 pay_tile_20
    piece_step runLast.sl.dma155 runLast.sl.H13_19 90000 inb_S100000x64_S5000x64_90000_0 pay_tile_19
    piece_step runLast.sl.dma147 runLast.sl.H13_18 85000 inb_S100000x64_S5000x64_85000_0 pay_tile_18
    piece_step runLast.sl.dma139 runLast.sl.H13_17 80000 inb_S100000x64_S5000x64_80000_0 pay_tile_17
    piece_step runLast.sl.dma131 runLast.sl.H13_16 75000 inb_S100000x64_S5000x64_75000_0 pay_tile_16
    piece_step runLast.sl.dma123 runLast.sl.H13_15 70000 inb_S100000x64_S5000x64_70000_0 pay_tile_15
    piece_step runLast.sl.dma115 runLast.sl.H13_14 65000 inb_S100000x64_S5000x64_65000_0 pay_tile_14
    piece_step runLast.sl.dma107 runLast.sl.H13_13 60000 inb_S100000x64_S5000x64_60000_0 pay_tile_13
    piece_step runLast.sl.dma99 runLast.sl.H13_12 55000 inb_S100000x64_S5000x64_55000_0 pay_tile_12
    piece_step runLast.sl.dma91 runLast.sl.H13_11 50000 inb_S100000x64_S5000x64_50000_0 pay_tile_11
    piece_step runLast.sl.dma83 runLast.sl.H13_10 45000 inb_S100000x64_S5000x64_45000_0 pay_tile_10
    piece_step runLast.sl.dma75 runLast.sl.H13_9 40000 inb_S100000x64_S5000x64_40000_0 pay_tile_9
    piece_step runLast.sl.dma67 runLast.sl.H13_8 35000 inb_S100000x64_S5000x64_35000_0 pay_tile_8
    piece_step runLast.sl.dma59 runLast.sl.H13_7 30000 inb_S100000x64_S5000x64_30000_0 pay_tile_7
    piece_step runLast.sl.dma51 runLast.sl.H13_6 25000 inb_S100000x64_S5000x64_25000_0 pay_tile_6
    piece_step runLast.sl.dma43 runLast.sl.H13_5 20000 inb_S100000x64_S5000x64_20000_0 pay_tile_5
    piece_step runLast.sl.dma35 runLast.sl.H13_4 15000 inb_S100000x64_S5000x64_15000_0 pay_tile_4
    piece_step runLast.sl.dma27 runLast.sl.H13_3 10000 inb_S100000x64_S5000x64_10000_0 pay_tile_3
    piece_step runLast.sl.dma19 runLast.sl.H13_2 5000 inb_S100000x64_S5000x64_5000_0 pay_tile_2
    piece_step runLast.sl.dma11 runLast.sl.H13_1 0 inb_S100000x64_S5000x64_0_0 pay_tile_1
    exact fun p hp => absurd hp List.not_mem_nil
  have hc : ∀ y : S100000x64.Idx, ∃ p ∈ (runLast (F := Ideal) c t arg1 harg1 arg2 harg2 arg4 harg4 arg5 harg5 arg6 harg6 arg7 harg7 arg8 harg8 arg10 harg10 hF hL X1 X2 X4 X5 X6 X7 X8 D10 X11 G12 T13 hX1 hX2).1, y ∈ p.1.set := by
    unfold runLast
    dsimp only
    intro y
    refine RowBlocks.cover (n := 20) ?_ y (by have h0 : (y 0).val < 100000 := idx2_lt0 y; omega)
    iterate 20 (refine RowBlocks.cons _ _ ?_)
    exact RowBlocks.nil
  exact View.read_writes_apply_of_pieces (Memref.whole main_v4_0 : Memref sig .tc .hbm S100000x64 .f32).view Yo _ _ hG (ix2 r cc) (hc _)
end Main

section Gate
variable (arg8 : Memref sig .tc .vmem S1 .f32) (arg10 : Memref sig .tc .vmem S1 .f32)

/-- THE GATE'S STAGING BUFFER after the last point reads the logistic function of the staged parameter: its one cell
    was stored with the logistic of the parameter's one cell. -/
theorem gate_read (X8 : BufTy.Contents (Elt Ideal) arg8.view.ty) (D10 : BufTy.Contents (Elt Ideal) arg10.view.ty) :
    arg10.view.read (Elt Ideal) (gateAfter (F := Ideal) arg8 arg10 X8 D10) (ix1 (0 : Fin 1))
      = Cert.Spec.gate (arg8.view.read (Elt Ideal) X8) := by
  have he : (Rect.unit (s := S1) ![0] S1.size inb_S1_S1_0).emb (ix1 (0 : Fin 1)) = ix1 (0 : Fin 1) :=
    funext fun a => Fin.ext (by match a with | ⟨0, _⟩ => rfl)
  have he' : (Rect.unit (s := S1) ![0] S1.size inb_S1_S1_0).toLoadRect.idx (ix1 (0 : Fin 1)) = ix1 (0 : Fin 1) := he
  have h := View.read_writes_cons_emb arg10.view D10 (Rect.unit (s := S1) ![0] S1.size inb_S1_S1_0)
      (k0_pay13 (View.readAt (Elt Ideal) arg8.view (Rect.unit (s := S1) ![0] S1.size inb_S1_S1_0).toLoadRect X8)) []
      (ix1 (0 : Fin 1))
  rw [he] at h
  refine h.trans ?_
  unfold k0_pay13 Cert.Spec.gate
  show Ideal.logistic (arg8.view.read (Elt Ideal) X8 ((Rect.unit (s := S1) ![0] S1.size inb_S1_S1_0).toLoadRect.idx (ix1 (0 : Fin 1)))) = _
  rw [he']
end Gate

end Cert.Proof.KernelIdeal

end
-- ==== Proof.EdgeFold.lean ====
/-
  The aggregate built one edge at a time. Taking the edges in order, each edge (s, d) adds row s of the feature array
  into row d of the aggregate and keeps every other row. The definitions are over any float addition; a run of n + k
  edges is the run of the first n followed by the run of the next k. Over the extended reals, where addition is
  associative and commutative, the aggregate after n edges from the zero array is, at (r, c), the sum of feature c of
  the source rows over those of the first n edges whose destination is r; after all 1600000 edges of the edge array it
  is the specification's aggregate.
-/
import Idealize.ShloMosaic.PureOps.Ideal
import Idealize.ShloMosaic.Lib.ValueIdx
import proofs.«407827_j64682207478383_2_alg».proof.Proof.Spec
import Mathlib.Algebra.BigOperators.Fin

noncomputable section

open scoped BigOperators

namespace Cert.Proof.EdgeFold

open Idealize.ShloMosaic Idealize.ShloMosaic.ValueIdx Cert.Spec

section Generic

variable {F : FTy → Type} [FloatOps F]

/-- One edge: the destination row gains the source row (the aggregate's entry first, x's entry second, as the kernel
    adds them); every other row is kept. -/
def edgeStep (x a : SX.Idx → F .f32) (s d : BitVec 32) : SX.Idx → F .f32 :=
  fun y => if (y 0).val = d.toNat then FloatOps.addf (a y) (x (ix2 (Cert.Spec.node s) ⟨(y 1).val, idx2_lt1 y⟩)) else a y

/-- The aggregate after the first n edges of an enumeration sw dw : ℕ → BitVec 32, from contents z. -/
def aggSeq (x z : SX.Idx → F .f32) (sw dw : ℕ → BitVec 32) : ℕ → SX.Idx → F .f32
  | 0 => z
  | n + 1 => edgeStep x (aggSeq x z sw dw n) (sw n) (dw n)

theorem aggSeq_zero (x z : SX.Idx → F .f32) (sw dw : ℕ → BitVec 32) : aggSeq x z sw dw 0 = z := rfl

theorem aggSeq_succ (x z : SX.Idx → F .f32) (sw dw : ℕ → BitVec 32) (n : ℕ) :
    aggSeq x z sw dw (n + 1) = edgeStep x (aggSeq x z sw dw n) (sw n) (dw n) := rfl

/-- One edge read at (r, c): the entry gains x's entry at (source node, c) when r is the destination. -/
theorem edgeStep_ix2 (x a : SX.Idx → F .f32) (s d : BitVec 32) (r : Fin 100000) (c : Fin 64) :
    edgeStep x a s d (ix2 r c)
      = if r.val = d.toNat then FloatOps.addf (a (ix2 r c)) (x (ix2 (Cert.Spec.node s) c)) else a (ix2 r c) := rfl

/-- A run of n + k edges is the run of the first n, then the run of the k after them. -/
theorem aggSeq_add (x z : SX.Idx → F .f32) (sw dw : ℕ → BitVec 32) (n k : ℕ) :
    aggSeq x z sw dw (n + k)
      = aggSeq x (aggSeq x z sw dw n) (fun j => sw (n + j)) (fun j => dw (n + j)) k := by
  induction k with
  | zero => rfl
  | succ k ih =>
    rw [← Nat.add_assoc, aggSeq_succ, aggSeq_succ, ih]

end Generic

/-- Over the extended reals, from the zero array: after n edges the entry at (r, c) is the sum, over the first n edges
    whose destination is r, of feature c of the source row. -/
theorem aggSeq_eq_sum (x : SX.Idx → EReal) (sw dw : ℕ → BitVec 32) (n : ℕ) (r : Fin 100000) (c : Fin 64) :
    aggSeq (F := Ideal) x (fun _ => (0 : EReal)) sw dw n (ix2 r c)
      = ∑ e ∈ (Finset.range n).filter (fun e => (dw e).toNat = r.val), x (ix2 (node (sw e)) c) := by
  induction n with
  | zero => rw [aggSeq_zero, Finset.range_zero, Finset.filter_empty, Finset.sum_empty]
  | succ n ih =>
    rw [aggSeq_succ, edgeStep_ix2, Ideal.addf_def, ih, Finset.range_add_one, Finset.filter_insert]
    by_cases hd : (dw n).toNat = r.val
    · rw [if_pos hd.symm, if_pos hd,
        Finset.sum_insert (fun hm => Finset.notMem_range_self (Finset.mem_filter.1 hm).1), add_comm]
    · rw [if_neg (fun e => hd e.symm), if_neg hd]

/-- The edge array's source and destination words as enumerations over ℕ (0 past the last edge). -/
def swOf (ei : SE.Idx → BitVec 32) (e : ℕ) : BitVec 32 := if h : e < 1600000 then src ei ⟨e, h⟩ else 0
def dwOf (ei : SE.Idx → BitVec 32) (e : ℕ) : BitVec 32 := if h : e < 1600000 then dst ei ⟨e, h⟩ else 0

theorem swOf_val (ei : SE.Idx → BitVec 32) (e : Fin 1600000) : swOf ei e.val = src ei e := dif_pos e.isLt
theorem dwOf_val (ei : SE.Idx → BitVec 32) (e : Fin 1600000) : dwOf ei e.val = dst ei e := dif_pos e.isLt

/-- After every edge of the edge array, the entry at (r, c) is the specification's aggregate: the sum over the first
    1600000 naturals, filtered by destination, is the sum over the edges, filtered by destination. -/
theorem aggSeq_full (x : SX.Idx → EReal) (ei : SE.Idx → BitVec 32) (r : Fin 100000) (c : Fin 64) :
    aggSeq (F := Ideal) x (fun _ => (0 : EReal)) (swOf ei) (dwOf ei) 1600000 (ix2 r c) = aggAt x ei r c := by
  refine (aggSeq_eq_sum x (swOf ei) (dwOf ei) 1600000 r c).trans ?_
  unfold aggAt
  rw [Finset.sum_filter, Finset.sum_range, Finset.sum_filter]
  refine Finset.sum_congr rfl fun e _ => ?_
  rw [swOf_val, dwOf_val]

end Cert.Proof.EdgeFold

end
-- ==== Proof.KernelIdealTripValue.lean ====
/-
  The aggregate after the first n trips of a point's edge loop, read as an array.

  Trip k of the loop handles the eight edges 8k … 8k+7 of the point's block of 512: for each it takes the source word s
  and the destination word d from cell 8k+u of the two index blocks and stores, into row d of the aggregate, the sum of
  row d of the aggregate (as the earlier stores left it) and row s of x. A store of one row changes what the array
  reads as in that row only, and there to the payload; the payload at column c is the sum of the two loaded entries;
  so one such store takes the array the aggregate reads as through one edge step (s, d). Eight of them make a trip,
  and the cells a trip reads are 8k … 8k+7 because k is below 64 and the 32-bit arithmetic of the cell numbers does
  not wrap. By induction over the trips, after n trips the aggregate reads as the sequential accumulation of the first
  8n edges over what it read as at loop entry.
-/
import proofs.«407827_j64682207478383_2_alg».proof.Proof.KernelIdealLoop
import proofs.«407827_j64682207478383_2_alg».proof.Proof.EdgeFold
import Idealize.ShloMosaic.Lib.Writes
import Idealize.ShloMosaic.Lib.ValueLayout
import Idealize.ShloMosaic.Lib.ValueIdx

set_option maxRecDepth 8192
set_option maxHeartbeats 4000000

noncomputable section

namespace Cert.Proof.KernelIdeal

open Cert.KernelIdeal Cert.KernelIdeal.Gen
open Idealize.ShloMosaic Idealize.ShloMosaic.ValueIdx
open Cert.Proof.EdgeFold

variable {F : FTy → Type} [FloatOps F]

namespace TripValue

/-- The read of one one-row store: row d takes the payload, every other row passes through. -/
theorem read_row_store {sg : RefSig} {κ : Kind} {sp : Space} (v : View sg κ sp S100000x64 .f32) (f : v.ty.Contents (Elt F))
    (d : ℕ) (inb : ∀ a, (![d, 0] : Fin 2 → ℕ) a + S1x64.size a ≤ S100000x64.size a)
    (w : (Rect.unit (s := S100000x64) ![d, 0] S1x64.size inb).shape.Idx → Elt F .f32)
    (L : List (View.Piece (Elt F) S100000x64 .f32)) (y : S100000x64.Idx) :
    v.read (Elt F) (v.writes (Elt F) f (⟨Rect.unit (s := S100000x64) ![d, 0] S1x64.size inb, w⟩ :: L)) y
      = if (y 0).val = d then w (ix2 (0 : Fin 1) ⟨(y 1).val, idx2_lt1 y⟩) else v.read (Elt F) (v.writes (Elt F) f L) y := by
  by_cases h : (y 0).val = d
  · rw [if_pos h]
    have hy : y = (Rect.unit (s := S100000x64) ![d, 0] S1x64.size inb).emb (ix2 (0 : Fin 1) ⟨(y 1).val, idx2_lt1 y⟩) := by
      funext a
      match a with
      | ⟨0, _⟩ => exact Fin.ext (by show (y 0).val = d + 1 * 0; omega)
      | ⟨1, _⟩ => exact Fin.ext (by show (y 1).val = 0 + 1 * (y 1).val; omega)
    conv_lhs => rw [hy]
    exact View.read_writes_cons_emb v f _ w L _
  · rw [if_neg h, View.writes_cons]
    refine View.read_slice_write_of_not_mem _ _ _ _ ?_
    rw [Rect.map_emb_univ, Rect.mem_set_unit]
    intro hm
    have := hm 0
    apply h
    have h1 : (![d, 0] : Fin 2 → ℕ) 0 ≤ (y 0).val := this.1
    have h2 : (y 0).val < (![d, 0] : Fin 2 → ℕ) 0 + S1x64.size 0 := this.2
    change d ≤ (y 0).val at h1
    change (y 0).val < d + 1 at h2
    omega

/-- A one-row load at row r reads, at column c, the array's entry (r, c). -/
theorem readAt_row {sg : RefSig} {κ : Kind} {sp : Space} (v : View sg κ sp S100000x64 .f32) (g : v.ty.Contents (Elt F))
    (r : ℕ) (hr : r < 100000) (inb : ∀ a, (![r, 0] : Fin 2 → ℕ) a + S1x64.size a ≤ S100000x64.size a) (c : Fin 64) :
    View.readAt (Elt F) v (Rect.unit (s := S100000x64) ![r, 0] S1x64.size inb).toLoadRect g (ix2 (0 : Fin 1) c)
      = v.read (Elt F) g (ix2 (⟨r, hr⟩ : Fin 100000) c) := by
  rw [View.readAt_apply]
  refine congrArg _ (funext fun a => ?_)
  match a with
  | ⟨0, _⟩ => exact Fin.ext (by show r + 1 * 0 = r; omega)
  | ⟨1, _⟩ => exact Fin.ext (by show 0 + 1 * c.val = c.val; omega)

/-- The payload of an edge's store, at column c: the sum of the two loaded rows' entries. -/
theorem pay_apply (a b : Vec F S1x64 .f32) (c : Fin 64) :
    k0_pay4 (F := F) a b (ix2 (0 : Fin 1) c) = FloatOps.addf (a (ix2 (0 : Fin 1) c)) (b (ix2 (0 : Fin 1) c)) := by
  unfold k0_pay4
  rw [shapeCast_a_1a_apply]
  show FloatOps.addf (shapeCast S64 a shapeCasts_S1x64_S64 (ix1 c)) (shapeCast S64 b shapeCasts_S1x64_S64 (ix1 c)) = _
  rw [shapeCast_1a_a_apply, shapeCast_1a_a_apply]

/-- ONE EDGE: storing, into row d, the sum of row d of the aggregate (as the earlier stores left it) and row s of x
    makes the aggregate read as one more edge step. -/
theorem read_edge_store {sg : RefSig} {κ κ' : Kind} {sp sp' : Space} (v12 : View sg κ sp S100000x64 .f32) (v11 : View sg κ' sp' S100000x64 .f32)
    (f : v12.ty.Contents (Elt F)) (X11 : v11.ty.Contents (Elt F)) (s d : BitVec 32)
    (hs : s.toNat < 100000) (hd : d.toNat < 100000)
    (inb2 : ∀ a, (k0_off2 d) a + S1x64.size a ≤ S100000x64.size a)
    (inb3 : ∀ a, (k0_off3 s) a + S1x64.size a ≤ S100000x64.size a)
    (inb4 : ∀ a, (k0_off4 d) a + S1x64.size a ≤ S100000x64.size a)
    (L : List (View.Piece (Elt F) S100000x64 .f32)) :
    v12.read (Elt F) (v12.writes (Elt F) f
        (⟨Rect.unit (s := S100000x64) (k0_off4 d) S1x64.size inb4,
          k0_pay4 (F := F) (View.readAt (Elt F) v12 (Rect.unit (s := S100000x64) (k0_off2 d) S1x64.size inb2).toLoadRect (v12.writes (Elt F) f L))
            (View.readAt (Elt F) v11 (Rect.unit (s := S100000x64) (k0_off3 s) S1x64.size inb3).toLoadRect X11)⟩ :: L))
      = edgeStep (F := F) (v11.read (Elt F) X11) (v12.read (Elt F) (v12.writes (Elt F) f L)) s d := by
  funext y
  refine (read_row_store v12 f d.toNat inb4 _ L y).trans ?_
  unfold edgeStep
  by_cases h : (y 0).val = d.toNat
  · rw [if_pos h, if_pos h, pay_apply]
    have e1 := readAt_row v12 (v12.writes (Elt F) f L) d.toNat hd inb2 ⟨(y 1).val, idx2_lt1 y⟩
    have e2 := readAt_row v11 X11 s.toNat hs inb3 ⟨(y 1).val, idx2_lt1 y⟩
    refine (congrArg₂ FloatOps.addf e1 e2).trans ?_
    have hy : y = ix2 (⟨d.toNat, hd⟩ : Fin 100000) (⟨(y 1).val, idx2_lt1 y⟩ : Fin 64) := by
      funext a
      match a with
      | ⟨0, _⟩ => exact Fin.ext h
      | ⟨1, _⟩ => rfl
    have hn : Cert.Spec.node s = (⟨s.toNat, hs⟩ : Fin 100000) := Fin.ext (Cert.Spec.node_val_of_lt hs)
    rw [hn, ← hy]
  · rw [if_neg h, if_neg h]

/-- One more edge on top of a run of n: the words the store used are the enumeration's n-th. -/
theorem read_edge_succ {sg : RefSig} {κ κ' : Kind} {sp sp' : Space} (v12 : View sg κ sp S100000x64 .f32) (v11 : View sg κ' sp' S100000x64 .f32)
    (f : v12.ty.Contents (Elt F)) (X11 : v11.ty.Contents (Elt F)) (z : S100000x64.Idx → F .f32) (sw dw : ℕ → BitVec 32) (n : ℕ)
    {s d : BitVec 32} (hs : s.toNat < 100000) (hd : d.toNat < 100000)
    {inb2 : ∀ a, (k0_off2 d) a + S1x64.size a ≤ S100000x64.size a}
    {inb3 : ∀ a, (k0_off3 s) a + S1x64.size a ≤ S100000x64.size a}
    {inb4 : ∀ a, (k0_off4 d) a + S1x64.size a ≤ S100000x64.size a}
    {L : List (View.Piece (Elt F) S100000x64 .f32)}
    (es : s = sw n) (ed : d = dw n)
    (ih : v12.read (Elt F) (v12.writes (Elt F) f L) = aggSeq (F := F) (v11.read (Elt F) X11) z sw dw n) :
    v12.read (Elt F) (v12.writes (Elt F) f
        (⟨Rect.unit (s := S100000x64) (k0_off4 d) S1x64.size inb4,
          k0_pay4 (F := F) (View.readAt (Elt F) v12 (Rect.unit (s := S100000x64) (k0_off2 d) S1x64.size inb2).toLoadRect (v12.writes (Elt F) f L))
            (View.readAt (Elt F) v11 (Rect.unit (s := S100000x64) (k0_off3 s) S1x64.size inb3).toLoadRect X11)⟩ :: L))
      = aggSeq (F := F) (v11.read (Elt F) X11) z sw dw (n + 1) := by
  rw [read_edge_store v12 v11 f X11 s d hs hd, ih, aggSeq_succ, es, ed]

/-- A word of an index block, read through a one-cell rectangle at cell n. -/
theorem word_at {sg : RefSig} {κ : Kind} {sp : Space} (v : View sg κ sp S512 .i32) (X : v.ty.Contents (Elt F))
    (off : Fin 1 → ℕ) (inb : ∀ a, off a + S1.size a ≤ S512.size a) (h : 0 < (Rect.unit (s := S512) off S1.size inb).shape.numel)
    (n : ℕ) (hn : n < 512) (e : off 0 = n) :
    View.readAt (Elt F) v (Rect.unit (s := S512) off S1.size inb).toLoadRect X (Shape.Idx.first h)
      = v.read (Elt F) X (ix1 (⟨n, hn⟩ : Fin 512)) := by
  rw [View.readAt_apply]
  refine congrArg _ (funext fun a => ?_)
  match a with
  | ⟨0, _⟩ => exact Fin.ext (by show off 0 + 1 * 0 = n; omega)

theorem trips_eq : k0_t1_loop.trips = 64 := by decide +kernel

/-- Trip k reads cells 8k … 8k+7 of the two index blocks (k below 64: the word arithmetic does not wrap). -/
theorem off1_val : ∀ k : Fin k0_t1_loop.trips, k0_off1 k 0 = 8 * k.val + 0 := by decide +kernel
theorem off5_val : ∀ k : Fin k0_t1_loop.trips, k0_off5 k 0 = 8 * k.val + 1 := by decide +kernel
theorem off9_val : ∀ k : Fin k0_t1_loop.trips, k0_off9 k 0 = 8 * k.val + 2 := by decide +kernel
theorem off13_val : ∀ k : Fin k0_t1_loop.trips, k0_off13 k 0 = 8 * k.val + 3 := by decide +kernel
theorem off17_val : ∀ k : Fin k0_t1_loop.trips, k0_off17 k 0 = 8 * k.val + 4 := by decide +kernel
theorem off21_val : ∀ k : Fin k0_t1_loop.trips, k0_off21 k 0 = 8 * k.val + 5 := by decide +kernel
theorem off25_val : ∀ k : Fin k0_t1_loop.trips, k0_off25 k 0 = 8 * k.val + 6 := by decide +kernel
theorem off29_val : ∀ k : Fin k0_t1_loop.trips, k0_off29 k 0 = 8 * k.val + 7 := by decide +kernel

/-- The word trip k reads through its u-th one-cell rectangle is cell 8k+u of the block. -/
theorem cell_eq {sg : RefSig} {κ : Kind} {sp : Space} (v : View sg κ sp S512 .i32) (X : v.ty.Contents (Elt F))
    (off : Fin 1 → ℕ) (inb : ∀ a, off a + S1.size a ≤ S512.size a) (h : 0 < (Rect.unit (s := S512) off S1.size inb).shape.numel)
    (k : Fin k0_t1_loop.trips) (u : ℕ) (hu : u < 8) (e : off 0 = 8 * k.val + u) :
    View.readAt (Elt F) v (Rect.unit (s := S512) off S1.size inb).toLoadRect X (Shape.Idx.first h)
      = (fun j => v.read (Elt F) X (ValueIdx.ix1 ⟨(8 * k.val + j) % 512, Nat.mod_lt _ (by norm_num)⟩)) u := by
  have hk : k.val < 64 := trips_eq ▸ k.isLt
  have hn : 8 * k.val + u < 512 := by omega
  rw [word_at v X off inb h (8 * k.val + u) hn e]
  show _ = v.read (Elt F) X (ValueIdx.ix1 ⟨(8 * k.val + u) % 512, _⟩)
  exact congrArg _ (congrArg ix1 (Fin.ext (Nat.mod_eq_of_lt hn).symm))

set_option maxRecDepth 65536 in
unseal trip in
/-- ONE TRIP, read: the eight stores of trip k take what the aggregate read as through the eight edge steps of the
    cells 8k … 8k+7. -/
theorem read_tripL (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (k : Fin k0_t1_loop.trips) (f12 : BufTy.Contents (Elt F) arg12.view.ty) :
    arg12.view.read (Elt F) (arg12.view.writes (Elt F) f12 (tripL (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 k f12))
      = aggSeq (F := F) (arg11.view.read (Elt F) X11) (arg12.view.read (Elt F) f12)
          (fun j => arg1.view.read (Elt F) X1 (ValueIdx.ix1 ⟨(8 * k.val + j) % 512, Nat.mod_lt _ (by norm_num)⟩))
          (fun j => arg2.view.read (Elt F) X2 (ValueIdx.ix1 ⟨(8 * k.val + j) % 512, Nat.mod_lt _ (by norm_num)⟩)) 8 := by
  refine read_edge_succ arg12.view arg11.view f12 X11 _ _ _ 7 (hX1 _ _) (hX2 _ _)
    (cell_eq arg1.view X1 _ _ _ k 7 (by norm_num) (off29_val k)) (cell_eq arg2.view X2 _ _ _ k 7 (by norm_num) (off29_val k)) ?_
  refine read_edge_succ arg12.view arg11.view f12 X11 _ _ _ 6 (hX1 _ _) (hX2 _ _)
    (cell_eq arg1.view X1 _ _ _ k 6 (by norm_num) (off25_val k)) (cell_eq arg2.view X2 _ _ _ k 6 (by norm_num) (off25_val k)) ?_
  refine read_edge_succ arg12.view arg11.view f12 X11 _ _ _ 5 (hX1 _ _) (hX2 _ _)
    (cell_eq arg1.view X1 _ _ _ k 5 (by norm_num) (off21_val k)) (cell_eq arg2.view X2 _ _ _ k 5 (by norm_num) (off21_val k)) ?_
  refine read_edge_succ arg12.view arg11.view f12 X11 _ _ _ 4 (hX1 _ _) (hX2 _ _)
    (cell_eq arg1.view X1 _ _ _ k 4 (by norm_num) (off17_val k)) (cell_eq arg2.view X2 _ _ _ k 4 (by norm_num) (off17_val k)) ?_
  refine read_edge_succ arg12.view arg11.view f12 X11 _ _ _ 3 (hX1 _ _) (hX2 _ _)
    (cell_eq arg1.view X1 _ _ _ k 3 (by norm_num) (off13_val k)) (cell_eq arg2.view X2 _ _ _ k 3 (by norm_num) (off13_val k)) ?_
  refine read_edge_succ arg12.view arg11.view f12 X11 _ _ _ 2 (hX1 _ _) (hX2 _ _)
    (cell_eq arg1.view X1 _ _ _ k 2 (by norm_num) (off9_val k)) (cell_eq arg2.view X2 _ _ _ k 2 (by norm_num) (off9_val k)) ?_
  refine read_edge_succ arg12.view arg11.view f12 X11 _ _ _ 1 (hX1 _ _) (hX2 _ _)
    (cell_eq arg1.view X1 _ _ _ k 1 (by norm_num) (off5_val k)) (cell_eq arg2.view X2 _ _ _ k 1 (by norm_num) (off5_val k)) ?_
  refine read_edge_succ arg12.view arg11.view f12 X11 _ _ _ 0 (hX1 _ _) (hX2 _ _)
    (cell_eq arg1.view X1 _ _ _ k 0 (by norm_num) (off1_val k)) (cell_eq arg2.view X2 _ _ _ k 0 (by norm_num) (off1_val k)) ?_
  rfl

end TripValue

open TripValue

/-- THE AGGREGATE AFTER n TRIPS reads as the sequential accumulation of the first 8n edges of the point's two index
    blocks over what it read as at loop entry. -/
theorem read_pieces (c : Dev nD) (i : grid0.Coords) (arg1 : Memref sig .tc .smem S512 .i32) (harg1 : arg1.IsWhole) (arg2 : Memref sig .tc .smem S512 .i32) (harg2 : arg2.IsWhole) (arg3 : Memref sig .tc .hbm S100000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S1 .f32) (harg8 : arg8.IsWhole) (arg9 : Memref sig .tc .hbm S100000x64 .f32) (harg9 : arg9.IsWhole) (arg10 : Memref sig .tc .vmem S1 .f32) (harg10 : arg10.IsWhole) (arg11 : Memref sig .tc .vmem S100000x64 .f32) (harg11 : arg11.IsWhole) (arg12 : Memref sig .tc .vmem S100000x64 .f32) (harg12 : arg12.IsWhole) (arg13 : Memref sig .tc .vmem S5000x64 .f32) (harg13 : arg13.IsWhole) (arg14 : DmaSems sig S_) (arg15 : DmaSems sig S_)
    (X1 : BufTy.Contents (Elt F) arg1.view.ty) (X2 : BufTy.Contents (Elt F) arg2.view.ty) (X11 : BufTy.Contents (Elt F) arg11.view.ty)
    (hX1 : WordsOK (F := F) arg1 X1) (hX2 : WordsOK (F := F) arg2 X2) (G12 : BufTy.Contents (Elt F) arg12.view.ty) (n : ℕ) (hn : n ≤ 64) :
    arg12.view.read (Elt F) (arg12.view.writes (Elt F) G12 (pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 n))
      = Cert.Proof.EdgeFold.aggSeq (F := F) (arg11.view.read (Elt F) X11) (arg12.view.read (Elt F) G12)
          (fun j => arg1.view.read (Elt F) X1 (ValueIdx.ix1 ⟨j % 512, Nat.mod_lt _ (by norm_num)⟩))
          (fun j => arg2.view.read (Elt F) X2 (ValueIdx.ix1 ⟨j % 512, Nat.mod_lt _ (by norm_num)⟩)) (8 * n) := by
  induction n with
  | zero => rfl
  | succ n ih =>
    have hlt : n < k0_t1_loop.trips := by rw [trips_eq]; omega
    have hps := pieces_succ (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 ⟨n, hlt⟩
    have h8 : 8 * (n + 1) = 8 * n + 8 := by omega
    rw [show pieces (F := F) c i arg1 harg1 arg2 harg2 arg3 harg3 arg4 harg4 arg5 harg5 arg6 harg6 arg7 harg7 arg8 harg8 arg9 harg9 arg10 harg10 arg11 harg11 arg12 harg12 arg13 harg13 arg14 arg15 X1 X2 X11 hX1 hX2 G12 (n + 1) = _ from hps, View.writes_append,
      TripValue.read_tripL, ih (by omega), h8, aggSeq_add]

end Cert.Proof.KernelIdeal

end
-- ==== Proof.KernelIdealAggValue.lean ====
/-
  The aggregate after each grid point, read as an array, and after the last point the specification's aggregate.

  Point t of the grid runs the edge loop over block t of the edge array: its two staged index blocks hold the source
  words and the destination words of the edges 512 t … 512 t + 511, and the loop's 64 trips of eight edges take what
  the aggregate reads as through those 512 edge steps, adding rows of the resident copy of x, which reads as x as
  launched. The first point starts from the zero fill, which reads as the zero array; every later point starts from
  what the point before left. So after point k the aggregate reads as the sequential accumulation of the first
  512 (k+1) edges over the zero array, by induction on k. The edge array has 3125 · 512 = 1600000 edges; over the
  extended reals the accumulation of all of them is, at (r, c), the sum of feature c of the source rows over the
  edges into r: the specification's aggregate.
-/
import proofs.«407827_j64682207478383_2_alg».proof.Proof.KernelIdealData
import proofs.«407827_j64682207478383_2_alg».proof.Proof.KernelIdealTripValue
import proofs.«407827_j64682207478383_2_alg».proof.Proof.KernelIdealWords
import proofs.«407827_j64682207478383_2_alg».proof.Proof.EdgeFold
import Idealize.ShloMosaic.Lib.Exec.Geometry
import Idealize.ShloMosaic.Lib.Pipeline.Value
import Idealize.ShloMosaic.Lib.Pipeline.Frame
import Idealize.ShloMosaic.Lib.ValueIdx
import Idealize.ShloMosaic.PureOps.Ideal.Laws

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.ValueIdx
open Cert.Proof.EdgeFold

variable {F : FTy → Type} [FloatOps F]

namespace AggValue

/-- The accumulation of the first n edges looks at the two enumerations below n only. -/
theorem aggSeq_congr (x z : Cert.Spec.SX.Idx → F .f32) (sw dw sw' dw' : ℕ → BitVec 32) :
    ∀ n : ℕ, (∀ j, j < n → sw j = sw' j) → (∀ j, j < n → dw j = dw' j) → aggSeq (F := F) x z sw dw n = aggSeq (F := F) x z sw' dw' n
  | 0, _, _ => rfl
  | n + 1, hs, hd => by
    rw [aggSeq_succ, aggSeq_succ, aggSeq_congr x z sw dw sw' dw' n (fun j hj => hs j (Nat.lt_succ_of_lt hj)) (fun j hj => hd j (Nat.lt_succ_of_lt hj)),
      hs n (Nat.lt_succ_self n), hd n (Nat.lt_succ_self n)]

/-- The loop runs 64 trips, so a point's loop handles 512 edges. -/
theorem nTrips_eq : nTrips = 64 := by decide +kernel

/-- The resident copy of x reads as x. -/
theorem xCopy_read (c : Dev nD) (Xh : Bf (F := F) c (Memref.whole main_arg0 : Memref sig .tc .hbm S100000x64 .f32)) :
    (Memref.whole cc0_scratch0 : Memref sig .tc .vmem S100000x64 .f32).view.read (Elt F) (xCopy (F := F) c Xh)
      = (Memref.whole main_arg0 : Memref sig .tc .hbm S100000x64 .f32).view.read (Elt F) Xh :=
  View.read_writes_whole _ _ _

/-- The zero fill reads as the zero array. -/
theorem aggZero_read :
    (Memref.whole cc0_scratch1 : Memref sig .tc .vmem S100000x64 .f32).view.read (Elt F) (aggZero (F := F))
      = fun _ => Scalar.ofBits .f32 0x00000000#32 := by
  funext y
  have hy : y = (Rect.unit (s := S100000x64) ![0, 0] S100000x64.size inb_S100000x64_S100000x64_0_0).emb y := by
    funext a
    match a with
    | ⟨0, _⟩ => exact Fin.ext (by show (y 0).val = 0 + 1 * (y 0).val; omega)
    | ⟨1, _⟩ => exact Fin.ext (by show (y 1).val = 0 + 1 * (y 1).val; omega)
  have h := View.read_writes_cons_emb (Val := Elt F) (Memref.whole cc0_scratch1 : Memref sig .tc .vmem S100000x64 .f32).view
    (Memref.whole cc0_scratch1 : Memref sig .tc .vmem S100000x64 .f32).view.junk
    (Rect.unit (s := S100000x64) ![0, 0] S100000x64.size inb_S100000x64_S100000x64_0_0) (k0_pay1 (F := F)) [] y
  rw [← hy] at h
  refine h.trans ?_
  unfold k0_pay1
  exact shapeCast_apply _ _ y y rfl

end AggValue

variable (m : (ℓ : Loc nD τ sig) → Buf (Elt F) ℓ)

/-- The x array as launched, read as an array. -/
abbrev xr (c : Dev nD) : Cert.Spec.SX.Idx → F .f32 :=
  (Memref.whole main_arg0 : Memref sig .tc .hbm S100000x64 .f32).view.read (Elt F) (V m c main_arg0)

/-- The edge array's source words and destination words, as launched, as enumerations over ℕ. -/
abbrev sw (c : Dev nD) : ℕ → BitVec 32 := swOf (m ((c : Thread nD τ).loc main_arg1))
abbrev dw (c : Dev nD) : ℕ → BitVec 32 := dwOf (m ((c : Thread nD τ).loc main_arg1))

namespace AggValue

/-- Word j of the source block at point t is edge 512 t + j's source word. -/
theorem src_word (c : Dev nD) (t : Fin cfg0.N) (j : ℕ) (hj : j < 512) :
    (st0_0 t).view.read (Elt F) (X0at m c t) (ValueIdx.ix1 ⟨j % 512, Nat.mod_lt _ (by norm_num)⟩) = sw m c (512 * t.val + j) := by
  have e := congrFun ((hstage0_0 ((cfg0.slots t 0).cast nbuf0_0)).read_unread (iblk m c 0 t)) (ix1 (⟨j % 512, Nat.mod_lt _ (by norm_num)⟩ : Fin 512))
  refine e.trans ((iblk0_apply m c t ⟨j % 512, Nat.mod_lt _ (by norm_num)⟩).trans ?_)
  have hlt : 512 * t.val + j < 1600000 := word_lt t ⟨j, hj⟩
  refine Eq.trans ?_ (swOf_val (m ((c : Thread nD τ).loc main_arg1)) ⟨512 * t.val + j, hlt⟩).symm
  show _ = m ((c : Thread nD τ).loc main_arg1) (ix2 (0 : Fin 2) ⟨512 * t.val + j, hlt⟩)
  exact congrArg _ (congrArg (ix2 (0 : Fin 2)) (Fin.ext (by show 512 * t.val + j % 512 = 512 * t.val + j; rw [Nat.mod_eq_of_lt hj])))

/-- Word j of the destination block at point t is edge 512 t + j's destination word. -/
theorem dst_word (c : Dev nD) (t : Fin cfg0.N) (j : ℕ) (hj : j < 512) :
    (st0_1 t).view.read (Elt F) (X1at m c t) (ValueIdx.ix1 ⟨j % 512, Nat.mod_lt _ (by norm_num)⟩) = dw m c (512 * t.val + j) := by
  have e := congrFun ((hstage0_1 ((cfg0.slots t 1).cast nbuf0_1)).read_unread (iblk m c 1 t)) (ix1 (⟨j % 512, Nat.mod_lt _ (by norm_num)⟩ : Fin 512))
  refine e.trans ((iblk1_apply m c t ⟨j % 512, Nat.mod_lt _ (by norm_num)⟩).trans ?_)
  have hlt : 512 * t.val + j < 1600000 := word_lt t ⟨j, hj⟩
  refine Eq.trans ?_ (dwOf_val (m ((c : Thread nD τ).loc main_arg1)) ⟨512 * t.val + j, hlt⟩).symm
  show _ = m ((c : Thread nD τ).loc main_arg1) (ix2 (1 : Fin 2) ⟨512 * t.val + j, hlt⟩)
  exact congrArg _ (congrArg (ix2 (1 : Fin 2)) (Fin.ext (by show 512 * t.val + j % 512 = 512 * t.val + j; rw [Nat.mod_eq_of_lt hj])))

/-- ONE POINT: the point's loop takes what the aggregate read as through the 512 edge steps of the point's block. -/
theorem point_read (c : Dev nD) (t : Fin cfg0.N)
    (X11 : BufTy.Contents (Elt F) (Memref.whole cc0_scratch0 : Memref sig .tc .vmem S100000x64 .f32).view.ty)
    (G12 : BufTy.Contents (Elt F) (Memref.whole cc0_scratch1 : Memref sig .tc .vmem S100000x64 .f32).view.ty)
    (hX1 : WordsOK (F := F) (st0_0 t) (X0at m c t)) (hX2 : WordsOK (F := F) (st0_1 t) (X1at m c t)) :
    (Memref.whole cc0_scratch1 : Memref sig .tc .vmem S100000x64 .f32).view.read (Elt F)
        (aggAfter (F := F) c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (X0at m c t) (X1at m c t) X11 hX1 hX2 G12)
      = aggSeq (F := F) ((Memref.whole cc0_scratch0 : Memref sig .tc .vmem S100000x64 .f32).view.read (Elt F) X11)
          ((Memref.whole cc0_scratch1 : Memref sig .tc .vmem S100000x64 .f32).view.read (Elt F) G12)
          (fun j => sw m c (512 * t.val + j)) (fun j => dw m c (512 * t.val + j)) 512 := by
  have h := read_pieces (F := F) c (grid0.coords t) (st0_0 t) (hstage0_0 ((cfg0.slots t 0).cast nbuf0_0)) (st0_1 t) (hstage0_1 ((cfg0.slots t 1).cast nbuf0_1)) (Memref.whole main_arg0) (Memref.isWhole_whole _) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole main_v4_0) (Memref.isWhole_whole _) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) cc0_scratch3 cc0_scratch4 (X0at m c t) (X1at m c t) X11 hX1 hX2 G12 nTrips (le_of_eq nTrips_eq)
  refine h.trans ?_
  rw [show 8 * nTrips = 512 from by rw [nTrips_eq]]
  exact aggSeq_congr _ _ _ _ _ _ 512 (fun j hj => src_word m c t j hj) (fun j hj => dst_word m c t j hj)

end AggValue

variable (hW0 : ∀ (c : Dev nD) (t : Fin cfg0.N), WordsOK (F := F) (st0_0 t) (X0at m c t))
  (hW1 : ∀ (c : Dev nD) (t : Fin cfg0.N), WordsOK (F := F) (st0_1 t) (X1at m c t))

namespace AggValue

/-- A later point on top of the points before it: if after point k the aggregate reads as the accumulation of the first
    512 (k+1) edges, then point k+1's loop makes it read as the accumulation of the first 512 (k+2). -/
theorem next_read (c : Dev nD) (t : Fin cfg0.N) (k : ℕ) (hk : k < cfg0.N) (ht : t.val = k + 1)
    (ih : (Memref.whole cc0_scratch1 : Memref sig .tc .vmem S100000x64 .f32).view.read (Elt F) (aggC m hW0 hW1 c k hk)
      = aggSeq (F := F) (xr m c) (fun _ => Scalar.ofBits .f32 0x00000000#32) (sw m c) (dw m c) (512 * (k + 1))) :
    (Memref.whole cc0_scratch1 : Memref sig .tc .vmem S100000x64 .f32).view.read (Elt F)
        (aggAfter (F := F) c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (X0at m c t) (X1at m c t) (xCopy (F := F) c (V m c main_arg0)) (hW0 c t) (hW1 c t) (aggC m hW0 hW1 c k hk))
      = aggSeq (F := F) (xr m c) (fun _ => Scalar.ofBits .f32 0x00000000#32) (sw m c) (dw m c) (512 * (t.val + 1)) := by
  rw [point_read, xCopy_read, ih, ht, show 512 * (k + 1 + 1) = 512 * (k + 1) + 512 from by omega, aggSeq_add]

end AggValue

open AggValue

/-- THE AGGREGATE AFTER POINT k reads as the sequential accumulation of the first 512 (k+1) edges over the zero array. -/
theorem aggC_read (c : Dev nD) (k : ℕ) (hk : k < cfg0.N) :
    (Memref.whole cc0_scratch1 : Memref sig .tc .vmem S100000x64 .f32).view.read (Elt F) (aggC m hW0 hW1 c k hk)
      = Cert.Proof.EdgeFold.aggSeq (F := F) (xr m c) (fun _ => Scalar.ofBits .f32 0x00000000#32) (sw m c) (dw m c) (512 * (k + 1)) := by
  induction k with
  | zero =>
    rw [aggC, point_read, xCopy_read, aggZero_read, show 512 * (0 + 1) = 512 * 0 + 512 from rfl, aggSeq_add]
    rfl
  | succ k ih =>
    rw [aggC]
    exact next_read m hW0 hW1 c ⟨k + 1, hk⟩ k (Nat.lt_of_succ_lt hk) rfl (ih (Nat.lt_of_succ_lt hk))

section AtIdeal

variable (mI : (ℓ : Loc nD τ sig) → Buf (Elt Ideal) ℓ)
  (hV0 : ∀ (c : Dev nD) (t : Fin cfg0.N), WordsOK (F := Ideal) (st0_0 t) (X0at mI c t))
  (hV1 : ∀ (c : Dev nD) (t : Fin cfg0.N), WordsOK (F := Ideal) (st0_1 t) (X1at mI c t))

/-- Over the extended reals the accumulation of all 1600000 edges over the zero array is the specification's aggregate. -/
theorem AggValue.full_read (c : Dev nD) (r : Fin 100000) (cc : Fin 64) :
    aggSeq (F := Ideal) (xr mI c) (fun _ => Scalar.ofBits .f32 0x00000000#32) (sw mI c) (dw mI c) 1600000 (ix2 r cc)
      = Cert.Spec.aggAt (mI ((c : Thread nD τ).loc main_arg0)) (mI ((c : Thread nD τ).loc main_arg1)) r cc := by
  have hx : xr mI c = mI ((c : Thread nD τ).loc main_arg0) := V_main_arg0 mI c
  have hz : (fun _ => Scalar.ofBits .f32 0x00000000#32 : Cert.Spec.SX.Idx → Ideal .f32) = fun _ => (0 : EReal) := by
    funext _; rw [Ideal.ofBits_def, Ideal.ofBits_zero_f32]
  rw [hx, hz]
  exact aggSeq_full _ _ r cc

/-- AFTER ALL 3125 POINTS the aggregate is the specification's. -/
theorem aggC_last (c : Dev nD) (hk : 3124 < cfg0.N) (r : Fin 100000) (cc : Fin 64) :
    (Memref.whole cc0_scratch1 : Memref sig .tc .vmem S100000x64 .f32).view.read (Elt Ideal) (aggC (F := Ideal) mI hV0 hV1 c 3124 hk) (ix2 r cc)
      = Cert.Spec.aggAt (mI ((c : Thread nD τ).loc main_arg0)) (mI ((c : Thread nD τ).loc main_arg1)) r cc := by
  rw [aggC_read]
  exact AggValue.full_read mI c r cc

/-- The same for the last point's loop taken from what point 3123 left: the form the last point's run leaves. -/
theorem aggLast_read (c : Dev nD) (r : Fin 100000) (cc : Fin 64) :
    (Memref.whole cc0_scratch1 : Memref sig .tc .vmem S100000x64 .f32).view.read (Elt Ideal)
        (aggAfter (F := Ideal) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) (X0at mI c tlast) (X1at mI c tlast) (xCopy (F := Ideal) c (V mI c main_arg0)) (hV0 c tlast) (hV1 c tlast)
          (aggC (F := Ideal) mI hV0 hV1 c (tlast.val - 1) (by have := tlast.isLt; omega))) (ix2 r cc)
      = Cert.Spec.aggAt (mI ((c : Thread nD τ).loc main_arg0)) (mI ((c : Thread nD τ).loc main_arg1)) r cc := by
  have ht : tlast.val = (tlast.val - 1) + 1 := by rw [tlast_val]
  rw [AggValue.next_read mI hV0 hV1 c tlast (tlast.val - 1) _ ht (aggC_read mI hV0 hV1 c _ _), tlast_val]
  exact AggValue.full_read mI c r cc

end AtIdeal

end Cert.Proof.KernelIdeal

end
-- ==== Proof.KernelIdealValue.lean ====
/-
  The kernel side's value over the extended reals, assembled.

  The run of @main ends with the result array at what the last grid point's twenty tiles leave in it and the gate array
  at the library's account of its window. The gate's window writes back at the last point only, its one block the whole
  one-element array, and what the body leaves there is the logistic function of the staged parameter: the gate array
  ends holding the specification's gate. The five parameter windows' one block is their whole array at every point, so
  the blocks the last point finds staged are the parameter arrays as launched; the resident copy of x reads as x and
  the aggregate after the last point's loop is the specification's aggregate, so the hidden rows the last point
  computes are the specification's; the tiles read as the perceptron of those rows and parameters: the result array ends
  holding the specification's result. The seven arguments end as launched.
-/
import proofs.«407827_j64682207478383_2_alg».proof.Proof.KernelIdealLaunch
import proofs.«407827_j64682207478383_2_alg».proof.Proof.KernelIdealOutValue
import proofs.«407827_j64682207478383_2_alg».proof.Proof.KernelIdealAggValue
import proofs.«407827_j64682207478383_2_alg».proof.Proof.SpecOut
import proofs.«407827_j64682207478383_2_alg».proof.Proof.Spec
import Idealize.ShloMosaic.Lib.Pipeline.Value
import Idealize.ShloMosaic.Lib.Pipeline.Frame
import Idealize.ShloMosaic.Lib.ValueIdx
import Idealize.ShloMosaic.PureOps.Ideal.Laws

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.ValueIdx
open Idealize.ShloMosaic.Pipeline (Dat)

namespace KValue

variable {F : FTy → Type} [FloatOps F]
variable (m : (ℓ : Loc nD τ sig) → Buf (Elt F) ℓ)

/-- The five parameter windows' block index is 0 at every point: each window's one block is its whole array. -/
theorem idx_params : ∀ t : Fin cfg0.N,
    (win0_2.index t (0 : Fin 2) = 0 ∧ win0_2.index t (1 : Fin 2) = 0) ∧ win0_3.index t (0 : Fin 1) = 0
    ∧ (win0_4.index t (0 : Fin 2) = 0 ∧ win0_4.index t (1 : Fin 2) = 0) ∧ win0_5.index t (0 : Fin 1) = 0
    ∧ win0_6.index t (0 : Fin 1) = 0 ∧ win0_7.index t (0 : Fin 1) = 0 :=
  (by decide +kernel : ∀ t : Fin grid0.N,
    (win0_2.index t (0 : Fin 2) = 0 ∧ win0_2.index t (1 : Fin 2) = 0) ∧ win0_3.index t (0 : Fin 1) = 0
    ∧ (win0_4.index t (0 : Fin 2) = 0 ∧ win0_4.index t (1 : Fin 2) = 0) ∧ win0_5.index t (0 : Fin 1) = 0
    ∧ win0_6.index t (0 : Fin 1) = 0 ∧ win0_7.index t (0 : Fin 1) = 0)

/-- Window 2's block at any point is the first weight matrix as launched. -/
theorem iblk2_eq (c : Dev nD) (t : Fin cfg0.N) : iblk m c 2 t = m ((c : Thread nD τ).loc main_arg2) := by
  funext y
  show V m c main_arg2 (((cfg0.win 2).blk t).view.emb y) = _
  have he : ((cfg0.win 2).blk t).view.emb y = (y : S64x64.Idx) := by
    funext a; apply Fin.ext
    match a with
    | ⟨0, _⟩ => show win0_2.index t (0 : Fin 2) * 64 + 1 * (y 0).val = (y 0).val; rw [(idx_params t).1.1]; omega
    | ⟨1, _⟩ => show win0_2.index t (1 : Fin 2) * 64 + 1 * (y 1).val = (y 1).val; rw [(idx_params t).1.2]; omega
  exact (congrArg (V m c main_arg2 : S64x64.Idx → F .f32) he).trans (congrFun (V_main_arg2 m c) y)

/-- Window 3's block at any point is the first bias as launched. -/
theorem iblk3_eq (c : Dev nD) (t : Fin cfg0.N) : iblk m c 3 t = m ((c : Thread nD τ).loc main_arg3) := by
  funext y
  show V m c main_arg3 (((cfg0.win 3).blk t).view.emb y) = _
  have he : ((cfg0.win 3).blk t).view.emb y = (y : S64.Idx) := by
    funext a; apply Fin.ext
    match a with
    | ⟨0, _⟩ => show win0_3.index t (0 : Fin 1) * 64 + 1 * (y 0).val = (y 0).val; rw [(idx_params t).2.1]; omega
  exact (congrArg (V m c main_arg3 : S64.Idx → F .f32) he).trans (congrFun (V_main_arg3 m c) y)

/-- Window 4's block at any point is the second weight matrix as launched. -/
theorem iblk4_eq (c : Dev nD) (t : Fin cfg0.N) : iblk m c 4 t = m ((c : Thread nD τ).loc main_arg4) := by
  funext y
  show V m c main_arg4 (((cfg0.win 4).blk t).view.emb y) = _
  have he : ((cfg0.win 4).blk t).view.emb y = (y : S64x64.Idx) := by
    funext a; apply Fin.ext
    match a with
    | ⟨0, _⟩ => show win0_4.index t (0 : Fin 2) * 64 + 1 * (y 0).val = (y 0).val; rw [(idx_params t).2.2.1.1]; omega
    | ⟨1, _⟩ => show win0_4.index t (1 : Fin 2) * 64 + 1 * (y 1).val = (y 1).val; rw [(idx_params t).2.2.1.2]; omega
  exact (congrArg (V m c main_arg4 : S64x64.Idx → F .f32) he).trans (congrFun (V_main_arg4 m c) y)

/-- Window 5's block at any point is the second bias as launched. -/
theorem iblk5_eq (c : Dev nD) (t : Fin cfg0.N) : iblk m c 5 t = m ((c : Thread nD τ).loc main_arg5) := by
  funext y
  show V m c main_arg5 (((cfg0.win 5).blk t).view.emb y) = _
  have he : ((cfg0.win 5).blk t).view.emb y = (y : S64.Idx) := by
    funext a; apply Fin.ext
    match a with
    | ⟨0, _⟩ => show win0_5.index t (0 : Fin 1) * 64 + 1 * (y 0).val = (y 0).val; rw [(idx_params t).2.2.2.1]; omega
  exact (congrArg (V m c main_arg5 : S64.Idx → F .f32) he).trans (congrFun (V_main_arg5 m c) y)

/-- Window 6's block at any point is the gate's parameter as launched. -/
theorem iblk6_eq (c : Dev nD) (t : Fin cfg0.N) : iblk m c 6 t = m ((c : Thread nD τ).loc main_arg6) := by
  funext y
  show V m c main_arg6 (((cfg0.win 6).blk t).view.emb y) = _
  have he : ((cfg0.win 6).blk t).view.emb y = (y : S1.Idx) := by
    funext a; apply Fin.ext
    match a with
    | ⟨0, _⟩ => show win0_6.index t (0 : Fin 1) * 1 + 1 * (y 0).val = (y 0).val; rw [(idx_params t).2.2.2.2.1]; omega
  exact (congrArg (V m c main_arg6 : S1.Idx → F .f32) he).trans (congrFun (V_main_arg6 m c) y)

end KValue

namespace KValue

variable (mI : (ℓ : Loc nD τ sig) → Buf (Elt Ideal) ℓ)
  (hV0 : ∀ (c : Dev nD) (t : Fin cfg0.N), WordsOK (F := Ideal) (st0_0 t) (X0at mI c t))
  (hV1 : ∀ (c : Dev nD) (t : Fin cfg0.N), WordsOK (F := Ideal) (st0_1 t) (X1at mI c t))

theorem hz1 : (![0] : Fin 1 → ℕ) = fun _ => 0 := funext fun a => by
  match a with
  | ⟨0, _⟩ => rfl

/-- The gate's block, from the staged parameter: the logistic function of its one entry, at the one index. -/
theorem gateV_apply (a : Vec Ideal S1 .f32) (y : S1.Idx) : gateV (F := Ideal) a y = Ideal.logistic (a y) := by
  unfold gateV
  rw [View.canon_unit_zero hz1, View.ld_unit_zero (S := S1) hz1]
  rfl

/-- What the last point writes back into the gate array is the gate, at the block's one index. -/
theorem flushed7_eq (c : Dev nD) (t : Fin cfg0.N) :
    (dats (F := Ideal) mI hV0 hV1 0 c).flushed 7 t
      = ((cfg0.win 7).blk t).view.read (Elt Ideal) (Cert.Spec.gateArr (mI ((c : Thread nD τ).loc main_arg6))) := by
  show (cfg0.win 7).cut (grid0.coords t) ((dats (F := Ideal) mI hV0 hV1 0 c).after 7 t) = _
  rw [show (dats (F := Ideal) mI hV0 hV1 0 c).after 7 t = gateV (F := Ideal) (iblk mI c 6 t) from by dsimp only [dats]]
  funext j
  show gateV (F := Ideal) (iblk mI c 6 t) j = Cert.Spec.gate (mI ((c : Thread nD τ).loc main_arg6))
  rw [gateV_apply, iblk6_eq]
  unfold Cert.Spec.gate
  refine congrArg Ideal.logistic (congrArg _ (funext fun a => ?_))
  match a with
  | ⟨0, _⟩ =>
    apply Fin.ext
    have h : (j 0).val < 1 := (j 0).isLt
    show (j 0).val = 0
    omega

/-- The gate array's one element is in the last point's block. -/
theorem mem_blk7 (t : Fin cfg0.N) (i : S1.Idx) : i ∈ ((cfg0.win 7).blk t).view.set := by
  show i ∈ ((View.whole main_v4_1).slice (win0_7.rect t)).set
  rw [View.set_slice_whole, Rect.mem_set_unit]
  intro a
  match a with
  | ⟨0, _⟩ =>
    show win0_7.index t (0 : Fin 1) * 1 ≤ (i 0).val ∧ (i 0).val < win0_7.index t (0 : Fin 1) * 1 + 1
    rw [(idx_params t).2.2.2.2.2]
    have : (i 0).val < 1 := (i 0).isLt
    omega

/-- THE GATE ARRAY at the end holds the gate. -/
theorem gate_eq (c : Dev nD) :
    (dats (F := Ideal) mI hV0 hV1 0 c).arrAt 7 cfg0.N = Cert.Spec.gateArr (mI ((c : Thread nD τ).loc main_arg6)) :=
  (dats (F := Ideal) mI hV0 hV1 0 c).arrAt_eq_of_cover 7 (Cert.Spec.gateArr (mI ((c : Thread nD τ).loc main_arg6)))
    (fun t _ => flushed7_eq mI hV0 hV1 c t)
    (fun i => ⟨tlast, (flush0_7 tlast).mpr (by rw [tlast_val]), mem_blk7 tlast i⟩)

end KValue

namespace KValue

variable (mI : (ℓ : Loc nD τ sig) → Buf (Elt Ideal) ℓ)
  (hV0 : ∀ (c : Dev nD) (t : Fin cfg0.N), WordsOK (F := Ideal) (st0_0 t) (X0at mI c t))
  (hV1 : ∀ (c : Dev nD) (t : Fin cfg0.N), WordsOK (F := Ideal) (st0_1 t) (X1at mI c t))

/-- The hidden rows the last point computes from the copy of x and the aggregate are the specification's. -/
theorem hid_eq (c : Dev nD) :
    (fun (r : Fin 100000) (j : Fin 64) => (HAdd.hAdd (α := EReal) (β := EReal) (γ := EReal)
              ((Memref.whole cc0_scratch0 : Memref sig .tc .vmem S100000x64 .f32).view.read (Elt Ideal) (xCopy (F := Ideal) c (V mI c main_arg0)) (ix2 r j))
              ((Memref.whole cc0_scratch1 : Memref sig .tc .vmem S100000x64 .f32).view.read (Elt Ideal) (aggAfter (F := Ideal) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) (X0at mI c tlast) (X1at mI c tlast) (xCopy (F := Ideal) c (V mI c main_arg0)) (hV0 c tlast) (hV1 c tlast) (aggC (F := Ideal) mI hV0 hV1 c (tlast.val - 1) (by have := tlast.isLt; omega))) (ix2 r j))))
      = Cert.Spec.hid (mI ((c : Thread nD τ).loc main_arg0)) (mI ((c : Thread nD τ).loc main_arg1)) := by
  funext r j
  rw [AggValue.xCopy_read, aggLast_read]
  unfold Cert.Spec.hid
  exact congrArg (· + _) (congrFun (V_main_arg0 mI c) (ix2 r j))

/-- The five parameter blocks the last point finds staged are the parameter arrays as launched. -/
theorem par2 (c : Dev nD) (t : Fin cfg0.N) : (st0_2 t).view.read (Elt Ideal) (X2at mI c t) = (mI ((c : Thread nD τ).loc main_arg2)) :=
  ((hstage0_2 ((cfg0.slots t 2).cast nbuf0_2)).read_unread (iblk mI c 2 t)).trans (iblk2_eq mI c t)
theorem par3 (c : Dev nD) (t : Fin cfg0.N) : (st0_3 t).view.read (Elt Ideal) (X3at mI c t) = (mI ((c : Thread nD τ).loc main_arg3)) :=
  ((hstage0_3 ((cfg0.slots t 3).cast nbuf0_3)).read_unread (iblk mI c 3 t)).trans (iblk3_eq mI c t)
theorem par4 (c : Dev nD) (t : Fin cfg0.N) : (st0_4 t).view.read (Elt Ideal) (X4at mI c t) = (mI ((c : Thread nD τ).loc main_arg4)) :=
  ((hstage0_4 ((cfg0.slots t 4).cast nbuf0_4)).read_unread (iblk mI c 4 t)).trans (iblk4_eq mI c t)
theorem par5 (c : Dev nD) (t : Fin cfg0.N) : (st0_5 t).view.read (Elt Ideal) (X5at mI c t) = (mI ((c : Thread nD τ).loc main_arg5)) :=
  ((hstage0_5 ((cfg0.slots t 5).cast nbuf0_5)).read_unread (iblk mI c 5 t)).trans (iblk5_eq mI c t)
theorem par6 (c : Dev nD) (t : Fin cfg0.N) : (st0_6 t).view.read (Elt Ideal) (X6at mI c t) = (mI ((c : Thread nD τ).loc main_arg6)) :=
  ((hstage0_6 ((cfg0.slots t 6).cast nbuf0_6)).read_unread (iblk mI c 6 t)).trans (iblk6_eq mI c t)

/-- THE RESULT ARRAY at the end is the specification's, given that the last point's tiles read as the perceptron of the
    hidden rows it computes and of the parameter blocks it finds staged. -/
theorem out_eq_of (c : Dev nD)
    (hOut : ∀ (r : Fin 100000) (cc : Fin 64),
      (Memref.whole main_v4_0 : Memref sig .tc .hbm S100000x64 .f32).view.read (Elt Ideal) (outC (F := Ideal) mI hV0 hV1 c) (ix2 r cc)
        = Cert.Spec.outOf (fun (r : Fin 100000) (j : Fin 64) => (HAdd.hAdd (α := EReal) (β := EReal) (γ := EReal)
              ((Memref.whole cc0_scratch0 : Memref sig .tc .vmem S100000x64 .f32).view.read (Elt Ideal) (xCopy (F := Ideal) c (V mI c main_arg0)) (ix2 r j))
              ((Memref.whole cc0_scratch1 : Memref sig .tc .vmem S100000x64 .f32).view.read (Elt Ideal) (aggAfter (F := Ideal) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) (X0at mI c tlast) (X1at mI c tlast) (xCopy (F := Ideal) c (V mI c main_arg0)) (hV0 c tlast) (hV1 c tlast) (aggC (F := Ideal) mI hV0 hV1 c (tlast.val - 1) (by have := tlast.isLt; omega))) (ix2 r j))))
          ((st0_2 tlast).view.read (Elt Ideal) (X2at mI c tlast)) ((st0_3 tlast).view.read (Elt Ideal) (X3at mI c tlast))
          ((st0_4 tlast).view.read (Elt Ideal) (X4at mI c tlast)) ((st0_5 tlast).view.read (Elt Ideal) (X5at mI c tlast))
          ((st0_6 tlast).view.read (Elt Ideal) (X6at mI c tlast)) r cc) :
    outC (F := Ideal) mI hV0 hV1 c
      = Cert.Spec.outArr (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) := by
  funext i
  obtain ⟨r, cc, rfl⟩ : ∃ (r : Fin 100000) (cc : Fin 64), i = ix2 r cc := ⟨i 0, i 1, eq_ix2 i⟩
  refine (hOut r cc).trans ?_
  rw [hid_eq, par2, par3, par4, par5, par6]
  rfl

end KValue

open KValue

/-- THE KERNEL SIDE'S VALUE over the extended reals, from the last point's tiles: if what the last point leaves in the
    result array reads, at (r, c), as the perceptron of the hidden rows it computes and of the parameter blocks it finds
    staged, then from any memory whose edge words are node numbers every weakly fair execution of @main terminates, and
    every final state holds the specification's result array and gate array, and the seven arguments as launched. -/
theorem kernel_value_of [Cert.KernelIdeal.Facts] (mI : (ℓ : Loc nD τ sig) → Buf (Elt Ideal) ℓ) (ρ : Dev nD → PrngReg)
    (hR : ∀ c : Dev nD, Cert.Spec.InRange (mI ((c : Thread nD τ).loc main_arg1)))
    (hOut : ∀ (c : Dev nD) (r : Fin 100000) (cc : Fin 64),
      (Memref.whole main_v4_0 : Memref sig .tc .hbm S100000x64 .f32).view.read (Elt Ideal) (outC (F := Ideal) mI (wordsOK0 mI hR) (wordsOK1 mI hR) c) (ix2 r cc)
        = Cert.Spec.outOf (fun (r : Fin 100000) (j : Fin 64) => (HAdd.hAdd (α := EReal) (β := EReal) (γ := EReal)
              ((Memref.whole cc0_scratch0 : Memref sig .tc .vmem S100000x64 .f32).view.read (Elt Ideal) (xCopy (F := Ideal) c (V mI c main_arg0)) (ix2 r j))
              ((Memref.whole cc0_scratch1 : Memref sig .tc .vmem S100000x64 .f32).view.read (Elt Ideal) (aggAfter (F := Ideal) c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) (X0at mI c tlast) (X1at mI c tlast) (xCopy (F := Ideal) c (V mI c main_arg0)) (wordsOK0 mI hR c tlast) (wordsOK1 mI hR c tlast) (aggC (F := Ideal) mI (wordsOK0 mI hR) (wordsOK1 mI hR) c (tlast.val - 1) (by have := tlast.isLt; omega))) (ix2 r j))))
          ((st0_2 tlast).view.read (Elt Ideal) (X2at mI c tlast)) ((st0_3 tlast).view.read (Elt Ideal) (X3at mI c tlast))
          ((st0_4 tlast).view.read (Elt Ideal) (X4at mI c tlast)) ((st0_5 tlast).view.read (Elt Ideal) (X5at mI c tlast))
          ((st0_6 tlast).view.read (Elt Ideal) (X6at mI c tlast)) r cc) :
    θ_run (defs (F := Ideal)) (onTc (τ := τ) (main (F := Ideal))) ⟨mI, fun _ => 0, ρ⟩ (fun r => ∀ c : Dev nD,
      r.2.mem ((c.tc : Thread nD τ).loc main_v4_0)
          = Cert.Spec.outArr (mI ((c.tc : Thread nD τ).loc main_arg0)) (mI ((c.tc : Thread nD τ).loc main_arg1)) (mI ((c.tc : Thread nD τ).loc main_arg2))
              (mI ((c.tc : Thread nD τ).loc main_arg3)) (mI ((c.tc : Thread nD τ).loc main_arg4)) (mI ((c.tc : Thread nD τ).loc main_arg5)) (mI ((c.tc : Thread nD τ).loc main_arg6))
      ∧ r.2.mem ((c.tc : Thread nD τ).loc main_v4_1) = Cert.Spec.gateArr (mI ((c.tc : Thread nD τ).loc main_arg6))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)
      ∧ r.2.mem ((c.tc : Thread nD τ).loc main_arg5) = mI ((c.tc : Thread nD τ).loc main_arg5)
      ∧ r.2.mem ((c.tc : Thread nD τ).loc main_arg6) = mI ((c.tc : Thread nD τ).loc main_arg6)) :=
  (θ_run defs _ _).mono (fun _ h c =>
    ⟨(final_out (m := mI) (hR := hR) h c).trans (out_eq_of mI (wordsOK0 mI hR) (wordsOK1 mI hR) c (hOut c)),
      (final_gate (m := mI) (hR := hR) h c).trans (gate_eq mI (wordsOK0 mI hR) (wordsOK1 mI hR) c),
      final_arg0 mI hR h c, final_arg1 mI hR h c, final_arg2 mI hR h c, final_arg3 mI hR h c, final_arg4 mI hR h c, final_arg5 mI hR h c, final_arg6 mI hR h c⟩)
    (run_main mI ρ hR)

/-- THE KERNEL SIDE'S VALUE over the extended reals: from any memory whose edge words are node numbers, every weakly
    fair execution of @main terminates, and every final state holds the specification's result array and gate array,
    and the seven arguments as launched. -/
theorem kernel_value [Cert.KernelIdeal.Facts] (mI : (ℓ : Loc nD τ sig) → Buf (Elt Ideal) ℓ) (ρ : Dev nD → PrngReg)
    (hR : ∀ c : Dev nD, Cert.Spec.InRange (mI ((c : Thread nD τ).loc main_arg1))) :
    θ_run (defs (F := Ideal)) (onTc (τ := τ) (main (F := Ideal))) ⟨mI, fun _ => 0, ρ⟩ (fun r => ∀ c : Dev nD,
      r.2.mem ((c.tc : Thread nD τ).loc main_v4_0)
          = Cert.Spec.outArr (mI ((c.tc : Thread nD τ).loc main_arg0)) (mI ((c.tc : Thread nD τ).loc main_arg1)) (mI ((c.tc : Thread nD τ).loc main_arg2))
              (mI ((c.tc : Thread nD τ).loc main_arg3)) (mI ((c.tc : Thread nD τ).loc main_arg4)) (mI ((c.tc : Thread nD τ).loc main_arg5)) (mI ((c.tc : Thread nD τ).loc main_arg6))
      ∧ r.2.mem ((c.tc : Thread nD τ).loc main_v4_1) = Cert.Spec.gateArr (mI ((c.tc : Thread nD τ).loc main_arg6))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)
      ∧ r.2.mem ((c.tc : Thread nD τ).loc main_arg5) = mI ((c.tc : Thread nD τ).loc main_arg5)
      ∧ r.2.mem ((c.tc : Thread nD τ).loc main_arg6) = mI ((c.tc : Thread nD τ).loc main_arg6)) :=
  kernel_value_of mI ρ hR (fun c r cc =>
    out_read c tlast (st0_0 tlast) (hstage0_0 ((cfg0.slots tlast 0).cast nbuf0_0)) (st0_1 tlast) (hstage0_1 ((cfg0.slots tlast 1).cast nbuf0_1)) (st0_2 tlast) (hstage0_2 ((cfg0.slots tlast 2).cast nbuf0_2)) (st0_3 tlast) (hstage0_3 ((cfg0.slots tlast 3).cast nbuf0_3)) (st0_4 tlast) (hstage0_4 ((cfg0.slots tlast 4).cast nbuf0_4)) (st0_5 tlast) (hstage0_5 ((cfg0.slots tlast 5).cast nbuf0_5)) (st0_6 tlast) (hstage0_6 ((cfg0.slots tlast 6).cast nbuf0_6)) (st0_7 tlast) (hstage0_7 ((cfg0.slots tlast 7).cast nbuf0_7)) tlast_not_first tlast_last
      (X0at mI c tlast) (X1at mI c tlast) (X2at mI c tlast) (X3at mI c tlast) (X4at mI c tlast) (X5at mI c tlast) (X6at mI c tlast)
      (st0_7 tlast).view.junk (xCopy (F := Ideal) c (V mI c main_arg0))
      (aggC (F := Ideal) mI (wordsOK0 mI hR) (wordsOK1 mI hR) c (tlast.val - 1) (by have := tlast.isLt; omega))
      (Memref.whole cc0_scratch2 : Memref sig .tc .vmem S5000x64 .f32).view.junk (wordsOK0 mI hR c tlast) (wordsOK1 mI hR c tlast)
      (V mI c main_v4_0) r cc)

end Cert.Proof.KernelIdeal

end
-- ==== Proof.lean ====
/-
  The certificate of the fused graph-layer kernel against its reference, over the extended reals.

  The layer: every node's aggregate is the sum of its in-neighbours' feature rows; the hidden row is the node's own
  row plus its aggregate; the result is sigmoid(alpha) times a two-layer perceptron of the hidden row, and the
  second result is sigmoid(alpha). The kernel accumulates the aggregate edge by edge in a scratch buffer over a
  grid of 3125 blocks of 512 edges and evaluates the perceptron tile by tile at the last grid point; the reference
  gathers, scatter-adds and multiplies whole arrays. Both are claimed under the precondition that every float
  input is finite and every word of the edge array is a node number (0 ≤ word < 100000): outside that range the
  reference itself indexes out of range, and the kernel's row accesses are not inside its arrays.

  Frames. Each kernel program's run is the pipeline's routed frame run (KernelLaunch, KernelIdealLaunch) at the word
  facts the precondition gives (PreRange); the reference's is its straight-line run with the results dropped.
  The idealization rewrote nothing, so its ledger is empty.
  Values. At the ideal instance the kernel's two results are the specification's arrays (KernelIdealValue: the
  aggregate as the sequential accumulation of all edges, equal to the filtered sum since addition of extended
  reals is commutative and associative; the tiles as the gated perceptron) and so are the reference's (RefValue).
-/
import proofs.«407827_j64682207478383_2_alg».proof.Defs
import proofs.«407827_j64682207478383_2_alg».proof.Proof.Gen.Kernel
import proofs.«407827_j64682207478383_2_alg».proof.Proof.Gen.KernelIdeal
import proofs.«407827_j64682207478383_2_alg».proof.Proof.Gen.ReferenceIdeal
import proofs.«407827_j64682207478383_2_alg».proof.Proof.Gen.Pre_finite_inputs
import proofs.«407827_j64682207478383_2_alg».proof.Proof.KernelLaunch
import proofs.«407827_j64682207478383_2_alg».proof.Proof.KernelIdealLaunch
import proofs.«407827_j64682207478383_2_alg».proof.Proof.RefValue
import proofs.«407827_j64682207478383_2_alg».proof.Proof.PreRange
import proofs.«407827_j64682207478383_2_alg».proof.Proof.KernelIdealValue
import Idealize.ShloMosaic.Adequacy
import Idealize.ShloMosaic.Init

noncomputable section

namespace Cert.Proof

open Idealize.ShloMosaic Idealize.ShloMosaic.TcCoe Idealize.SL.Sem

/-- Under the precondition every word of the edge array is a node number: for the word-level kernel, -/
theorem range_k (m : (ℓ : Loc Cert.Kernel.nD Cert.Kernel.τ Cert.Kernel.sig) → Buf (Elt Bits) ℓ) (h : Cert.Pre_Kernel m) :
    ∀ c : Dev Cert.Kernel.nD, Cert.Spec.InRange (m ((c : Thread Cert.Kernel.nD Cert.Kernel.τ).loc Cert.Kernel.main_arg1)) :=
  fun c => Cert.Proof.PreRange.inRange_of_pre _ _ _ _ _ _ _ (h c)
/-- the idealized kernel, -/
theorem range_ki (m : (ℓ : Loc Cert.KernelIdeal.nD Cert.KernelIdeal.τ Cert.KernelIdeal.sig) → Buf (Elt Ideal) ℓ) (h : Cert.Pre_KernelIdeal m) :
    ∀ c : Dev Cert.KernelIdeal.nD, Cert.Spec.InRange (m ((c : Thread Cert.KernelIdeal.nD Cert.KernelIdeal.τ).loc Cert.KernelIdeal.main_arg1)) :=
  fun c => Cert.Proof.PreRange.inRange_of_pre _ _ _ _ _ _ _ (h c)
/-- and the reference. -/
theorem range_ri (m : (ℓ : Loc Cert.ReferenceIdeal.nD Cert.ReferenceIdeal.τ Cert.ReferenceIdeal.sig) → Buf (Elt Ideal) ℓ) (h : Cert.Pre_ReferenceIdeal m) :
    ∀ c : Dev Cert.ReferenceIdeal.nD, Cert.Spec.InRange (m ((c.tc : Thread Cert.ReferenceIdeal.nD Cert.ReferenceIdeal.τ).loc Cert.ReferenceIdeal.main_arg1)) :=
  fun c => Cert.Proof.PreRange.inRange_of_pre _ _ _ _ _ _ _ (h c)

theorem frame_k : Cert.frame_Kernel := fun m g h => Cert.Proof.Kernel.frame_run m g (range_k m h)
theorem frame_ki : Cert.frame_KernelIdeal := fun m g h => Cert.Proof.KernelIdeal.frame_run m g (range_ki m h)
theorem frame_ri : Cert.frame_ReferenceIdeal := fun m g h =>
  (θ_run Cert.ReferenceIdeal.defs _ _).mono (fun _ hh c => (hh c).2.2) (Cert.Proof.RefValue.ref_run m g (range_ri m h))

/-- At the ideal instance, from memories that agree on the seven arguments, both programs run to the end with the
    specification's result array and gate array as their results, and their arguments unchanged. -/
theorem algebraic : Cert.algebraic_KernelIdeal_ReferenceIdeal := by
  intro m g m' g' hpre hagree
  have hR := range_ki m hpre
  have hR' : ∀ c : Dev Cert.ReferenceIdeal.nD,
      Cert.Spec.InRange (m' ((c.tc : Thread Cert.ReferenceIdeal.nD Cert.ReferenceIdeal.τ).loc Cert.ReferenceIdeal.main_arg1)) :=
    fun c => by rw [(hagree c).2.1]; exact hR c
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.gateArr (m ((c.tc : Thread Cert.KernelIdeal.nD Cert.KernelIdeal.τ).loc Cert.KernelIdeal.main_arg6)), Cert.Proof.KernelIdeal.kernel_value m g hR, ?_⟩
  refine (θ_run Cert.ReferenceIdeal.defs _ _).mono (fun _ h c => ?_) (Cert.Proof.RefValue.ref_run m' g' hR')
  obtain ⟨h0, h1, hargs⟩ := h c
  obtain ⟨a0, a1, a2, a3, a4, a5, a6⟩ := hagree c
  refine ⟨?_, ?_, hargs⟩
  · rw [h0, a0, a1, a2, a3, a4, a5, a6]
  · rw [h1, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
